-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S2000x256 : Shape := ⟨2, ![2000, 256]⟩
abbrev S25x2x256 : Shape := ⟨3, ![25, 2, 256]⟩
abbrev S400x10000 : Shape := ⟨2, ![400, 10000]⟩
abbrev S400x256 : Shape := ⟨2, ![400, 256]⟩
abbrev S1x2x256 : Shape := ⟨3, ![1, 2, 256]⟩
abbrev S1x256 : Shape := ⟨2, ![1, 256]⟩
abbrev S1x1x256 : Shape := ⟨3, ![1, 1, 256]⟩
abbrev S25x1x256 : Shape := ⟨3, ![25, 1, 256]⟩
abbrev S25x256 : Shape := ⟨2, ![25, 256]⟩
abbrev S_ : Shape := ⟨0, ![]⟩

abbrev nBuf : Space → Nat
  | .hbm => 85
  | .vmem => 32
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S10000x256, .f32⟩
  | .hbm, ⟨11, _⟩ => ⟨S10000x256, .f32⟩
  | .hbm, ⟨12, _⟩ => ⟨S25x2x256, .f32⟩
  | .hbm, ⟨13, _⟩ => ⟨S25x1x256, .f32⟩
  | .hbm, ⟨14, _⟩ => ⟨S25x256, .f32⟩
  | .hbm, ⟨15, _⟩ => ⟨S_, .f32⟩
  | .hbm, ⟨16, _⟩ => ⟨S256, .f32⟩
  | .hbm, ⟨17, _⟩ => ⟨S25x1x256, .f32⟩
  | .hbm, ⟨18, _⟩ => ⟨S25x256, .f32⟩
  | .hbm, ⟨19, _⟩ => ⟨S_, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S1x256, .f32⟩
  | .hbm, ⟨46, _⟩ => ⟨S1x256, .f32⟩
  | .hbm, ⟨47, _⟩ => ⟨S10000x256, .f32⟩
  | .hbm, ⟨48, _⟩ => ⟨S10000x256, .f32⟩
  | .hbm, ⟨49, _⟩ => ⟨S25x2x256, .f32⟩
  | .hbm, ⟨50, _⟩ => ⟨S25x1x256, .f32⟩
  | .hbm, ⟨51, _⟩ => ⟨S25x256, .f32⟩
  | .hbm, ⟨52, _⟩ => ⟨S_, .f32⟩
  | .hbm, ⟨53, _⟩ => ⟨S256, .f32⟩
  | .hbm, ⟨54, _⟩ => ⟨S25x1x256, .f32⟩
  | .hbm, ⟨55, _⟩ => ⟨S25x256, .f32⟩
  | .hbm, ⟨56, _⟩ => ⟨S_, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S1x256, .f32⟩
  | .hbm, ⟨83, _⟩ => ⟨S1x256, .f32⟩
  | .hbm, ⟨84, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S400x10000, .f32⟩
  | .local _ .vmem, ⟨6, _⟩ => ⟨S400x10000, .f32⟩
  | .local _ .vmem, ⟨7, _⟩ => ⟨S10000x256, .f32⟩
  | .local _ .vmem, ⟨8, _⟩ => ⟨S400x256, .f32⟩
  | .local _ .vmem, ⟨9, _⟩ => ⟨S400x256, .f32⟩
  | .local _ .vmem, ⟨10, _⟩ => ⟨S1x2x256, .f32⟩
  | .local _ .vmem, ⟨11, _⟩ => ⟨S1x2x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S1x256, .f32⟩
  | .local _ .vmem, ⟨16, _⟩ => ⟨S256x256, .f32⟩
  | .local _ .vmem, ⟨17, _⟩ => ⟨S2000x256, .f32⟩
  | .local _ .vmem, ⟨18, _⟩ => ⟨S2000x256, .f32⟩
  | .local _ .vmem, ⟨19, _⟩ => ⟨S400x10000, .f32⟩
  | .local _ .vmem, ⟨20, _⟩ => ⟨S400x10000, .f32⟩
  | .local _ .vmem, ⟨21, _⟩ => ⟨S10000x256, .f32⟩
  | .local _ .vmem, ⟨22, _⟩ => ⟨S400x256, .f32⟩
  | .local _ .vmem, ⟨23, _⟩ => ⟨S400x256, .f32⟩
  | .local _ .vmem, ⟨24, _⟩ => ⟨S1x2x256, .f32⟩
  | .local _ .vmem, ⟨25, _⟩ => ⟨S1x2x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  reduces_S400x256_S256 : S400x256.Reduces [0] S256
  shapeCasts_S256_S1x256 : S256.ShapeCasts S1x256
  inb_S1x2x256_S1x1x256_0_0_0 : ∀ a, (![0, 0, 0] : Fin 3 → Nat) a + S1x1x256.size a ≤ S1x2x256.size a
  h_S1x1x256 : 0 < S1x1x256.numel
  shapeCasts_S1x1x256_S1x256 : S1x1x256.ShapeCasts S1x256
  shapeCasts_S1x256_S1x1x256 : S1x256.ShapeCasts S1x1x256
  inb_S1x2x256_S1x1x256_0_1_0 : ∀ a, (![0, 1, 0] : Fin 3 → Nat) a + S1x1x256.size a ≤ S1x2x256.size a
  slices_S25x2x256_S25x1x256_0_0_0 : S25x2x256.Slices ![0, 0, 0] S25x1x256
  shapeCasts_S25x1x256_S25x256 : S25x1x256.ShapeCasts S25x256
  reducesTo_S25x256_S256_d0 : S25x256.ReducesTo [0] S256
  h_S_ : 0 < S_.numel
  slices_S25x2x256_S25x1x256_0_1_0 : S25x2x256.Slices ![0, 1, 0] S25x1x256
  bcast_S_S256 : S_.BroadcastsInDim S256 (![] : Fin 0 → Fin S256.rank)
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S2000x256_S256x256_S2000x256_1_0_0_1_n_n_wf : DotDims.WF S2000x256 S256x256 S2000x256 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .f32 = 32 ∨ (Rect.block (s := S10000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x256.size a ≤ S25x2x256.size a
  hwx1_3 : ∀ i : grid1.Coords, EltTy.bits .f32 = 32 ∨ (Rect.block (s := S25x2x256) S1x2x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S10000x256.size a
  hwx2_4 : ∀ i : grid2.Coords, EltTy.bits .f32 = 32 ∨ (Rect.block (s := S10000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .f32 = 32 ∨ (Rect.block (s := S10000x256) S10000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x256.size a ≤ S10000x256.size a
  hwx3_2 : ∀ i : grid3.Coords, EltTy.bits .f32 = 32 ∨ (Rect.block (s := S10000x256) S400x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2x256.size a ≤ S25x2x256.size a
  hwx3_3 : ∀ i : grid3.Coords, EltTy.bits .f32 = 32 ∨ (Rect.block (s := S25x2x256) S1x2x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S10000x256.size a
  hwx4_0 : ∀ i : grid4.Coords, EltTy.bits .f32 = 32 ∨ (Rect.block (s := S10000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S10000x256.size a
  hwx4_3 : ∀ i : grid4.Coords, EltTy.bits .f32 = 32 ∨ (Rect.block (s := S10000x256) S2000x256.size (cc4_transform_3 i) (hinb4_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S400x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x2x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31_0) S400x256.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31_1) S1x2x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v31_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 109
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S10000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S_, .i32⟩
  | .hbm, ⟨21, _⟩ => ⟨S_, .f32⟩
  | .hbm, ⟨22, _⟩ => ⟨S256, .f32⟩
  | .hbm, ⟨23, _⟩ => ⟨S1x256, .f32⟩
  | .hbm, ⟨24, _⟩ => ⟨S_, .f32⟩
  | .hbm, ⟨25, _⟩ => ⟨S1x256, .f32⟩
  | .hbm, ⟨26, _⟩ => ⟨S1x256, .f32⟩
  | .hbm, ⟨27, _⟩ => ⟨S10000x256, .f32⟩
  | .hbm, ⟨28, _⟩ => ⟨S10000x256, .f32⟩
  | .hbm, ⟨29, _⟩ => ⟨S10000x256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S10000x256, .f32⟩
  | .hbm, ⟨45, _⟩ => ⟨S10000x256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S10000x256, .f32⟩
  | .hbm, ⟨52, _⟩ => ⟨S10000x256, .f32⟩
  | .hbm, ⟨53, _⟩ => ⟨S1x256, .f32⟩
  | .hbm, ⟨54, _⟩ => ⟨S10000x256, .f32⟩
  | .hbm, ⟨55, _⟩ => ⟨S10000x256, .f32⟩
  | .hbm, ⟨56, _⟩ => ⟨S1x256, .f32⟩
  | .hbm, ⟨57, _⟩ => ⟨S10000x256, .f32⟩
  | .hbm, ⟨58, _⟩ => ⟨S10000x256, .f32⟩
  | .hbm, ⟨59, _⟩ => ⟨S10000x256, .f32⟩
  | .hbm, ⟨60, _⟩ => ⟨S10000x256, .f32⟩
  | .hbm, ⟨61, _⟩ => ⟨S1x256, .f32⟩
  | .hbm, ⟨62, _⟩ => ⟨S10000x256, .f32⟩
  | .hbm, ⟨63, _⟩ => ⟨S10000x256, .f32⟩
  | .hbm, ⟨64, _⟩ => ⟨S_, .f32⟩
  | .hbm, ⟨65, _⟩ => ⟨S256, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S_, .i32⟩
  | .hbm, ⟨70, _⟩ => ⟨S_, .f32⟩
  | .hbm, ⟨71, _⟩ => ⟨S256, .f32⟩
  | .hbm, ⟨72, _⟩ => ⟨S1x256, .f32⟩
  | .hbm, ⟨73, _⟩ => ⟨S_, .f32⟩
  | .hbm, ⟨74, _⟩ => ⟨S1x256, .f32⟩
  | .hbm, ⟨75, _⟩ => ⟨S1x256, .f32⟩
  | .hbm, ⟨76, _⟩ => ⟨S10000x256, .f32⟩
  | .hbm, ⟨77, _⟩ => ⟨S10000x256, .f32⟩
  | .hbm, ⟨78, _⟩ => ⟨S10000x256, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S1x256, .f32⟩
  | .hbm, ⟨93, _⟩ => ⟨S10000x256, .f32⟩
  | .hbm, ⟨94, _⟩ => ⟨S10000x256, .f32⟩
  | .hbm, ⟨95, _⟩ => ⟨S_, .f32⟩
  | .hbm, ⟨96, _⟩ => ⟨S256, .f32⟩
  | .hbm, ⟨97, _⟩ => ⟨S256, .f32⟩
  | .hbm, ⟨98, _⟩ => ⟨S256, .f32⟩
  | .hbm, ⟨99, _⟩ => ⟨S1x256, .f32⟩
  | .hbm, ⟨100, _⟩ => ⟨S10000x256, .f32⟩
  | .hbm, ⟨101, _⟩ => ⟨S10000x256, .f32⟩
  | .hbm, ⟨102, _⟩ => ⟨S1x256, .f32⟩
  | .hbm, ⟨103, _⟩ => ⟨S10000x256, .f32⟩
  | .hbm, ⟨104, _⟩ => ⟨S10000x256, .f32⟩
  | .hbm, ⟨105, _⟩ => ⟨S1x256, .f32⟩
  | .hbm, ⟨106, _⟩ => ⟨S10000x256, .f32⟩
  | .hbm, ⟨107, _⟩ => ⟨S10000x256, .f32⟩
  | .hbm, ⟨108, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_2 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_v31 : Ref sig .tc := ⟨.hbm, 68, rfl⟩
abbrev main_c_4 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_cst_2 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_cst_3 : Ref sig .tc := ⟨.hbm, 86, rfl⟩
abbrev main_call1_v12 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_5 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Spec.lean ====
/-
  A two-layer graph convolution with batch normalisation over the node axis, written as functions on
  extended reals: 10000 nodes, 256 features per layer.

  One layer takes activations `h`, multiplies by a weight matrix (`xw`), aggregates over the dense
  adjacency (`agg`), adds a bias and normalises every feature column to mean 0 and variance 1 over the
  nodes before an affine map (scale γ, offset β); the second layer ends in `tanh`.

  Two spellings of the normalisation are defined here.
  * The DIRECT one (`refOut`): the column mean μ = (Σ_k h k)/n, the column variance
    v = (Σ_k (h k − μ)²)/n, and (h − μ) / √(v + ε) · γ + β.
  * The ONE-PASS one (`kernelOut`): from the raw aggregate r (before the bias b) the column sums
    s = Σ r and q = Σ r², taken 400 rows at a time and then added over the 25 groups; then
    μ = s/n + b, v = (q + 2·b·s)/n + b² − μ², scale = γ · (v + ε)^(−1/2), shift = (b − μ)·scale + β, and
    r · scale + shift.
  Over finite reals the two agree: both variances are q/n − s²/n².
-/
import Idealize.ShloMosaic.Lib.ValueIdx
import Idealize.ShloMosaic.PureOps.Ideal

noncomputable section

open scoped BigOperators

namespace Gcn

open Idealize.ShloMosaic Idealize.ShloMosaic.ValueIdx

/-! ## Shapes and array types -/

abbrev SAct : Shape := ⟨2, ![10000, 256]⟩
abbrev SAdj : Shape := ⟨2, ![10000, 10000]⟩
abbrev SWgt : Shape := ⟨2, ![256, 256]⟩
abbrev SCol : Shape := ⟨1, ![256]⟩
abbrev SRow : Shape := ⟨2, ![1, 256]⟩
abbrev SStat : Shape := ⟨3, ![25, 2, 256]⟩

/-- Activations: one row per node, one column per feature. -/
abbrev Act : Type := SAct.Idx → EReal
/-- The dense adjacency. -/
abbrev Adj : Type := SAdj.Idx → EReal
/-- A layer's weights. -/
abbrev Wgt : Type := SWgt.Idx → EReal
/-- One number per feature. -/
abbrev Col : Type := SCol.Idx → EReal
/-- One number per feature, laid out as a single row. -/
abbrev Row : Type := SRow.Idx → EReal
/-- Per group of 400 rows: the column sums (plane 0) and the column sums of squares (plane 1). -/
abbrev Stat : Type := SStat.Idx → EReal

/-! ## The constants, as the words the programs spell -/

/-- The node count 10000. -/
abbrev cN : EReal := Ideal.ofBits .f32 0x461C4000#32
/-- The factor 2. -/
abbrev cTwo : EReal := Ideal.ofBits .f32 0x40000000#32
/-- The variance offset ε (the float nearest 1e-5). -/
abbrev cEps : EReal := Ideal.ofBits .f32 0x3727C5AC#32
/-- Zero, the start value of every sum. -/
abbrev cZero : EReal := Ideal.ofBits .f32 0x00000000#32

/-- Every entry of a family of extended reals is a real number. -/
def IsReal {ι : Type} (f : ι → EReal) : Prop := ∀ i, ∃ r : ℝ, f i = (r : EReal)

/-! ## The two matrix products -/

/-- `(x · w) p q = Σ_l x p l · w l q`. -/
def xwAt (x : Act) (w : Wgt) (p : Fin 10000) (q : Fin 256) : EReal :=
  ∑ l : Fin 256, x (ix2 p l) * w (ix2 l q)
def xw (x : Act) (w : Wgt) : Act := fun i => xwAt x w (i 0) (i 1)

/-- `(a · s) p q = Σ_k a p k · s k q`. -/
def aggAt (a : Adj) (s : Act) (p : Fin 10000) (q : Fin 256) : EReal :=
  ∑ k : Fin 10000, a (ix2 p k) * s (ix2 k q)
def agg (a : Adj) (s : Act) : Act := fun i => aggAt a s (i 0) (i 1)

/-! ## The one-pass normalisation -/

/-- Row `p` of the `t`-th group of 400 rows. -/
def rowOf (t : Fin 25) (p : Fin 400) : Fin 10000 := ⟨400 * t.val + p.val, by omega⟩

/-- A group's column sum … -/
def blockSum (r : Act) (t : Fin 25) (q : Fin 256) : EReal := ∑ p : Fin 400, r (ix2 (rowOf t p) q)
/-- … and its column sum of squares. -/
def blockSq (r : Act) (t : Fin 25) (q : Fin 256) : EReal :=
  ∑ p : Fin 400, r (ix2 (rowOf t p) q) * r (ix2 (rowOf t p) q)
/-- Both, for every group: plane 0 the sums, plane 1 the sums of squares. -/
def stats (r : Act) : Stat := fun i => if (i 1).val = 0 then blockSum r (i 0) (i 2) else blockSq r (i 0) (i 2)

/-- The column sum `s`: the groups' sums added. -/
def colSum (st : Stat) (q : Fin 256) : EReal := cZero + ∑ t : Fin 25, st (ix3 t (0 : Fin 2) q)
/-- The column sum of squares `q`. -/
def colSq (st : Stat) (q : Fin 256) : EReal := cZero + ∑ t : Fin 25, st (ix3 t (1 : Fin 2) q)
/-- μ = s/n + b. -/
def kMean (st : Stat) (b : Col) (q : Fin 256) : EReal := Ideal.div (colSum st q) cN + b (ix1 q)
/-- v = (q + 2·b·s)/n + b² − μ². -/
def kVar (st : Stat) (b : Col) (q : Fin 256) : EReal :=
  (Ideal.div (colSq st q + cTwo * b (ix1 q) * colSum st q) cN + b (ix1 q) * b (ix1 q)) - kMean st b q * kMean st b q
/-- scale = γ · (v + ε)^(−1/2). -/
def kScaleAt (st : Stat) (b g : Col) (q : Fin 256) : EReal := g (ix1 q) * Ideal.rsqrt (kVar st b q + cEps)
/-- shift = (b − μ) · scale + β. -/
def kShiftAt (st : Stat) (b g be : Col) (q : Fin 256) : EReal :=
  (b (ix1 q) - kMean st b q) * kScaleAt st b g q + be (ix1 q)
def kScale (st : Stat) (b g : Col) : Col := fun j => kScaleAt st b g (j 0)
def kShift (st : Stat) (b g be : Col) : Col := fun j => kShiftAt st b g be (j 0)

/-- A per-feature vector laid out as one row. -/
def asRow (v : Col) : Row := fun i => v (ix1 (i 1))

/-- `r · scale + shift`, the scale and shift one row each. -/
def affine (r : Act) (sc sh : Row) : Act := fun i => r i * sc (ix2 (0 : Fin 1) (i 1)) + sh (ix2 (0 : Fin 1) (i 1))
/-- The same followed by `tanh`. -/
def tanhAffine (r : Act) (sc sh : Row) : Act := fun i => Ideal.tanh (affine r sc sh i)

/-- One layer's normalisation in the one-pass spelling, from the raw aggregate `r`. -/
def kLayer (r : Act) (b g be : Col) : Act :=
  affine r (asRow (kScale (stats r) b g)) (asRow (kShift (stats r) b g be))

/-- The whole network, one-pass spelling. -/
def kernelOut (x : Act) (a : Adj) (w1 : Wgt) (b1 g1 be1 : Col) (w2 : Wgt) (b2 g2 be2 : Col) : Act :=
  fun i => Ideal.tanh (kLayer (agg a (xw (kLayer (agg a (xw x w1)) b1 g1 be1) w2)) b2 g2 be2 i)

/-! ## The direct normalisation -/

/-- The bias added to every row. -/
def addBias (r : Act) (b : Col) : Act := fun i => r i + b (ix1 (i 1))
/-- μ = (Σ_k h k)/n. -/
def rMean (h : Act) (q : Fin 256) : EReal := Ideal.div (cZero + ∑ k : Fin 10000, h (ix2 k q)) cN
/-- v = (Σ_k (h k − μ)²)/n. -/
def rVar (h : Act) (q : Fin 256) : EReal :=
  Ideal.div (cZero + ∑ k : Fin 10000, (h (ix2 k q) - rMean h q) * (h (ix2 k q) - rMean h q)) cN
/-- (h − μ) / √(v + ε) · γ + β. -/
def rLayerAt (h : Act) (g be : Col) (p : Fin 10000) (q : Fin 256) : EReal :=
  Ideal.div (h (ix2 p q) - rMean h q) (Ideal.sqrt (rVar h q + cEps)) * g (ix1 q) + be (ix1 q)
def rLayer (h : Act) (g be : Col) : Act := fun i => rLayerAt h g be (i 0) (i 1)

/-- The whole network, direct spelling. -/
def refOut (x : Act) (a : Adj) (w1 : Wgt) (b1 g1 be1 : Col) (w2 : Wgt) (b2 g2 be2 : Col) : Act :=
  fun i => Ideal.tanh (rLayer (addBias (agg a (xw (rLayer (addBias (agg a (xw x w1)) b1) g1 be1) w2)) b2) g2 be2 i)

end Gcn

end
-- ==== Proof.Consts.lean ====
/-
  The four float words of the two programs as real numbers: 10000, 2, a positive ε, and 0.
-/
import proofs.«156090_g77017353552286_cont_9to1c4b_820_2_alg».proof.Proof.Spec
import Idealize.ShloMosaic.PureOps.Ideal.Laws

noncomputable section

namespace Gcn

open Idealize.ShloMosaic

theorem cN_eq : cN = ((10000 : ℝ) : EReal) := by
  simp [Ideal.ofBits, Ideal.ieee, -EReal.coe_mul]; norm_num
theorem cTwo_eq : cTwo = ((2 : ℝ) : EReal) := by
  simp [Ideal.ofBits, Ideal.ieee, -EReal.coe_mul]; norm_num
theorem cEps_pos : ∃ e : ℝ, 0 < e ∧ cEps = (e : EReal) := by
  refine ⟨((1 : ℝ) * ((2 ^ 23 + 2606508 : ℕ) : ℝ) * (2 : ℝ) ^ ((110 : ℤ) - (2 ^ (8 - 1) - 1) - 23)), by positivity, ?_⟩
  simp [Ideal.ofBits, Ideal.ieee, -EReal.coe_mul]
theorem cZero_eq : cZero = 0 := Ideal.ofBits_zero_f32

end Gcn

end
-- ==== Proof.Bridge.lean ====
/-
  The two spellings of the network agree on finite inputs.
  Per feature column, with s = Σ r and q = Σ r² over the 10000 rows of the raw aggregate r and bias b:
  the direct mean (Σ (r + b))/n is s/n + b, and the direct variance Σ (r + b − μ)²/n and the one-pass
  variance (q + 2·b·s)/n + b² − μ² are both q/n − s²/n²; it is ≥ 0, so v + ε > 0 and
  y / √(v + ε) = y · (v + ε)^(−1/2); then (r + b − μ)/√(v+ε)·γ + β = r·scale + shift by distributivity.
  All of this is arithmetic of real numbers: finiteness of the inputs makes every intermediate value real.
-/
import proofs.«156090_g77017353552286_cont_9to1c4b_820_2_alg».proof.Proof.Spec
import Mathlib.Analysis.SpecialFunctions.Sqrt
import Mathlib.Algebra.BigOperators.Field
import Mathlib.Tactic.Ring
import Mathlib.Tactic.FieldSimp
import Mathlib.Tactic.Positivity
import Mathlib.Tactic.Linarith

noncomputable section

open scoped BigOperators

namespace Gcn

open Idealize.ShloMosaic Idealize.ShloMosaic.ValueIdx

/-! The supporting lemmas live in their own namespace. -/
namespace Bridge

/-! ## Real-valued arrays inside the extended reals -/

/-- A family of reals, read as a family of extended reals. -/
def up {ι : Type} (f : ι → ℝ) : ι → EReal := fun i => (f i : EReal)

@[simp] theorem up_apply {ι : Type} (f : ι → ℝ) (i : ι) : up f i = (f i : EReal) := rfl

theorem isReal_up {ι : Type} (f : ι → ℝ) : IsReal (up f) := fun i => ⟨f i, rfl⟩

/-- A family whose entries are all real is the image of a family of reals. -/
theorem exists_up_of_isReal {ι : Type} {f : ι → EReal} (h : IsReal f) : ∃ f' : ι → ℝ, f = up f' := by
  choose f' hf' using h
  exact ⟨f', funext hf'⟩

/-- A finite sum of reals, taken in the extended reals, is the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The 10000 rows are the 25 groups of 400 rows. -/
theorem sum_rows {M : Type} [AddCommMonoid M] (f : Fin 10000 → M) :
    ∑ t : Fin 25, ∑ p : Fin 400, f (rowOf t p) = ∑ k : Fin 10000, f k := by
  refine (Fintype.sum_prod_type' (fun t p => f (rowOf t p))).symm.trans ?_
  refine Fintype.sum_equiv (finProdFinEquiv (m := 25) (n := 400)) _ _ (fun x => ?_)
  congr 1
  apply Fin.ext
  simp only [rowOf, finProdFinEquiv_apply_val]
  omega

/-! ## The matrix products and the bias keep the entries real -/

/-- The real matrix product `x · w`. -/
def xwRAt (x' : SAct.Idx → ℝ) (w' : SWgt.Idx → ℝ) (p : Fin 10000) (q : Fin 256) : ℝ :=
  ∑ l : Fin 256, x' (ix2 p l) * w' (ix2 l q)
def xwR (x' : SAct.Idx → ℝ) (w' : SWgt.Idx → ℝ) : SAct.Idx → ℝ := fun i => xwRAt x' w' (i 0) (i 1)

/-- The real aggregate `a · s`. -/
def aggRAt (a' : SAdj.Idx → ℝ) (s' : SAct.Idx → ℝ) (p : Fin 10000) (q : Fin 256) : ℝ :=
  ∑ k : Fin 10000, a' (ix2 p k) * s' (ix2 k q)
def aggR (a' : SAdj.Idx → ℝ) (s' : SAct.Idx → ℝ) : SAct.Idx → ℝ := fun i => aggRAt a' s' (i 0) (i 1)

/-- The real bias added to every row. -/
def biasR (r' : SAct.Idx → ℝ) (b' : SCol.Idx → ℝ) : SAct.Idx → ℝ := fun i => r' i + b' (ix1 (i 1))

theorem xw_up (x' : SAct.Idx → ℝ) (w' : SWgt.Idx → ℝ) : xw (up x') (up w') = up (xwR x' w') := by
  funext i
  simp only [xw, xwAt, xwR, xwRAt, up_apply, ← EReal.coe_mul, coe_sum]

theorem agg_up (a' : SAdj.Idx → ℝ) (s' : SAct.Idx → ℝ) : agg (up a') (up s') = up (aggR a' s') := by
  funext i
  simp only [agg, aggAt, aggR, aggRAt, up_apply, ← EReal.coe_mul, coe_sum]

theorem addBias_up (r' : SAct.Idx → ℝ) (b' : SCol.Idx → ℝ) :
    addBias (up r') (up b') = up (biasR r' b') := by
  funext i
  simp only [addBias, biasR, up_apply, ← EReal.coe_add]

/-! ## The column statistics over the reals

For one feature column `c : Fin 10000 → ℝ` of the raw aggregate and its bias `b`. -/

/-- The one-pass mean `s/n + b`. -/
def mu1 (c : Fin 10000 → ℝ) (b : ℝ) : ℝ := (∑ k, c k) * (1 / 10000) + b
/-- The one-pass variance `(q + 2·b·s)/n + b² − μ²`. -/
def v1 (c : Fin 10000 → ℝ) (b : ℝ) : ℝ :=
  ((∑ k, c k * c k) + 2 * b * (∑ k, c k)) * (1 / 10000) + b * b - mu1 c b * mu1 c b
/-- The direct mean of the biased column. -/
def mu2 (c : Fin 10000 → ℝ) (b : ℝ) : ℝ := (∑ k, (c k + b)) * (1 / 10000)
/-- The direct variance of the biased column. -/
def v2 (c : Fin 10000 → ℝ) (b : ℝ) : ℝ :=
  (∑ k, (c k + b - mu2 c b) * (c k + b - mu2 c b)) * (1 / 10000)

theorem mu2_eq (c : Fin 10000 → ℝ) (b : ℝ) : mu2 c b = mu1 c b := by
  unfold mu2 mu1
  rw [Finset.sum_add_distrib, Finset.sum_const, Finset.card_univ, Fintype.card_fin, nsmul_eq_mul]
  push_cast
  ring

theorem v2_eq (c : Fin 10000 → ℝ) (b : ℝ) : v2 c b = v1 c b := by
  unfold v2 v1
  rw [mu2_eq]
  have h : ∀ k, (c k + b - mu1 c b) * (c k + b - mu1 c b)
      = c k * c k + 2 * (b - mu1 c b) * c k + (b - mu1 c b) * (b - mu1 c b) := fun k => by ring
  simp only [h, Finset.sum_add_distrib, ← Finset.mul_sum, Finset.sum_const, Finset.card_univ,
    Fintype.card_fin, nsmul_eq_mul]
  unfold mu1
  push_cast
  ring

theorem v2_nonneg (c : Fin 10000 → ℝ) (b : ℝ) : 0 ≤ v2 c b := by
  unfold v2
  exact mul_nonneg (Finset.sum_nonneg fun k _ => mul_self_nonneg _) (by norm_num)

/-- The normalisation of one entry: the direct form is the folded scale and shift. -/
theorem norm_eq (y b m s g be : ℝ) (hs : s ≠ 0) :
    (y + b - m) * (1 / s) * g + be = y * (g * s⁻¹) + ((b - m) * (g * s⁻¹) + be) := by
  rw [one_div]
  ring

theorem v1_pos (c : Fin 10000 → ℝ) (b : ℝ) {e : ℝ} (he : 0 < e) : 0 < v1 c b + e := by
  have := v2_nonneg c b
  rw [v2_eq] at this
  linarith

/-! ## The one-pass statistics of a real aggregate -/

/-- Column `q` of a real array. -/
def col (r' : SAct.Idx → ℝ) (q : Fin 256) : Fin 10000 → ℝ := fun k => r' (ix2 k q)

theorem colSum_up (hZero : cZero = 0) (r' : SAct.Idx → ℝ) (q : Fin 256) :
    colSum (stats (up r')) q = ((∑ k, col r' q k : ℝ) : EReal) := by
  have h : ∀ t : Fin 25, stats (up r') (ix3 t (0 : Fin 2) q) = blockSum (up r') t q := fun t => rfl
  rw [colSum, hZero, zero_add]
  simp only [h, blockSum]
  rw [sum_rows (fun k => up r' (ix2 k q))]
  simp only [up_apply, coe_sum, col]

theorem colSq_up (hZero : cZero = 0) (r' : SAct.Idx → ℝ) (q : Fin 256) :
    colSq (stats (up r')) q = ((∑ k, col r' q k * col r' q k : ℝ) : EReal) := by
  have h : ∀ t : Fin 25, stats (up r') (ix3 t (1 : Fin 2) q) = blockSq (up r') t q := fun t => rfl
  rw [colSq, hZero, zero_add]
  simp only [h, blockSq]
  rw [sum_rows (fun k => up r' (ix2 k q) * up r' (ix2 k q))]
  simp only [up_apply, ← EReal.coe_mul, coe_sum, col]

section Consts
variable (hN : cN = ((10000 : ℝ) : EReal)) (hTwo : cTwo = ((2 : ℝ) : EReal)) (hZero : cZero = 0)
  {e : ℝ} (he : 0 < e) (hEps : cEps = (e : EReal))
include hN hZero

theorem kMean_up (r' : SAct.Idx → ℝ) (b' : SCol.Idx → ℝ) (q : Fin 256) :
    kMean (stats (up r')) (up b') q = ((mu1 (col r' q) (b' (ix1 q)) : ℝ) : EReal) := by
  rw [kMean, colSum_up hZero, hN, Ideal.div_coe (by norm_num), up_apply, ← EReal.coe_mul,
    ← EReal.coe_add]
  rfl

include hTwo

theorem kVar_up (r' : SAct.Idx → ℝ) (b' : SCol.Idx → ℝ) (q : Fin 256) :
    kVar (stats (up r')) (up b') q = ((v1 (col r' q) (b' (ix1 q)) : ℝ) : EReal) := by
  rw [kVar, kMean_up hN hZero, colSum_up hZero, colSq_up hZero, hN, hTwo,
    Ideal.div_coe (by norm_num), up_apply]
  simp only [← EReal.coe_mul, ← EReal.coe_add, ← EReal.coe_sub]
  rfl

include he hEps

theorem kScaleAt_up (r' : SAct.Idx → ℝ) (b' g' : SCol.Idx → ℝ) (q : Fin 256) :
    kScaleAt (stats (up r')) (up b') (up g') q
      = ((g' (ix1 q) * (Real.sqrt (v1 (col r' q) (b' (ix1 q)) + e))⁻¹ : ℝ) : EReal) := by
  have hpos := v1_pos (col r' q) (b' (ix1 q)) he
  rw [kScaleAt, kVar_up hN hTwo hZero, hEps, ← EReal.coe_add, Ideal.rsqrt_coe,
    if_neg (not_lt.mpr hpos.le), if_neg hpos.ne', up_apply, ← EReal.coe_mul]

theorem kShiftAt_up (r' : SAct.Idx → ℝ) (b' g' be' : SCol.Idx → ℝ) (q : Fin 256) :
    kShiftAt (stats (up r')) (up b') (up g') (up be') q
      = (((b' (ix1 q) - mu1 (col r' q) (b' (ix1 q)))
          * (g' (ix1 q) * (Real.sqrt (v1 (col r' q) (b' (ix1 q)) + e))⁻¹) + be' (ix1 q) : ℝ) : EReal) := by
  rw [kShiftAt, kScaleAt_up hN hTwo hZero he hEps, kMean_up hN hZero, up_apply, up_apply,
    ← EReal.coe_sub, ← EReal.coe_mul, ← EReal.coe_add]

end Consts

/-! ## The direct statistics of the biased real aggregate -/

/-- The direct layer over the reals, at one entry … -/
def rLayerRAt (e : ℝ) (r' : SAct.Idx → ℝ) (b' g' be' : SCol.Idx → ℝ) (p : Fin 10000) (q : Fin 256) : ℝ :=
  (r' (ix2 p q) + b' (ix1 q) - mu2 (col r' q) (b' (ix1 q)))
    * (1 / Real.sqrt (v2 (col r' q) (b' (ix1 q)) + e)) * g' (ix1 q) + be' (ix1 q)
/-- … and as an array. -/
def rLayerR (e : ℝ) (r' : SAct.Idx → ℝ) (b' g' be' : SCol.Idx → ℝ) : SAct.Idx → ℝ :=
  fun i => rLayerRAt e r' b' g' be' (i 0) (i 1)

section Consts
variable (hN : cN = ((10000 : ℝ) : EReal)) (hTwo : cTwo = ((2 : ℝ) : EReal)) (hZero : cZero = 0)
  {e : ℝ} (he : 0 < e) (hEps : cEps = (e : EReal))
include hN hZero

theorem rMean_up (r' : SAct.Idx → ℝ) (b' : SCol.Idx → ℝ) (q : Fin 256) :
    rMean (up (biasR r' b')) q = ((mu2 (col r' q) (b' (ix1 q)) : ℝ) : EReal) := by
  rw [rMean, hZero, zero_add, hN, Ideal.div_coe (by norm_num)]
  simp only [up_apply, coe_sum, ← EReal.coe_mul]
  rfl

theorem rVar_up (r' : SAct.Idx → ℝ) (b' : SCol.Idx → ℝ) (q : Fin 256) :
    rVar (up (biasR r' b')) q = ((v2 (col r' q) (b' (ix1 q)) : ℝ) : EReal) := by
  rw [rVar, rMean_up hN hZero, hZero, zero_add, hN, Ideal.div_coe (by norm_num)]
  simp only [up_apply, ← EReal.coe_sub, ← EReal.coe_mul, coe_sum]
  rfl

include he hEps

theorem rLayerAt_up (r' : SAct.Idx → ℝ) (b' g' be' : SCol.Idx → ℝ) (p : Fin 10000) (q : Fin 256) :
    rLayerAt (up (biasR r' b')) (up g') (up be') p q = ((rLayerRAt e r' b' g' be' p q : ℝ) : EReal) := by
  have hpos : 0 < v2 (col r' q) (b' (ix1 q)) + e := by
    have := v2_nonneg (col r' q) (b' (ix1 q)); linarith
  have hs : Real.sqrt (v2 (col r' q) (b' (ix1 q)) + e) ≠ 0 := (Real.sqrt_pos.mpr hpos).ne'
  rw [rLayerAt, rMean_up hN hZero, rVar_up hN hZero, hEps, ← EReal.coe_add, Ideal.sqrt_coe,
    if_neg (not_lt.mpr hpos.le), Ideal.div_coe hs]
  simp only [up_apply, ← EReal.coe_sub, ← EReal.coe_mul, ← EReal.coe_add]
  rfl

/-- The direct layer of a biased real aggregate has real entries. -/
theorem rLayer_up (r' : SAct.Idx → ℝ) (b' g' be' : SCol.Idx → ℝ) :
    rLayer (up (biasR r' b')) (up g') (up be') = up (rLayerR e r' b' g' be') := by
  funext i
  exact rLayerAt_up hN hZero he hEps r' b' g' be' (i 0) (i 1)

include hTwo

/-- THE LAYER LAW: on real arrays the one-pass layer is the direct layer of the biased aggregate. -/
theorem kLayer_eq_rLayer (r' : SAct.Idx → ℝ) (b' g' be' : SCol.Idx → ℝ) :
    kLayer (up r') (up b') (up g') (up be') = rLayer (addBias (up r') (up b')) (up g') (up be') := by
  rw [addBias_up]
  funext i
  obtain ⟨p, q, rfl⟩ : ∃ p q, i = ix2 p q := ⟨i 0, i 1, eq_ix2 i⟩
  have hpos := v1_pos (col r' q) (b' (ix1 q)) he
  have hs : Real.sqrt (v1 (col r' q) (b' (ix1 q)) + e) ≠ 0 := (Real.sqrt_pos.mpr hpos).ne'
  show up r' (ix2 p q) * kScaleAt (stats (up r')) (up b') (up g') q
      + kShiftAt (stats (up r')) (up b') (up g') (up be') q
    = rLayerAt (up (biasR r' b')) (up g') (up be') p q
  rw [kScaleAt_up hN hTwo hZero he hEps, kShiftAt_up hN hTwo hZero he hEps,
    rLayerAt_up hN hZero he hEps, up_apply, ← EReal.coe_mul, ← EReal.coe_add, rLayerRAt, mu2_eq, v2_eq,
    norm_eq _ _ _ _ _ _ hs]

end Consts

end Bridge

/-! ## The two networks -/

open Bridge in
/-- On arrays of real numbers the one-pass network is the direct one. -/
theorem kernelOut_eq_refOut (hN : cN = ((10000 : ℝ) : EReal)) (hTwo : cTwo = ((2 : ℝ) : EReal))
    (hEps : ∃ e : ℝ, 0 < e ∧ cEps = (e : EReal)) (hZero : cZero = 0)
    (x : Act) (a : Adj) (w1 : Wgt) (b1 g1 be1 : Col) (w2 : Wgt) (b2 g2 be2 : Col)
    (hx : IsReal x) (ha : IsReal a) (hw1 : IsReal w1) (hb1 : IsReal b1) (hg1 : IsReal g1) (hbe1 : IsReal be1)
    (hw2 : IsReal w2) (hb2 : IsReal b2) (hg2 : IsReal g2) (hbe2 : IsReal be2) :
    kernelOut x a w1 b1 g1 be1 w2 b2 g2 be2 = refOut x a w1 b1 g1 be1 w2 b2 g2 be2 := by
  obtain ⟨e, he, hEps⟩ := hEps
  obtain ⟨x', rfl⟩ := exists_up_of_isReal hx
  obtain ⟨a', rfl⟩ := exists_up_of_isReal ha
  obtain ⟨w1', rfl⟩ := exists_up_of_isReal hw1
  obtain ⟨b1', rfl⟩ := exists_up_of_isReal hb1
  obtain ⟨g1', rfl⟩ := exists_up_of_isReal hg1
  obtain ⟨be1', rfl⟩ := exists_up_of_isReal hbe1
  obtain ⟨w2', rfl⟩ := exists_up_of_isReal hw2
  obtain ⟨b2', rfl⟩ := exists_up_of_isReal hb2
  obtain ⟨g2', rfl⟩ := exists_up_of_isReal hg2
  obtain ⟨be2', rfl⟩ := exists_up_of_isReal hbe2
  unfold kernelOut refOut
  rw [xw_up x' w1', agg_up a', kLayer_eq_rLayer hN hTwo hZero he hEps, addBias_up,
    rLayer_up hN hZero he hEps, xw_up _ w2', agg_up a', kLayer_eq_rLayer hN hTwo hZero he hEps]

end Gcn

end
-- ==== Proof.Finite.lean ====
/-
  The precondition read: every entry of every argument array is a real number (its absolute value is below +∞).
-/
import proofs.«156090_g77017353552286_cont_9to1c4b_820_2_alg».proof.Defs
import proofs.«156090_g77017353552286_cont_9to1c4b_820_2_alg».proof.Proof.Gen.Pre_finite_inputs
import proofs.«156090_g77017353552286_cont_9to1c4b_820_2_alg».proof.Proof.Gen.KernelIdeal
import proofs.«156090_g77017353552286_cont_9to1c4b_820_2_alg».proof.Proof.Spec
import Idealize.ShloMosaic.Lib.ReduceAll
import Idealize.ShloMosaic.Lib.ValueIdx
import Idealize.ShloMosaic.PureOps.Ideal.Laws

noncomputable section

namespace Cert.Proof.Finite

open Idealize.ShloMosaic Idealize.SL.Sem

/-- The pattern of +∞ denotes the top element. -/
theorem ofBits_inf : Ideal.ofBits .f32 0x7F800000#32 = (⊤ : EReal) := by
  simp [Ideal.ofBits, Ideal.ieee]

/-- An extended real whose absolute value lies strictly below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton Cert.Pre_finite_inputs.S_.Idx := ⟨fun a b => funext fun d => d.elim0⟩

/-- If the conjunction over all entries of "|x| < +∞" is true, every entry of the array is a real number. -/
theorem isReal_of_all {s : Shape} {axes : List (Fin s.rank)} (hr : s.ReducesTo axes Cert.Pre_finite_inputs.S_)
    (hu : 0 < Cert.Pre_finite_inputs.S_.numel)
    (bc : Cert.Pre_finite_inputs.S_.BroadcastsInDim s (![] : Fin 0 → Fin s.rank))
    (x : FVec Ideal s .f32)
    (e : Host.reduce IntOp.andi (cmpf .olt (Host.absf x) (broadcastInDim s ![] bc (constant Cert.Pre_finite_inputs.S_ .f32 0x7F800000#32)))
        (constantI Cert.Pre_finite_inputs.S_ 1 1#1) hr hu ValueIdx.ix0 = 1#1) :
    Gcn.IsReal x := by
  intro i
  have hi := Host.reduce_andi_all _ _ hr hu _ e i
  refine real_of_abs_lt_top (x i) ?_
  have h2 : BitVec.ofBool (decide (max (x i) (-(x i)) < Ideal.ofBits .f32 0x7F800000#32)) = 1#1 := hi
  rw [ofBits_inf] at h2
  cases hd : decide (max (x i) (-(x i)) < (⊤ : EReal)) with
  | true => exact of_decide_eq_true hd
  | false => rw [hd] at h2; exact absurd h2 (by decide)

/-- Under the precondition each of the ten argument arrays holds real numbers only. -/
theorem isReal_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Gcn.IsReal (ι := Gcn.SAct.Idx) (m ((c.tc : Thread Cert.KernelIdeal.nD Cert.KernelIdeal.τ).loc Cert.KernelIdeal.main_arg0)) ∧ Gcn.IsReal (ι := Gcn.SAdj.Idx) (m ((c.tc : Thread Cert.KernelIdeal.nD Cert.KernelIdeal.τ).loc Cert.KernelIdeal.main_arg1))
    ∧ Gcn.IsReal (ι := Gcn.SWgt.Idx) (m ((c.tc : Thread Cert.KernelIdeal.nD Cert.KernelIdeal.τ).loc Cert.KernelIdeal.main_arg2)) ∧ Gcn.IsReal (ι := Gcn.SCol.Idx) (m ((c.tc : Thread Cert.KernelIdeal.nD Cert.KernelIdeal.τ).loc Cert.KernelIdeal.main_arg3))
    ∧ Gcn.IsReal (ι := Gcn.SCol.Idx) (m ((c.tc : Thread Cert.KernelIdeal.nD Cert.KernelIdeal.τ).loc Cert.KernelIdeal.main_arg4)) ∧ Gcn.IsReal (ι := Gcn.SCol.Idx) (m ((c.tc : Thread Cert.KernelIdeal.nD Cert.KernelIdeal.τ).loc Cert.KernelIdeal.main_arg5))
    ∧ Gcn.IsReal (ι := Gcn.SWgt.Idx) (m ((c.tc : Thread Cert.KernelIdeal.nD Cert.KernelIdeal.τ).loc Cert.KernelIdeal.main_arg6)) ∧ Gcn.IsReal (ι := Gcn.SCol.Idx) (m ((c.tc : Thread Cert.KernelIdeal.nD Cert.KernelIdeal.τ).loc Cert.KernelIdeal.main_arg7))
    ∧ Gcn.IsReal (ι := Gcn.SCol.Idx) (m ((c.tc : Thread Cert.KernelIdeal.nD Cert.KernelIdeal.τ).loc Cert.KernelIdeal.main_arg8)) ∧ Gcn.IsReal (ι := Gcn.SCol.Idx) (m ((c.tc : Thread Cert.KernelIdeal.nD Cert.KernelIdeal.τ).loc Cert.KernelIdeal.main_arg9)) := by
  have h0 := congrFun (h c) ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨⟨e0, e1⟩, e2⟩, e3⟩, e4⟩, e5⟩, e6⟩, e7⟩, e8⟩, e9⟩ := h0
  exact ⟨isReal_of_all _ _ _ _ e0, isReal_of_all _ _ _ _ e1, isReal_of_all _ _ _ _ e2, isReal_of_all _ _ _ _ e3,
    isReal_of_all _ _ _ _ e4, isReal_of_all _ _ _ _ e5, isReal_of_all _ _ _ _ e6, isReal_of_all _ _ _ _ e7,
    isReal_of_all _ _ _ _ e8, isReal_of_all _ _ _ _ e9⟩

end Cert.Proof.Finite

end
-- ==== Proof.KReg0.lean ====
/- The first launch's result array: x · w, two thousand rows to a grid point. -/
import proofs.«156090_g77017353552286_cont_9to1c4b_820_2_alg».proof.Proof.Gen.KernelIdeal.Frame
import proofs.«156090_g77017353552286_cont_9to1c4b_820_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

/-- The buffer contents a region is entered from, one array per buffer of the core. -/
abbrev Entry0 : Type := (c : Dev nD) → (b : Ref sig .tc) → Buf (Elt Ideal) ((c : Thread nD τ).loc b)

namespace Xw0

/-- The zero offset of a whole-block access. -/
theorem hz : (![0, 0] : Fin 2 → Nat) = fun _ => 0 := funext fun a => by fin_cases a <;> rfl

/-! ## The block product at an entry

The product of a 2000×256 block with a 256×256 matrix, accumulated into zeros: entry (p, q) is
Σ_l block(p, l) · matrix(l, q). The contraction runs over the left operand's axis 1 and the right
operand's axis 0. -/

theorem lhs_0 (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k
theorem rhs_0 (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k
theorem rhs_1 (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of the block product is Σ_l a(p, l) · b(l, q). -/
theorem blockProd_apply (a : FVec Ideal S2000x256 .f32) (b : FVec Ideal S256x256 .f32) (p : Fin 2000) (q : Fin 256) :
    k0_pay1 (F := Ideal) a b (ix2 p q) = ∑ l : Fin 256, a (ix2 p l) * b (ix2 l q) := by
  unfold k0_pay1
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_0 _ _).trans hk
    | ⟨1, _⟩ => exact rhs_1 _ _)
  rw [el, er]

end Xw0

namespace Xw0

/-! ## From blocks to the array

Grid point t reads rows 2000·t … 2000·t + 1999 of the left array (all 256 columns), the whole right
matrix, and writes the same rows of the result. -/

/-- The block indices of the three windows at a grid point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point t is rows 2000·t … of the left array. -/
theorem lblk_apply (V : Entry0) (c : Dev nD) (t : Fin cfg0.N) (x : S2000x256.Idx) (k : S10000x256.Idx)
    (hk0 : (k 0).val = 2000 * t.val + (x 0).val) (hk1 : (k 1).val = (x 1).val) :
    (iblk0 (F := Ideal) V c 0 t : Vec Ideal S2000x256 .f32) x = (V c main_arg0 : S10000x256.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 256 + 1 * (x 1).val = (k 1).val; rw [e1, hk1]; omega

/-- The right block at every point is the whole right matrix. -/
theorem rblk_apply (V : Entry0) (c : Dev nD) (t : Fin cfg0.N) (x : S256x256.Idx) :
    (iblk0 (F := Ideal) V c 1 t : Vec Ideal S256x256 .f32) x = (V c main_arg2 : S256x256.Idx → EReal) x := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 256 + 1 * (x 0).val = (x 0).val; rw [e2]; omega
  | ⟨1, _⟩ => show win0_1.index t 1 * 256 + 1 * (x 1).val = (x 1).val; rw [e3]; omega

/-- What point t writes back is block t of the product of the two arrays. -/
theorem flushed_eq (V : Entry0) (c : Dev nD) (t : Fin cfg0.N) :
    (dat0 (F := Ideal) V c).flushed 2 t
      = ((cfg0.win 2).blk t).view.read (Elt Ideal) (Gcn.xw (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨-, -, -, -, e4, e5⟩ := idx_facts t
  funext j
  obtain ⟨p, q, rfl⟩ : ∃ (p : Fin 2000) (q : Fin 256), j = ix2 p q := ⟨j 0, j 1, eq_ix2 j⟩
  refine (blockProd_apply _ _ p q).trans ?_
  rw [View.read_apply]
  show _ = Gcn.xwAt (V c main_arg0) (V c main_arg2) _ _
  unfold Gcn.xwAt
  refine Finset.sum_congr rfl fun l _ => ?_
  congr 1
  · refine lblk_apply V c t (ix2 p l) _ ?_ ?_
    · show win0_2.index t 0 * 2000 + 1 * p.val = 2000 * t.val + p.val; rw [e4]; omega
    · rfl
  · refine (rblk_apply V c t (ix2 l q)).trans ?_
    congr 1
    funext a
    apply Fin.ext
    match a with
    | ⟨0, _⟩ => rfl
    | ⟨1, _⟩ => show q.val = win0_2.index t 1 * 256 + 1 * q.val; rw [e5]; omega

/-- An index of the result array is in point t's block iff each coordinate is in the block's range. -/
theorem mem_blk (t : Fin cfg0.N) (i : S10000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Row r is written by point r / 2000. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 5 := N_0
  refine ⟨⟨(i 0).val / 2000, by rw [hN]; omega⟩, flush0_2 _, ?_⟩
  rw [mem_blk]
  obtain ⟨-, -, -, -, e4, e5⟩ := idx_facts ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 256 ≤ (i 1).val ∧ (i 1).val < win0_2.index _ (1 : Fin 2) * 256 + 256; rw [e5]; omega

end Xw0

/-- After the launch the result array is the product of the two arrays the launch reads. -/
theorem reg0_out (V : Entry0) (c : Dev nD) :
    (dat0 (F := Ideal) V c).arrAt 2 cfg0.N = Gcn.xw (V c main_arg0) (V c main_arg2) :=
  (dat0 (F := Ideal) V c).arrAt_eq_of_cover 2 (Gcn.xw (V c main_arg0) (V c main_arg2))
    (fun t _ => Xw0.flushed_eq V c t) Xw0.cover

end Cert.KernelIdeal.Val

end
-- ==== Proof.KReg1.lean ====
/- The second launch: a · s, four hundred rows to a grid point, with each group's column sums and column sums of squares. -/
import proofs.«156090_g77017353552286_cont_9to1c4b_820_2_alg».proof.Proof.Gen.KernelIdeal.Frame
import proofs.«156090_g77017353552286_cont_9to1c4b_820_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

/-- The buffer contents a region is entered from, one array per buffer of the core. -/
abbrev Entry1 : Type := (c : Dev nD) → (b : Ref sig .tc) → Buf (Elt Ideal) ((c : Thread nD τ).loc b)

namespace Agg1

/-! ## The product of a block of four hundred rows with the whole right factor, entry by entry -/

/-- On its row axis the left factor is read at the entry's row. -/
theorem lhs_row1 (j : S400x256.Idx) (k : dot_S400x10000_S10000x256_S400x256_1_0_0_1_n_n.contr.Idx) :
    (dot_S400x10000_S10000x256_S400x256_1_0_0_1_n_n.lhsIdx j k 0).val = (j 0).val := rfl
/-- On its column axis the left factor is read at the summation index. -/
theorem lhs_col1 (j : S400x256.Idx) (k : dot_S400x10000_S10000x256_S400x256_1_0_0_1_n_n.contr.Idx) :
    (dot_S400x10000_S10000x256_S400x256_1_0_0_1_n_n.lhsIdx j k 1).val = (k ⟨0, by decide⟩).val :=
  DotDims.lhsIdx_val_of_single dot_S400x10000_S10000x256_S400x256_1_0_0_1_n_n (cl := 1) rfl j k
/-- On its row axis the right factor is read at the summation index. -/
theorem rhs_row1 (j : S400x256.Idx) (k : dot_S400x10000_S10000x256_S400x256_1_0_0_1_n_n.contr.Idx) :
    (dot_S400x10000_S10000x256_S400x256_1_0_0_1_n_n.rhsIdx j k 0).val = (k ⟨0, by decide⟩).val :=
  DotDims.rhsIdx_val_of_single dot_S400x10000_S10000x256_S400x256_1_0_0_1_n_n (cr := 0) rfl j k
/-- On its column axis the right factor is read at the entry's column. -/
theorem rhs_col1 (j : S400x256.Idx) (k : dot_S400x10000_S10000x256_S400x256_1_0_0_1_n_n.contr.Idx) :
    (dot_S400x10000_S10000x256_S400x256_1_0_0_1_n_n.rhsIdx j k 1).val = (j 1).val := rfl

/-- Entry (p, q) of the block product is Σ_k x0 p k · x1 k q. -/
theorem prod1_apply (x0 : FVec Ideal S400x10000 .f32) (x1 : FVec Ideal S10000x256 .f32) (p : Fin 400) (q : Fin 256) :
    k1_pay1 (F := Ideal) x0 x1 (ix2 p q) = ∑ k : Fin 10000, x0 (ix2 p k) * x1 (ix2 k q) := by
  unfold k1_pay1
  simp only [matmul]
  rw [shapeCast_self, Ideal.matmul_constant_zero_apply]
  rw [← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  congr 1
  · refine congrArg x0 (funext fun a => Fin.ext ?_)
    match a with
    | ⟨0, _⟩ => exact lhs_row1 _ _
    | ⟨1, _⟩ => exact (lhs_col1 _ _).trans hk
  · refine congrArg x1 (funext fun a => Fin.ext ?_)
    match a with
    | ⟨0, _⟩ => exact (rhs_row1 _ _).trans hk
    | ⟨1, _⟩ => exact rhs_col1 _ _

/-! ## Where a grid point's blocks sit in their arrays -/

theorem zeroOff1 : (![0, 0] : Fin 2 → Nat) = fun _ => 0 := funext fun a => by fin_cases a <;> rfl

/-- Point t takes block row t of the left factor, the whole right factor, and gives block row t of the product and
    plane pair t of the sums. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- Row p of point t's left block is row 400 t + p of the left factor. -/
theorem lblk1_apply (V : Entry1) (c : Dev nD) (t : Fin cfg1.N) (p : Fin 400) (k : Fin 10000) (r : Fin 10000)
    (hr : r.val = 400 * t.val + p.val) :
    (iblk1 (F := Ideal) V c 0 t : Vec Ideal S400x10000 .f32) (ix2 p k)
      = (V c main_arg1 : S10000x10000.Idx → EReal) (ix2 r k) := by
  obtain ⟨e0, e1, -⟩ := idx1 t
  unfold iblk1
  rw [View.read_apply]
  show V c main_arg1 _ = V c main_arg1 _
  congr 1
  funext a
  apply Fin.ext
  match a with
  | ⟨0, _⟩ => show win1_0.index t (0 : Fin 2) * 400 + 1 * p.val = r.val; rw [e0, hr]; omega
  | ⟨1, _⟩ => show win1_0.index t (1 : Fin 2) * 10000 + 1 * k.val = k.val; rw [e1]; omega

/-- Point t's right block is the whole right factor. -/
theorem rblk1_apply (V : Entry1) (c : Dev nD) (t : Fin cfg1.N) (k : Fin 10000) (q : Fin 256) :
    (iblk1 (F := Ideal) V c 1 t : Vec Ideal S10000x256 .f32) (ix2 k q)
      = (V c main_v0 : S10000x256.Idx → EReal) (ix2 k q) := by
  obtain ⟨-, -, e0, e1, -⟩ := idx1 t
  unfold iblk1
  rw [View.read_apply]
  show V c main_v0 _ = V c main_v0 _
  congr 1
  funext a
  apply Fin.ext
  match a with
  | ⟨0, _⟩ => show win1_1.index t (0 : Fin 2) * 10000 + 1 * k.val = k.val; rw [e0]; omega
  | ⟨1, _⟩ => show win1_1.index t (1 : Fin 2) * 256 + 1 * q.val = q.val; rw [e1]; omega

/-- Entry (p, q) of the product of point t's blocks is entry (400 t + p, q) of a · s. -/
theorem prod1_blk (V : Entry1) (c : Dev nD) (t : Fin cfg1.N) (p : Fin 400) (q : Fin 256) (r : Fin 10000)
    (hr : r.val = 400 * t.val + p.val) :
    k1_pay1 (F := Ideal) (iblk1 V c 0 t) (iblk1 V c 1 t) (ix2 p q) = Gcn.aggAt (V c main_arg1) (V c main_v0) r q := by
  rw [prod1_apply]
  unfold Gcn.aggAt
  refine Finset.sum_congr rfl fun k _ => ?_
  rw [lblk1_apply V c t p k r hr, rblk1_apply V c t k q]

/-! ## The product array -/

/-- What point t writes back to the product is block row t of a · s. -/
theorem flushed1_2 (V : Entry1) (c : Dev nD) (t : Fin cfg1.N) :
    (dat1 (F := Ideal) V c).flushed 2 t
      = ((cfg1.win 2).blk t).view.read (Elt Ideal) (Gcn.agg (V c main_arg1) (V c main_v0)) := by
  show (cfg1.win 2).cut (grid1.coords t) ((dat1 V c).after 2 t) = _
  rw [after1_2]
  unfold out1_2
  rw [View.canon_unit_zero zeroOff1]
  simp only [View.ld_unit_zero (S := S400x10000) zeroOff1, View.ld_unit_zero (S := S10000x256) zeroOff1]
  obtain ⟨-, -, -, -, e0, e1, -⟩ := idx1 t
  funext j
  obtain ⟨p, q, rfl⟩ : ∃ (p : Fin 400) (q : Fin 256), j = ix2 p q := ⟨j 0, j 1, eq_ix2 j⟩
  have hlt : 400 * t.val + p.val < 10000 := by
    have h1 : t.val < 25 := t.isLt.trans_eq N_1
    have h2 := p.isLt; omega
  rw [View.read_apply]
  show k1_pay1 (F := Ideal) (iblk1 V c 0 t) (iblk1 V c 1 t) (ix2 p q) = Gcn.agg (V c main_arg1) (V c main_v0) _
  rw [prod1_blk V c t p q ⟨400 * t.val + p.val, hlt⟩ rfl]
  unfold Gcn.agg
  congr 1
  · apply Fin.ext
    show 400 * t.val + p.val = win1_2.index t (0 : Fin 2) * 400 + 1 * p.val
    rw [e0]; omega
  · apply Fin.ext
    show q.val = win1_2.index t (1 : Fin 2) * 256 + 1 * q.val
    rw [e1]; omega

/-- An index of the product array lies in point t's block iff each coordinate lies in the block's range. -/
theorem mem_blk1_2 (t : Fin cfg1.N) (i : S10000x256.Idx) :
    i ∈ ((cfg1.win 2).blk t).view.set ↔ ∀ a : Fin 2, win1_2.index t a * S400x256.size a ≤ (i a).val ∧ (i a).val < win1_2.index t a * S400x256.size a + S400x256.size a := by
  show i ∈ ((View.whole main_v1_0).slice (win1_2.rect t)).set ↔ _
  rw [View.set_slice_whole, Rect.mem_set_unit]
  exact Iff.rfl

/-- Row r of the product array is written by point r / 400. -/
theorem cover1_out (i : S10000x256.Idx) :
    ∃ t : Fin cfg1.N, (cfg1.win 2).flush t = true ∧ i ∈ ((cfg1.win 2).blk t).view.set := by
  have hi0 : (i 0).val < 10000 := (i 0).isLt
  have hi1 : (i 1).val < 256 := (i 1).isLt
  have hN : cfg1.N = 25 := N_1
  refine ⟨⟨(i 0).val / 400, by rw [hN]; omega⟩, flush1_2 _, ?_⟩
  rw [mem_blk1_2]
  obtain ⟨-, -, -, -, e0, e1, -⟩ := idx1 ⟨(i 0).val / 400, by rw [hN]; omega⟩
  intro a
  match a with
  | ⟨0, _⟩ =>
    show win1_2.index _ (0 : Fin 2) * 400 ≤ (i 0).val ∧ (i 0).val < win1_2.index _ (0 : Fin 2) * 400 + 400
    rw [e0]; show (i 0).val / 400 * 400 ≤ (i 0).val ∧ (i 0).val < (i 0).val / 400 * 400 + 400; omega
  | ⟨1, _⟩ =>
    show win1_2.index _ (1 : Fin 2) * 256 ≤ (i 1).val ∧ (i 1).val < win1_2.index _ (1 : Fin 2) * 256 + 256
    rw [e1]; omega

/-! ## The column sums of a block product and of its square -/

/-- The rows of a column, listed for the sum over a block's rows. -/
theorem lift1 (j : S256.Idx) (k : Fin 400) : reduces_S400x256_S256.lift j k = ix2 k (j 0) := by
  funext a
  apply Fin.ext
  match a with
  | ⟨0, _⟩ => rfl
  | ⟨1, _⟩ => rfl

/-- A row of 256 numbers laid out as a 1 × 1 × 256 plane reads the row at the last coordinate. -/
theorem plane1_apply (v : S256.Idx → EReal) (q : Fin 256) :
    shapeCast S1x1x256 (shapeCast S1x256 v shapeCasts_S256_S1x256) shapeCasts_S1x256_S1x1x256 (ix3 (0 : Fin 1) (0 : Fin 1) q)
      = v (ix1 q) := by
  rw [shapeCast_apply _ shapeCasts_S1x256_S1x1x256 _ (ix2 (0 : Fin 1) q)
        (by rw [Shape.rowMajor_val_two, Shape.rowMajor_val_three]; rfl),
    shapeCast_apply _ shapeCasts_S256_S1x256 _ (ix1 q)
        (by rw [Shape.rowMajor_val_one, Shape.rowMajor_val_two]; show q.val = 0 * 256 + q.val; omega)]

/-- Column q of the sums plane is Σ_p of the block product's column q. -/
theorem sum1_apply (x0 : FVec Ideal S400x10000 .f32) (x1 : FVec Ideal S10000x256 .f32) (q : Fin 256) :
    k1_pay2 (F := Ideal) x0 x1 (ix3 (0 : Fin 1) (0 : Fin 1) q) = ∑ p : Fin 400, k1_pay1 (F := Ideal) x0 x1 (ix2 p q) := by
  unfold k1_pay2
  rw [plane1_apply]
  refine (Ideal.multiReduction_add_single (k1_pay1 (F := Ideal) x0 x1) 0x00000000#32 reduces_S400x256_S256 _ _ (ix1 q)).trans ?_
  refine Finset.sum_congr rfl fun (p : Fin 400) _ => ?_
  have e : reduces_S400x256_S256.lift (ix1 q) p = ix2 p q := lift1 (ix1 q) p
  rw [e]

/-- Column q of the squares plane is Σ_p of the squared block product's column q. -/
theorem sq1_apply (x0 : FVec Ideal S400x10000 .f32) (x1 : FVec Ideal S10000x256 .f32) (q : Fin 256) :
    k1_pay3 (F := Ideal) x0 x1 (ix3 (0 : Fin 1) (0 : Fin 1) q)
      = ∑ p : Fin 400, k1_pay1 (F := Ideal) x0 x1 (ix2 p q) * k1_pay1 (F := Ideal) x0 x1 (ix2 p q) := by
  unfold k1_pay3
  rw [plane1_apply]
  refine (Ideal.multiReduction_add_single (mulf (k1_pay1 (F := Ideal) x0 x1) (k1_pay1 (F := Ideal) x0 x1)) 0x00000000#32
    reduces_S400x256_S256 _ _ (ix1 q)).trans ?_
  refine Finset.sum_congr rfl fun (p : Fin 400) _ => ?_
  have e : reduces_S400x256_S256.lift (ix1 q) p = ix2 p q := lift1 (ix1 q) p
  rw [mulf_apply, e]

/-! ## The sums array -/

/-- A grid point as a group number. -/
def grp1 (t : Fin cfg1.N) : Fin 25 := ⟨t.val, t.isLt.trans_eq N_1⟩

/-- The pair of planes group t contributes: the column sums, then the column sums of squares. -/
def planes1 (r : Gcn.Act) (t : Fin 25) : S1x2x256.Idx → EReal :=
  fun y => if (y 1).val = 0 then Gcn.blockSum r t (y 2) else Gcn.blockSq r t (y 2)

/-- Point t's sums plane is group t's column sums of a · s. -/
theorem sum1_blk (V : Entry1) (c : Dev nD) (t : Fin cfg1.N) (q : Fin 256) :
    k1_pay2 (F := Ideal) (iblk1 V c 0 t) (iblk1 V c 1 t) (ix3 (0 : Fin 1) (0 : Fin 1) q)
      = Gcn.blockSum (Gcn.agg (V c main_arg1) (V c main_v0)) (grp1 t) q := by
  rw [sum1_apply]
  unfold Gcn.blockSum
  refine Finset.sum_congr rfl fun p _ => ?_
  rw [prod1_blk V c t p q (Gcn.rowOf (grp1 t) p) rfl]
  rfl

/-- Point t's squares plane is group t's column sums of squares of a · s. -/
theorem sq1_blk (V : Entry1) (c : Dev nD) (t : Fin cfg1.N) (q : Fin 256) :
    k1_pay3 (F := Ideal) (iblk1 V c 0 t) (iblk1 V c 1 t) (ix3 (0 : Fin 1) (0 : Fin 1) q)
      = Gcn.blockSq (Gcn.agg (V c main_arg1) (V c main_v0)) (grp1 t) q := by
  rw [sq1_apply]
  unfold Gcn.blockSq
  refine Finset.sum_congr rfl fun p _ => ?_
  rw [prod1_blk V c t p q (Gcn.rowOf (grp1 t) p) rfl]
  rfl

/-- Group t's planes read where they land in the sums array. -/
theorem planes1_at (r : Gcn.Act) (t : Fin 25) (y : S1x2x256.Idx) (i : S25x2x256.Idx)
    (h0 : (i 0).val = t.val) (h1 : (i 1).val = (y 1).val) (h2 : (i 2).val = (y 2).val) :
    planes1 r t y = Gcn.stats r i := by
  have e0 : i 0 = t := Fin.ext h0
  have e2 : i 2 = y 2 := Fin.ext h2
  unfold planes1 Gcn.stats
  rw [e0, e2, h1]

/-- What the two stores leave in point t's staging buffer: group t's pair of planes. -/
theorem planes1_eq (V : Entry1) (c : Dev nD) (t : Fin cfg1.N) :
    out1_3 (F := Ideal) (iblk1 V c 0 t) (iblk1 V c 1 t)
      = planes1 (Gcn.agg (V c main_arg1) (V c main_v0)) (grp1 t) := by
  unfold out1_3
  simp only [View.ld_unit_zero (S := S400x10000) zeroOff1, View.ld_unit_zero (S := S10000x256) zeroOff1]
  funext y
  refine View.canon_apply_of_pieces (Val := Elt Ideal) (S := S1x2x256) (e := .f32) (planes1 (Gcn.agg (V c main_arg1) (V c main_v0)) (grp1 t)) _ ?_ y (cover1_3 _ _ y)
  intro pc hpc x
  rcases List.mem_cons.mp hpc with rfl | hpc
  · obtain ⟨a, b, q, rfl⟩ : ∃ (a b : Fin 1) (q : Fin 256), x = ix3 a b q := ⟨x 0, x 1, x 2, eq_ix3 x⟩
    obtain rfl : a = 0 := Subsingleton.elim _ _
    obtain rfl : b = 0 := Subsingleton.elim _ _
    show k1_pay3 (F := Ideal) (iblk1 V c 0 t) (iblk1 V c 1 t) (ix3 (0 : Fin 1) (0 : Fin 1) q) = planes1 _ _ (r1_4.emb (ix3 (0 : Fin 1) (0 : Fin 1) q))
    rw [sq1_blk]
    unfold planes1
    have h1 : ((r1_4.emb (ix3 (0 : Fin 1) (0 : Fin 1) q)) 1).val = 1 := rfl
    have h2 : (r1_4.emb (ix3 (0 : Fin 1) (0 : Fin 1) q)) 2 = q := Fin.ext (by show 0 + 1 * q.val = q.val; omega)
    rw [if_neg (by rw [h1]; decide), h2]
  · obtain rfl : pc = ⟨r1_3, _⟩ := List.mem_singleton.mp hpc
    obtain ⟨a, b, q, rfl⟩ : ∃ (a b : Fin 1) (q : Fin 256), x = ix3 a b q := ⟨x 0, x 1, x 2, eq_ix3 x⟩
    obtain rfl : a = 0 := Subsingleton.elim _ _
    obtain rfl : b = 0 := Subsingleton.elim _ _
    show k1_pay2 (F := Ideal) (iblk1 V c 0 t) (iblk1 V c 1 t) (ix3 (0 : Fin 1) (0 : Fin 1) q) = planes1 _ _ (r1_3.emb (ix3 (0 : Fin 1) (0 : Fin 1) q))
    rw [sum1_blk]
    unfold planes1
    have h1 : ((r1_3.emb (ix3 (0 : Fin 1) (0 : Fin 1) q)) 1).val = 0 := rfl
    have h2 : (r1_3.emb (ix3 (0 : Fin 1) (0 : Fin 1) q)) 2 = q := Fin.ext (by show 0 + 1 * q.val = q.val; omega)
    rw [if_pos h1, h2]

/-- What point t writes back to the sums array is plane pair t of the groups' sums. -/
theorem flushed1_3 (V : Entry1) (c : Dev nD) (t : Fin cfg1.N) :
    (dat1 (F := Ideal) V c).flushed 3 t
      = ((cfg1.win 3).blk t).view.read (Elt Ideal) (Gcn.stats (Gcn.agg (V c main_arg1) (V c main_v0))) := by
  show (cfg1.win 3).cut (grid1.coords t) ((dat1 V c).after 3 t) = _
  rw [after1_3, planes1_eq]
  obtain ⟨-, -, -, -, -, -, e0, e1, e2⟩ := idx1 t
  funext y
  rw [View.read_apply]
  show planes1 (Gcn.agg (V c main_arg1) (V c main_v0)) (grp1 t) y = Gcn.stats (Gcn.agg (V c main_arg1) (V c main_v0)) _
  have hy0 : (y 0).val < 1 := (y 0).isLt
  refine planes1_at _ _ y _ ?_ ?_ ?_
  · show win1_3.index t (0 : Fin 3) * 1 + 1 * (y 0).val = t.val
    rw [e0]; omega
  · show win1_3.index t (1 : Fin 3) * 2 + 1 * (y 1).val = (y 1).val
    rw [e1]; omega
  · show win1_3.index t (2 : Fin 3) * 256 + 1 * (y 2).val = (y 2).val
    rw [e2]; omega

/-- An index of the sums array lies in point t's block iff each coordinate lies in the block's range. -/
theorem mem_blk1_3 (t : Fin cfg1.N) (i : S25x2x256.Idx) :
    i ∈ ((cfg1.win 3).blk t).view.set ↔ ∀ a : Fin 3, win1_3.index t a * S1x2x256.size a ≤ (i a).val ∧ (i a).val < win1_3.index t a * S1x2x256.size a + S1x2x256.size a := by
  show i ∈ ((View.whole main_v1_1).slice (win1_3.rect t)).set ↔ _
  rw [View.set_slice_whole, Rect.mem_set_unit]
  exact Iff.rfl

/-- Plane pair g of the sums array is written by point g. -/
theorem cover1_stats (i : S25x2x256.Idx) :
    ∃ t : Fin cfg1.N, (cfg1.win 3).flush t = true ∧ i ∈ ((cfg1.win 3).blk t).view.set := by
  have hi0 : (i 0).val < 25 := (i 0).isLt
  have hi1 : (i 1).val < 2 := (i 1).isLt
  have hi2 : (i 2).val < 256 := (i 2).isLt
  have hN : cfg1.N = 25 := N_1
  refine ⟨⟨(i 0).val, by rw [hN]; exact hi0⟩, flush1_3 _, ?_⟩
  rw [mem_blk1_3]
  obtain ⟨-, -, -, -, -, -, e0, e1, e2⟩ := idx1 ⟨(i 0).val, by rw [hN]; exact hi0⟩
  intro a
  match a with
  | ⟨0, _⟩ =>
    show win1_3.index _ (0 : Fin 3) * 1 ≤ (i 0).val ∧ (i 0).val < win1_3.index _ (0 : Fin 3) * 1 + 1
    rw [e0]; show (i 0).val * 1 ≤ (i 0).val ∧ (i 0).val < (i 0).val * 1 + 1; omega
  | ⟨1, _⟩ =>
    show win1_3.index _ (1 : Fin 3) * 2 ≤ (i 1).val ∧ (i 1).val < win1_3.index _ (1 : Fin 3) * 2 + 2
    rw [e1]; omega
  | ⟨2, _⟩ =>
    show win1_3.index _ (2 : Fin 3) * 256 ≤ (i 2).val ∧ (i 2).val < win1_3.index _ (2 : Fin 3) * 256 + 256
    rw [e2]; omega

end Agg1

open Agg1 in
/-- The aggregate. -/
theorem reg1_out (V : Entry1) (c : Dev nD) :
    (dat1 (F := Ideal) V c).arrAt 2 cfg1.N = Gcn.agg (V c main_arg1) (V c main_v0) :=
  (dat1 (F := Ideal) V c).arrAt_eq_of_cover 2 (Gcn.agg (V c main_arg1) (V c main_v0))
    (fun t _ => flushed1_2 V c t) cover1_out

open Agg1 in
/-- The groups' column sums and sums of squares of the aggregate. -/
theorem reg1_stats (V : Entry1) (c : Dev nD) :
    (dat1 (F := Ideal) V c).arrAt 3 cfg1.N = Gcn.stats (Gcn.agg (V c main_arg1) (V c main_v0)) :=
  (dat1 (F := Ideal) V c).arrAt_eq_of_cover 3 (Gcn.stats (Gcn.agg (V c main_arg1) (V c main_v0)))
    (fun t _ => flushed1_3 V c t) cover1_stats

end Cert.KernelIdeal.Val

end
-- ==== Proof.KReg2.lean ====
/- The third launch: (r · scale + shift) · w. -/
import proofs.«156090_g77017353552286_cont_9to1c4b_820_2_alg».proof.Proof.Gen.KernelIdeal.Frame
import proofs.«156090_g77017353552286_cont_9to1c4b_820_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

/-- The buffer contents a region is entered from, one array per buffer of the core. -/
abbrev Entry2 : Type := (c : Dev nD) → (b : Ref sig .tc) → Buf (Elt Ideal) ((c : Thread nD τ).loc b)

namespace Xw2

/-- The zero offset of a whole-block access. -/
theorem hz : (![0, 0] : Fin 2 → Nat) = fun _ => 0 := funext fun a => by fin_cases a <;> rfl

/-! ## The block product at an entry

The body first maps its 2000×256 block a entrywise to a(p, l) · s(l) + h(l), the scale s and the
shift h each one row repeated down the block, and then multiplies by a 256×256 matrix b into
zeros: entry (p, q) is Σ_l (a(p, l) · s(l) + h(l)) · b(l, q). The contraction runs over the left
operand's axis 1 and the right operand's axis 0. -/

theorem lhs_0 (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k
theorem rhs_0 (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k
theorem rhs_1 (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- One row repeated down 2000 rows reads, at (p, l), the row at l. -/
theorem rowRepeat_apply (s : FVec Ideal S1x256 .f32) (p : Fin 2000) (l : Fin 256) :
    broadcastTo S2000x256 s broadcasts_S1x256_S2000x256 (ix2 p l) = s (ix2 (0 : Fin 1) l) := by
  refine broadcastTo_apply s broadcasts_S1x256_S2000x256 (ix2 p l) (ix2 (0 : Fin 1) l) fun ax => ?_
  match ax with
  | ⟨0, _⟩ => rfl
  | ⟨1, _⟩ => rfl

/-- Entry (p, q) of the body's result is Σ_l (a(p, l) · s(l) + h(l)) · b(l, q). -/
theorem blockProd_apply (a : FVec Ideal S2000x256 .f32) (s h : FVec Ideal S1x256 .f32) (b : FVec Ideal S256x256 .f32)
    (p : Fin 2000) (q : Fin 256) :
    k2_pay1 (F := Ideal) a s h b (ix2 p q)
      = ∑ l : Fin 256, (a (ix2 p l) * s (ix2 (0 : Fin 1) l) + h (ix2 (0 : Fin 1) l)) * b (ix2 l q) := by
  unfold k2_pay1
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_0 _ _).trans hk
    | ⟨1, _⟩ => exact rhs_1 _ _)
  rw [el, er, addf_apply, mulf_apply, shapeCast_self, shapeCast_self, shapeCast_self, rowRepeat_apply, rowRepeat_apply]

/-! ## From blocks to the array

Grid point t reads rows 2000·t … 2000·t + 1999 of the activations (all 256 columns), the whole
scale row, shift row and weight matrix, and writes the same rows of the result. -/

/-- The block indices of the five windows at a grid point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The activation block at point t is rows 2000·t … of the activations. -/
theorem ablk_apply (V : Entry2) (c : Dev nD) (t : Fin cfg2.N) (x : S2000x256.Idx) (k : S10000x256.Idx)
    (hk0 : (k 0).val = 2000 * t.val + (x 0).val) (hk1 : (k 1).val = (x 1).val) :
    (iblk2 (F := Ideal) V c 0 t : Vec Ideal S2000x256 .f32) x = (V c main_v1_0 : S10000x256.Idx → EReal) k := by
  obtain ⟨e0, e1, -⟩ := idx_facts t
  unfold iblk2
  rw [View.read_apply]
  show V c main_v1_0 _ = V c main_v1_0 _
  congr 1
  funext a
  apply Fin.ext
  match a with
  | ⟨0, _⟩ => show win2_0.index t 0 * 2000 + 1 * (x 0).val = (k 0).val; rw [e0, hk0]; omega
  | ⟨1, _⟩ => show win2_0.index t 1 * 256 + 1 * (x 1).val = (k 1).val; rw [e1, hk1]; omega

/-- The scale block at every point is the whole scale row. -/
theorem sblk_apply (V : Entry2) (c : Dev nD) (t : Fin cfg2.N) (x : S1x256.Idx) :
    (iblk2 (F := Ideal) V c 1 t : Vec Ideal S1x256 .f32) x = (V c main_v28 : S1x256.Idx → EReal) x := by
  obtain ⟨-, -, e2, e3, -⟩ := idx_facts t
  unfold iblk2
  rw [View.read_apply]
  show V c main_v28 _ = V c main_v28 _
  congr 1
  funext a
  apply Fin.ext
  match a with
  | ⟨0, _⟩ => show win2_1.index t 0 * 1 + 1 * (x 0).val = (x 0).val; rw [e2]; omega
  | ⟨1, _⟩ => show win2_1.index t 1 * 256 + 1 * (x 1).val = (x 1).val; rw [e3]; omega

/-- The shift block at every point is the whole shift row. -/
theorem hblk_apply (V : Entry2) (c : Dev nD) (t : Fin cfg2.N) (x : S1x256.Idx) :
    (iblk2 (F := Ideal) V c 2 t : Vec Ideal S1x256 .f32) x = (V c main_v29 : S1x256.Idx → EReal) x := by
  obtain ⟨-, -, -, -, e4, e5, -⟩ := idx_facts t
  unfold iblk2
  rw [View.read_apply]
  show V c main_v29 _ = V c main_v29 _
  congr 1
  funext a
  apply Fin.ext
  match a with
  | ⟨0, _⟩ => show win2_2.index t 0 * 1 + 1 * (x 0).val = (x 0).val; rw [e4]; omega
  | ⟨1, _⟩ => show win2_2.index t 1 * 256 + 1 * (x 1).val = (x 1).val; rw [e5]; omega

/-- The weight block at every point is the whole weight matrix. -/
theorem wblk_apply (V : Entry2) (c : Dev nD) (t : Fin cfg2.N) (x : S256x256.Idx) :
    (iblk2 (F := Ideal) V c 3 t : Vec Ideal S256x256 .f32) x = (V c main_arg6 : S256x256.Idx → EReal) x := by
  obtain ⟨-, -, -, -, -, -, e6, e7, -⟩ := idx_facts t
  unfold iblk2
  rw [View.read_apply]
  show V c main_arg6 _ = V c main_arg6 _
  congr 1
  funext a
  apply Fin.ext
  match a with
  | ⟨0, _⟩ => show win2_3.index t 0 * 256 + 1 * (x 0).val = (x 0).val; rw [e6]; omega
  | ⟨1, _⟩ => show win2_3.index t 1 * 256 + 1 * (x 1).val = (x 1).val; rw [e7]; omega

/-- The entrywise map r · scale + shift at row P, column l. -/
theorem affine_at (r : Gcn.Act) (sc sh : Gcn.Row) (P : Fin 10000) (l : Fin 256) :
    Gcn.affine r sc sh (ix2 P l) = r (ix2 P l) * sc (ix2 (0 : Fin 1) l) + sh (ix2 (0 : Fin 1) l) := rfl

/-- What point t writes back is block t of the product of the mapped activations with the weights. -/
theorem flushed_eq (V : Entry2) (c : Dev nD) (t : Fin cfg2.N) :
    (dat2 (F := Ideal) V c).flushed 4 t
      = ((cfg2.win 4).blk t).view.read (Elt Ideal)
          (Gcn.xw (Gcn.affine (V c main_v1_0) (V c main_v28) (V c main_v29)) (V c main_arg6)) := by
  show (cfg2.win 4).cut (grid2.coords t) ((dat2 V c).after 4 t) = _
  rw [after2_4]
  unfold out2_4
  rw [View.canon_unit_zero hz]
  simp only [View.ld_unit_zero (S := S2000x256) hz, View.ld_unit_zero (S := S1x256) hz, View.ld_unit_zero (S := S256x256) hz]
  obtain ⟨-, -, -, -, -, -, -, -, e8, e9⟩ := idx_facts t
  funext j
  obtain ⟨p, q, rfl⟩ : ∃ (p : Fin 2000) (q : Fin 256), j = ix2 p q := ⟨j 0, j 1, eq_ix2 j⟩
  refine (blockProd_apply _ _ _ _ p q).trans ?_
  rw [View.read_apply]
  show _ = Gcn.xwAt (Gcn.affine (V c main_v1_0) (V c main_v28) (V c main_v29)) (V c main_arg6) _ _
  unfold Gcn.xwAt
  refine Finset.sum_congr rfl fun l _ => ?_
  congr 1
  · refine Eq.trans ?_ (affine_at _ _ _ _ l).symm
    rw [sblk_apply V c t, hblk_apply V c t]
    congr 2
    refine ablk_apply V c t (ix2 p l) _ ?_ ?_
    · show win2_4.index t 0 * 2000 + 1 * p.val = 2000 * t.val + p.val; rw [e8]; omega
    · rfl
  · refine (wblk_apply V c t (ix2 l q)).trans ?_
    congr 1
    funext a
    apply Fin.ext
    match a with
    | ⟨0, _⟩ => rfl
    | ⟨1, _⟩ => show q.val = win2_4.index t 1 * 256 + 1 * q.val; rw [e9]; omega

/-- An index of the result array is in point t's block iff each coordinate is in the block's range. -/
theorem mem_blk (t : Fin cfg2.N) (i : S10000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v30).slice (win2_4.rect t)).set ↔ _
  rw [View.set_slice_whole, Rect.mem_set_unit]
  exact Iff.rfl

/-- Row r is written by point r / 2000. -/
theorem cover (i : S10000x256.Idx) :
    ∃ t : Fin cfg2.N, (cfg2.win 4).flush t = true ∧ i ∈ ((cfg2.win 4).blk t).view.set := by
  have hi0 : (i 0).val < 10000 := (i 0).isLt
  have hi1 : (i 1).val < 256 := (i 1).isLt
  have hN : cfg2.N = 5 := N_2
  refine ⟨⟨(i 0).val / 2000, by rw [hN]; omega⟩, flush2_4 _, ?_⟩
  rw [mem_blk]
  obtain ⟨-, -, -, -, -, -, -, -, e8, e9⟩ := idx_facts ⟨(i 0).val / 2000, by rw [hN]; omega⟩
  intro a
  match a with
  | ⟨0, _⟩ => show win2_4.index _ (0 : Fin 2) * 2000 ≤ (i 0).val ∧ (i 0).val < win2_4.index _ (0 : Fin 2) * 2000 + 2000; rw [e8]; show (i 0).val / 2000 * 2000 ≤ (i 0).val ∧ (i 0).val < (i 0).val / 2000 * 2000 + 2000; omega
  | ⟨1, _⟩ => show win2_4.index _ (1 : Fin 2) * 256 ≤ (i 1).val ∧ (i 1).val < win2_4.index _ (1 : Fin 2) * 256 + 256; rw [e9]; omega

end Xw2

/-- After the launch the result array is the mapped activations, r · scale + shift, times the weights. -/
theorem reg2_out (V : Entry2) (c : Dev nD) :
    (dat2 (F := Ideal) V c).arrAt 4 cfg2.N
      = Gcn.xw (Gcn.affine (V c main_v1_0) (V c main_v28) (V c main_v29)) (V c main_arg6) :=
  (dat2 (F := Ideal) V c).arrAt_eq_of_cover 4
    (Gcn.xw (Gcn.affine (V c main_v1_0) (V c main_v28) (V c main_v29)) (V c main_arg6))
    (fun t _ => Xw2.flushed_eq V c t) Xw2.cover

end Cert.KernelIdeal.Val

end
-- ==== Proof.KReg3.lean ====
/- The fourth launch: a · s again, on the second layer's product, four hundred rows to a grid point, with each group's column sums and column sums of squares. -/
import proofs.«156090_g77017353552286_cont_9to1c4b_820_2_alg».proof.Proof.Gen.KernelIdeal.Frame
import proofs.«156090_g77017353552286_cont_9to1c4b_820_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

/-- The buffer contents a region is entered from, one array per buffer of the core. -/
abbrev Entry3 : Type := (c : Dev nD) → (b : Ref sig .tc) → Buf (Elt Ideal) ((c : Thread nD τ).loc b)

namespace Agg3

/-! ## The product of a block of four hundred rows with the whole right factor, entry by entry -/

/-- On its row axis the left factor is read at the entry's row. -/
theorem lhs_row3 (j : S400x256.Idx) (k : dot_S400x10000_S10000x256_S400x256_1_0_0_1_n_n.contr.Idx) :
    (dot_S400x10000_S10000x256_S400x256_1_0_0_1_n_n.lhsIdx j k 0).val = (j 0).val := rfl
/-- On its column axis the left factor is read at the summation index. -/
theorem lhs_col3 (j : S400x256.Idx) (k : dot_S400x10000_S10000x256_S400x256_1_0_0_1_n_n.contr.Idx) :
    (dot_S400x10000_S10000x256_S400x256_1_0_0_1_n_n.lhsIdx j k 1).val = (k ⟨0, by decide⟩).val :=
  DotDims.lhsIdx_val_of_single dot_S400x10000_S10000x256_S400x256_1_0_0_1_n_n (cl := 1) rfl j k
/-- On its row axis the right factor is read at the summation index. -/
theorem rhs_row3 (j : S400x256.Idx) (k : dot_S400x10000_S10000x256_S400x256_1_0_0_1_n_n.contr.Idx) :
    (dot_S400x10000_S10000x256_S400x256_1_0_0_1_n_n.rhsIdx j k 0).val = (k ⟨0, by decide⟩).val :=
  DotDims.rhsIdx_val_of_single dot_S400x10000_S10000x256_S400x256_1_0_0_1_n_n (cr := 0) rfl j k
/-- On its column axis the right factor is read at the entry's column. -/
theorem rhs_col3 (j : S400x256.Idx) (k : dot_S400x10000_S10000x256_S400x256_1_0_0_1_n_n.contr.Idx) :
    (dot_S400x10000_S10000x256_S400x256_1_0_0_1_n_n.rhsIdx j k 1).val = (j 1).val := rfl

/-- Entry (p, q) of the block product is Σ_k x0 p k · x1 k q. -/
theorem prod3_apply (x0 : FVec Ideal S400x10000 .f32) (x1 : FVec Ideal S10000x256 .f32) (p : Fin 400) (q : Fin 256) :
    k3_pay1 (F := Ideal) x0 x1 (ix2 p q) = ∑ k : Fin 10000, x0 (ix2 p k) * x1 (ix2 k q) := by
  unfold k3_pay1
  simp only [matmul]
  rw [shapeCast_self, Ideal.matmul_constant_zero_apply]
  rw [← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  congr 1
  · refine congrArg x0 (funext fun a => Fin.ext ?_)
    match a with
    | ⟨0, _⟩ => exact lhs_row3 _ _
    | ⟨1, _⟩ => exact (lhs_col3 _ _).trans hk
  · refine congrArg x1 (funext fun a => Fin.ext ?_)
    match a with
    | ⟨0, _⟩ => exact (rhs_row3 _ _).trans hk
    | ⟨1, _⟩ => exact rhs_col3 _ _

/-! ## Where a grid point's blocks sit in their arrays -/

theorem zeroOff3 : (![0, 0] : Fin 2 → Nat) = fun _ => 0 := funext fun a => by fin_cases a <;> rfl

/-- Point t takes block row t of the left factor, the whole right factor, and gives block row t of the product and
    plane pair t of the sums. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 3) = t.val ∧ win3_3.index t (1 : Fin 3) = 0 ∧ win3_3.index t (2 : Fin 3) = 0 :=
  (by decide +kernel : ∀ t : Fin grid3.N, _)

/-- Row p of point t's left block is row 400 t + p of the left factor. -/
theorem lblk3_apply (V : Entry3) (c : Dev nD) (t : Fin cfg3.N) (p : Fin 400) (k : Fin 10000) (r : Fin 10000)
    (hr : r.val = 400 * t.val + p.val) :
    (iblk3 (F := Ideal) V c 0 t : Vec Ideal S400x10000 .f32) (ix2 p k)
      = (V c main_arg1 : S10000x10000.Idx → EReal) (ix2 r k) := by
  obtain ⟨e0, e1, -⟩ := idx3 t
  unfold iblk3
  rw [View.read_apply]
  show V c main_arg1 _ = V c main_arg1 _
  congr 1
  funext a
  apply Fin.ext
  match a with
  | ⟨0, _⟩ => show win3_0.index t (0 : Fin 2) * 400 + 1 * p.val = r.val; rw [e0, hr]; omega
  | ⟨1, _⟩ => show win3_0.index t (1 : Fin 2) * 10000 + 1 * k.val = k.val; rw [e1]; omega

/-- Point t's right block is the whole right factor. -/
theorem rblk3_apply (V : Entry3) (c : Dev nD) (t : Fin cfg3.N) (k : Fin 10000) (q : Fin 256) :
    (iblk3 (F := Ideal) V c 1 t : Vec Ideal S10000x256 .f32) (ix2 k q)
      = (V c main_v30 : S10000x256.Idx → EReal) (ix2 k q) := by
  obtain ⟨-, -, e0, e1, -⟩ := idx3 t
  unfold iblk3
  rw [View.read_apply]
  show V c main_v30 _ = V c main_v30 _
  congr 1
  funext a
  apply Fin.ext
  match a with
  | ⟨0, _⟩ => show win3_1.index t (0 : Fin 2) * 10000 + 1 * k.val = k.val; rw [e0]; omega
  | ⟨1, _⟩ => show win3_1.index t (1 : Fin 2) * 256 + 1 * q.val = q.val; rw [e1]; omega

/-- Entry (p, q) of the product of point t's blocks is entry (400 t + p, q) of a · s. -/
theorem prod3_blk (V : Entry3) (c : Dev nD) (t : Fin cfg3.N) (p : Fin 400) (q : Fin 256) (r : Fin 10000)
    (hr : r.val = 400 * t.val + p.val) :
    k3_pay1 (F := Ideal) (iblk3 V c 0 t) (iblk3 V c 1 t) (ix2 p q) = Gcn.aggAt (V c main_arg1) (V c main_v30) r q := by
  rw [prod3_apply]
  unfold Gcn.aggAt
  refine Finset.sum_congr rfl fun k _ => ?_
  rw [lblk3_apply V c t p k r hr, rblk3_apply V c t k q]

/-! ## The product array -/

/-- What point t writes back to the product is block row t of a · s. -/
theorem flushed3_2 (V : Entry3) (c : Dev nD) (t : Fin cfg3.N) :
    (dat3 (F := Ideal) V c).flushed 2 t
      = ((cfg3.win 2).blk t).view.read (Elt Ideal) (Gcn.agg (V c main_arg1) (V c main_v30)) := by
  show (cfg3.win 2).cut (grid3.coords t) ((dat3 V c).after 2 t) = _
  rw [after3_2]
  unfold out3_2
  rw [View.canon_unit_zero zeroOff3]
  simp only [View.ld_unit_zero (S := S400x10000) zeroOff3, View.ld_unit_zero (S := S10000x256) zeroOff3]
  obtain ⟨-, -, -, -, e0, e1, -⟩ := idx3 t
  funext j
  obtain ⟨p, q, rfl⟩ : ∃ (p : Fin 400) (q : Fin 256), j = ix2 p q := ⟨j 0, j 1, eq_ix2 j⟩
  have hlt : 400 * t.val + p.val < 10000 := by
    have h1 : t.val < 25 := t.isLt.trans_eq N_3
    have h2 := p.isLt; omega
  rw [View.read_apply]
  show k3_pay1 (F := Ideal) (iblk3 V c 0 t) (iblk3 V c 1 t) (ix2 p q) = Gcn.agg (V c main_arg1) (V c main_v30) _
  rw [prod3_blk V c t p q ⟨400 * t.val + p.val, hlt⟩ rfl]
  unfold Gcn.agg
  congr 1
  · apply Fin.ext
    show 400 * t.val + p.val = win3_2.index t (0 : Fin 2) * 400 + 1 * p.val
    rw [e0]; omega
  · apply Fin.ext
    show q.val = win3_2.index t (1 : Fin 2) * 256 + 1 * q.val
    rw [e1]; omega

/-- An index of the product array lies in point t's block iff each coordinate lies in the block's range. -/
theorem mem_blk3_2 (t : Fin cfg3.N) (i : S10000x256.Idx) :
    i ∈ ((cfg3.win 2).blk t).view.set ↔ ∀ a : Fin 2, win3_2.index t a * S400x256.size a ≤ (i a).val ∧ (i a).val < win3_2.index t a * S400x256.size a + S400x256.size a := by
  show i ∈ ((View.whole main_v31_0).slice (win3_2.rect t)).set ↔ _
  rw [View.set_slice_whole, Rect.mem_set_unit]
  exact Iff.rfl

/-- Row r of the product array is written by point r / 400. -/
theorem cover3_out (i : S10000x256.Idx) :
    ∃ t : Fin cfg3.N, (cfg3.win 2).flush t = true ∧ i ∈ ((cfg3.win 2).blk t).view.set := by
  have hi0 : (i 0).val < 10000 := (i 0).isLt
  have hi1 : (i 1).val < 256 := (i 1).isLt
  have hN : cfg3.N = 25 := N_3
  refine ⟨⟨(i 0).val / 400, by rw [hN]; omega⟩, flush3_2 _, ?_⟩
  rw [mem_blk3_2]
  obtain ⟨-, -, -, -, e0, e1, -⟩ := idx3 ⟨(i 0).val / 400, by rw [hN]; omega⟩
  intro a
  match a with
  | ⟨0, _⟩ =>
    show win3_2.index _ (0 : Fin 2) * 400 ≤ (i 0).val ∧ (i 0).val < win3_2.index _ (0 : Fin 2) * 400 + 400
    rw [e0]; show (i 0).val / 400 * 400 ≤ (i 0).val ∧ (i 0).val < (i 0).val / 400 * 400 + 400; omega
  | ⟨1, _⟩ =>
    show win3_2.index _ (1 : Fin 2) * 256 ≤ (i 1).val ∧ (i 1).val < win3_2.index _ (1 : Fin 2) * 256 + 256
    rw [e1]; omega

/-! ## The column sums of a block product and of its square -/

/-- The rows of a column, listed for the sum over a block's rows. -/
theorem lift3 (j : S256.Idx) (k : Fin 400) : reduces_S400x256_S256.lift j k = ix2 k (j 0) := by
  funext a
  apply Fin.ext
  match a with
  | ⟨0, _⟩ => rfl
  | ⟨1, _⟩ => rfl

/-- A row of 256 numbers laid out as a 1 × 1 × 256 plane reads the row at the last coordinate. -/
theorem plane3_apply (v : S256.Idx → EReal) (q : Fin 256) :
    shapeCast S1x1x256 (shapeCast S1x256 v shapeCasts_S256_S1x256) shapeCasts_S1x256_S1x1x256 (ix3 (0 : Fin 1) (0 : Fin 1) q)
      = v (ix1 q) := by
  rw [shapeCast_apply _ shapeCasts_S1x256_S1x1x256 _ (ix2 (0 : Fin 1) q)
        (by rw [Shape.rowMajor_val_two, Shape.rowMajor_val_three]; rfl),
    shapeCast_apply _ shapeCasts_S256_S1x256 _ (ix1 q)
        (by rw [Shape.rowMajor_val_one, Shape.rowMajor_val_two]; show q.val = 0 * 256 + q.val; omega)]

/-- Column q of the sums plane is Σ_p of the block product's column q. -/
theorem sum3_apply (x0 : FVec Ideal S400x10000 .f32) (x1 : FVec Ideal S10000x256 .f32) (q : Fin 256) :
    k3_pay2 (F := Ideal) x0 x1 (ix3 (0 : Fin 1) (0 : Fin 1) q) = ∑ p : Fin 400, k3_pay1 (F := Ideal) x0 x1 (ix2 p q) := by
  unfold k3_pay2
  rw [plane3_apply]
  refine (Ideal.multiReduction_add_single (k3_pay1 (F := Ideal) x0 x1) 0x00000000#32 reduces_S400x256_S256 _ _ (ix1 q)).trans ?_
  refine Finset.sum_congr rfl fun (p : Fin 400) _ => ?_
  have e : reduces_S400x256_S256.lift (ix1 q) p = ix2 p q := lift3 (ix1 q) p
  rw [e]

/-- Column q of the squares plane is Σ_p of the squared block product's column q. -/
theorem sq3_apply (x0 : FVec Ideal S400x10000 .f32) (x1 : FVec Ideal S10000x256 .f32) (q : Fin 256) :
    k3_pay3 (F := Ideal) x0 x1 (ix3 (0 : Fin 1) (0 : Fin 1) q)
      = ∑ p : Fin 400, k3_pay1 (F := Ideal) x0 x1 (ix2 p q) * k3_pay1 (F := Ideal) x0 x1 (ix2 p q) := by
  unfold k3_pay3
  rw [plane3_apply]
  refine (Ideal.multiReduction_add_single (mulf (k3_pay1 (F := Ideal) x0 x1) (k3_pay1 (F := Ideal) x0 x1)) 0x00000000#32
    reduces_S400x256_S256 _ _ (ix1 q)).trans ?_
  refine Finset.sum_congr rfl fun (p : Fin 400) _ => ?_
  have e : reduces_S400x256_S256.lift (ix1 q) p = ix2 p q := lift3 (ix1 q) p
  rw [mulf_apply, e]

/-! ## The sums array -/

/-- A grid point as a group number. -/
def grp3 (t : Fin cfg3.N) : Fin 25 := ⟨t.val, t.isLt.trans_eq N_3⟩

/-- The pair of planes group t contributes: the column sums, then the column sums of squares. -/
def planes3 (r : Gcn.Act) (t : Fin 25) : S1x2x256.Idx → EReal :=
  fun y => if (y 1).val = 0 then Gcn.blockSum r t (y 2) else Gcn.blockSq r t (y 2)

/-- Point t's sums plane is group t's column sums of a · s. -/
theorem sum3_blk (V : Entry3) (c : Dev nD) (t : Fin cfg3.N) (q : Fin 256) :
    k3_pay2 (F := Ideal) (iblk3 V c 0 t) (iblk3 V c 1 t) (ix3 (0 : Fin 1) (0 : Fin 1) q)
      = Gcn.blockSum (Gcn.agg (V c main_arg1) (V c main_v30)) (grp3 t) q := by
  rw [sum3_apply]
  unfold Gcn.blockSum
  refine Finset.sum_congr rfl fun p _ => ?_
  rw [prod3_blk V c t p q (Gcn.rowOf (grp3 t) p) rfl]
  rfl

/-- Point t's squares plane is group t's column sums of squares of a · s. -/
theorem sq3_blk (V : Entry3) (c : Dev nD) (t : Fin cfg3.N) (q : Fin 256) :
    k3_pay3 (F := Ideal) (iblk3 V c 0 t) (iblk3 V c 1 t) (ix3 (0 : Fin 1) (0 : Fin 1) q)
      = Gcn.blockSq (Gcn.agg (V c main_arg1) (V c main_v30)) (grp3 t) q := by
  rw [sq3_apply]
  unfold Gcn.blockSq
  refine Finset.sum_congr rfl fun p _ => ?_
  rw [prod3_blk V c t p q (Gcn.rowOf (grp3 t) p) rfl]
  rfl

/-- Group t's planes read where they land in the sums array. -/
theorem planes3_at (r : Gcn.Act) (t : Fin 25) (y : S1x2x256.Idx) (i : S25x2x256.Idx)
    (h0 : (i 0).val = t.val) (h1 : (i 1).val = (y 1).val) (h2 : (i 2).val = (y 2).val) :
    planes3 r t y = Gcn.stats r i := by
  have e0 : i 0 = t := Fin.ext h0
  have e2 : i 2 = y 2 := Fin.ext h2
  unfold planes3 Gcn.stats
  rw [e0, e2, h1]

/-- What the two stores leave in point t's staging buffer: group t's pair of planes. -/
theorem planes3_eq (V : Entry3) (c : Dev nD) (t : Fin cfg3.N) :
    out3_3 (F := Ideal) (iblk3 V c 0 t) (iblk3 V c 1 t)
      = planes3 (Gcn.agg (V c main_arg1) (V c main_v30)) (grp3 t) := by
  unfold out3_3
  simp only [View.ld_unit_zero (S := S400x10000) zeroOff3, View.ld_unit_zero (S := S10000x256) zeroOff3]
  funext y
  refine View.canon_apply_of_pieces (Val := Elt Ideal) (S := S1x2x256) (e := .f32) (planes3 (Gcn.agg (V c main_arg1) (V c main_v30)) (grp3 t)) _ ?_ y (cover3_3 _ _ y)
  intro pc hpc x
  rcases List.mem_cons.mp hpc with rfl | hpc
  · obtain ⟨a, b, q, rfl⟩ : ∃ (a b : Fin 1) (q : Fin 256), x = ix3 a b q := ⟨x 0, x 1, x 2, eq_ix3 x⟩
    obtain rfl : a = 0 := Subsingleton.elim _ _
    obtain rfl : b = 0 := Subsingleton.elim _ _
    show k3_pay3 (F := Ideal) (iblk3 V c 0 t) (iblk3 V c 1 t) (ix3 (0 : Fin 1) (0 : Fin 1) q) = planes3 _ _ (r3_4.emb (ix3 (0 : Fin 1) (0 : Fin 1) q))
    rw [sq3_blk]
    unfold planes3
    have h1 : ((r3_4.emb (ix3 (0 : Fin 1) (0 : Fin 1) q)) 1).val = 1 := rfl
    have h2 : (r3_4.emb (ix3 (0 : Fin 1) (0 : Fin 1) q)) 2 = q := Fin.ext (by show 0 + 1 * q.val = q.val; omega)
    rw [if_neg (by rw [h1]; decide), h2]
  · obtain rfl : pc = ⟨r3_3, _⟩ := List.mem_singleton.mp hpc
    obtain ⟨a, b, q, rfl⟩ : ∃ (a b : Fin 1) (q : Fin 256), x = ix3 a b q := ⟨x 0, x 1, x 2, eq_ix3 x⟩
    obtain rfl : a = 0 := Subsingleton.elim _ _
    obtain rfl : b = 0 := Subsingleton.elim _ _
    show k3_pay2 (F := Ideal) (iblk3 V c 0 t) (iblk3 V c 1 t) (ix3 (0 : Fin 1) (0 : Fin 1) q) = planes3 _ _ (r3_3.emb (ix3 (0 : Fin 1) (0 : Fin 1) q))
    rw [sum3_blk]
    unfold planes3
    have h1 : ((r3_3.emb (ix3 (0 : Fin 1) (0 : Fin 1) q)) 1).val = 0 := rfl
    have h2 : (r3_3.emb (ix3 (0 : Fin 1) (0 : Fin 1) q)) 2 = q := Fin.ext (by show 0 + 1 * q.val = q.val; omega)
    rw [if_pos h1, h2]

/-- What point t writes back to the sums array is plane pair t of the groups' sums. -/
theorem flushed3_3 (V : Entry3) (c : Dev nD) (t : Fin cfg3.N) :
    (dat3 (F := Ideal) V c).flushed 3 t
      = ((cfg3.win 3).blk t).view.read (Elt Ideal) (Gcn.stats (Gcn.agg (V c main_arg1) (V c main_v30))) := by
  show (cfg3.win 3).cut (grid3.coords t) ((dat3 V c).after 3 t) = _
  rw [after3_3, planes3_eq]
  obtain ⟨-, -, -, -, -, -, e0, e1, e2⟩ := idx3 t
  funext y
  rw [View.read_apply]
  show planes3 (Gcn.agg (V c main_arg1) (V c main_v30)) (grp3 t) y = Gcn.stats (Gcn.agg (V c main_arg1) (V c main_v30)) _
  have hy0 : (y 0).val < 1 := (y 0).isLt
  refine planes3_at _ _ y _ ?_ ?_ ?_
  · show win3_3.index t (0 : Fin 3) * 1 + 1 * (y 0).val = t.val
    rw [e0]; omega
  · show win3_3.index t (1 : Fin 3) * 2 + 1 * (y 1).val = (y 1).val
    rw [e1]; omega
  · show win3_3.index t (2 : Fin 3) * 256 + 1 * (y 2).val = (y 2).val
    rw [e2]; omega

/-- An index of the sums array lies in point t's block iff each coordinate lies in the block's range. -/
theorem mem_blk3_3 (t : Fin cfg3.N) (i : S25x2x256.Idx) :
    i ∈ ((cfg3.win 3).blk t).view.set ↔ ∀ a : Fin 3, win3_3.index t a * S1x2x256.size a ≤ (i a).val ∧ (i a).val < win3_3.index t a * S1x2x256.size a + S1x2x256.size a := by
  show i ∈ ((View.whole main_v31_1).slice (win3_3.rect t)).set ↔ _
  rw [View.set_slice_whole, Rect.mem_set_unit]
  exact Iff.rfl

/-- Plane pair g of the sums array is written by point g. -/
theorem cover3_stats (i : S25x2x256.Idx) :
    ∃ t : Fin cfg3.N, (cfg3.win 3).flush t = true ∧ i ∈ ((cfg3.win 3).blk t).view.set := by
  have hi0 : (i 0).val < 25 := (i 0).isLt
  have hi1 : (i 1).val < 2 := (i 1).isLt
  have hi2 : (i 2).val < 256 := (i 2).isLt
  have hN : cfg3.N = 25 := N_3
  refine ⟨⟨(i 0).val, by rw [hN]; exact hi0⟩, flush3_3 _, ?_⟩
  rw [mem_blk3_3]
  obtain ⟨-, -, -, -, -, -, e0, e1, e2⟩ := idx3 ⟨(i 0).val, by rw [hN]; exact hi0⟩
  intro a
  match a with
  | ⟨0, _⟩ =>
    show win3_3.index _ (0 : Fin 3) * 1 ≤ (i 0).val ∧ (i 0).val < win3_3.index _ (0 : Fin 3) * 1 + 1
    rw [e0]; show (i 0).val * 1 ≤ (i 0).val ∧ (i 0).val < (i 0).val * 1 + 1; omega
  | ⟨1, _⟩ =>
    show win3_3.index _ (1 : Fin 3) * 2 ≤ (i 1).val ∧ (i 1).val < win3_3.index _ (1 : Fin 3) * 2 + 2
    rw [e1]; omega
  | ⟨2, _⟩ =>
    show win3_3.index _ (2 : Fin 3) * 256 ≤ (i 2).val ∧ (i 2).val < win3_3.index _ (2 : Fin 3) * 256 + 256
    rw [e2]; omega

end Agg3

open Agg3 in
/-- The aggregate. -/
theorem reg3_out (V : Entry3) (c : Dev nD) :
    (dat3 (F := Ideal) V c).arrAt 2 cfg3.N = Gcn.agg (V c main_arg1) (V c main_v30) :=
  (dat3 (F := Ideal) V c).arrAt_eq_of_cover 2 (Gcn.agg (V c main_arg1) (V c main_v30))
    (fun t _ => flushed3_2 V c t) cover3_out

open Agg3 in
/-- The groups' column sums and sums of squares of the aggregate. -/
theorem reg3_stats (V : Entry3) (c : Dev nD) :
    (dat3 (F := Ideal) V c).arrAt 3 cfg3.N = Gcn.stats (Gcn.agg (V c main_arg1) (V c main_v30)) :=
  (dat3 (F := Ideal) V c).arrAt_eq_of_cover 3 (Gcn.stats (Gcn.agg (V c main_arg1) (V c main_v30)))
    (fun t _ => flushed3_3 V c t) cover3_stats

end Cert.KernelIdeal.Val

end
-- ==== Proof.KReg4.lean ====
/- The last launch: tanh (r · scale + shift). -/
import proofs.«156090_g77017353552286_cont_9to1c4b_820_2_alg».proof.Proof.Gen.KernelIdeal.Frame
import proofs.«156090_g77017353552286_cont_9to1c4b_820_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

/-- The buffer contents a region is entered from, one array per buffer of the core. -/
abbrev Entry4 : Type := (c : Dev nD) → (b : Ref sig .tc) → Buf (Elt Ideal) ((c : Thread nD τ).loc b)

/-! The helper facts of this launch live in a namespace of their own, so that their names meet no other launch's. -/
namespace TanhAffine4

/-- Both offsets of a whole-block access are zero. -/
theorem zeroOff4 : (![0, 0] : Fin 2 → Nat) = fun _ => 0 := funext fun a => by fin_cases a <;> rfl

/-- The launch has five points. -/
theorem point_lt4 (t : Fin cfg4.N) : t.val < 5 := t.isLt.trans_eq N_4

/-- Row `p` of the `t`-th group of 2000 rows. -/
def rowAt4 (t : Fin cfg4.N) (p : Fin 2000) : Fin 10000 := ⟨2000 * t.val + p.val, by have := point_lt4 t; omega⟩

/-- A one-row vector repeated down the rows reads, at row `p` and column `q`, its entry of column `q`. -/
theorem rowBroadcast_apply (x : Vec Ideal S1x256 .f32) (p : Fin 2000) (q : Fin 256) :
    broadcastTo S2000x256 x broadcasts_S1x256_S2000x256 (ix2 p q) = x (ix2 (0 : Fin 1) q) :=
  broadcastTo_apply x broadcasts_S1x256_S2000x256 (ix2 p q) (ix2 (0 : Fin 1) q) fun a => by
    match a with
    | ⟨0, _⟩ => rfl
    | ⟨1, _⟩ => rfl

/-- What one point computes at row `p`, column `q` of its block: tanh (x · scale + shift), the scale and the shift
    taken from the one row of their blocks. -/
theorem tanhPay_apply (x0 : Vec Ideal S2000x256 .f32) (x1 x2 : Vec Ideal S1x256 .f32) (p : Fin 2000) (q : Fin 256) :
    k4_pay1 (F := Ideal) x0 x1 x2 (ix2 p q)
      = Ideal.tanh (x0 (ix2 p q) * x1 (ix2 (0 : Fin 1) q) + x2 (ix2 (0 : Fin 1) q)) := by
  unfold k4_pay1
  simp only [shapeCast_self]
  show Ideal.tanh (x0 (ix2 p q) * broadcastTo S2000x256 x1 broadcasts_S1x256_S2000x256 (ix2 p q)
      + broadcastTo S2000x256 x2 broadcasts_S1x256_S2000x256 (ix2 p q)) = _
  rw [rowBroadcast_apply x1 p q, rowBroadcast_apply x2 p q]

/-- The block-index maps over the five points: the activations' and the result's blocks are the `t`-th group
    of rows, the scale's and the shift's the one block there is. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The activations' block at a point, read at row `p`, column `q`. -/
theorem actBlock_apply (V : Entry4) (c : Dev nD) (t : Fin cfg4.N) (p : Fin 2000) (q : Fin 256) :
    (iblk4 V c 0 t : Vec Ideal S2000x256 .f32) (ix2 p q)
      = (V c main_v31_0 : S10000x256.Idx → EReal) (ix2 (rowAt4 t p) q) := by
  obtain ⟨e00, e01, -⟩ := blockIdx4 t
  unfold iblk4
  rw [View.read_apply]
  show (V c main_v31_0 : S10000x256.Idx → EReal) (((cfg4.win 0).blk t).view.emb (ix2 p q)) = _
  refine congrArg _ (funext fun a => Fin.ext ?_)
  match a with
  | ⟨0, _⟩ => show win4_0.index t (0 : Fin 2) * 2000 + 1 * p.val = 2000 * t.val + p.val; omega
  | ⟨1, _⟩ => show win4_0.index t (1 : Fin 2) * 256 + 1 * q.val = q.val; omega

/-- The scale's one block, read at column `q`. -/
theorem scaleBlock_apply (V : Entry4) (c : Dev nD) (t : Fin cfg4.N) (q : Fin 256) :
    (iblk4 V c 1 t : Vec Ideal S1x256 .f32) (ix2 (0 : Fin 1) q)
      = (V c main_v58 : S1x256.Idx → EReal) (ix2 (0 : Fin 1) q) := by
  obtain ⟨-, -, e10, e11, -⟩ := blockIdx4 t
  unfold iblk4
  rw [View.read_apply]
  show (V c main_v58 : S1x256.Idx → EReal) (((cfg4.win 1).blk t).view.emb (ix2 (0 : Fin 1) q)) = _
  refine congrArg _ (funext fun a => Fin.ext ?_)
  match a with
  | ⟨0, _⟩ => show win4_1.index t (0 : Fin 2) * 1 + 1 * 0 = 0; omega
  | ⟨1, _⟩ => show win4_1.index t (1 : Fin 2) * 256 + 1 * q.val = q.val; omega

/-- The shift's one block, read at column `q`. -/
theorem shiftBlock_apply (V : Entry4) (c : Dev nD) (t : Fin cfg4.N) (q : Fin 256) :
    (iblk4 V c 2 t : Vec Ideal S1x256 .f32) (ix2 (0 : Fin 1) q)
      = (V c main_v59 : S1x256.Idx → EReal) (ix2 (0 : Fin 1) q) := by
  obtain ⟨-, -, -, -, e20, e21, -⟩ := blockIdx4 t
  unfold iblk4
  rw [View.read_apply]
  show (V c main_v59 : S1x256.Idx → EReal) (((cfg4.win 2).blk t).view.emb (ix2 (0 : Fin 1) q)) = _
  refine congrArg _ (funext fun a => Fin.ext ?_)
  match a with
  | ⟨0, _⟩ => show win4_2.index t (0 : Fin 2) * 1 + 1 * 0 = 0; omega
  | ⟨1, _⟩ => show win4_2.index t (1 : Fin 2) * 256 + 1 * q.val = q.val; omega

/-- A whole array read through the result's block at a point, at row `p`, column `q`. -/
theorem outBlock_apply (G : S10000x256.Idx → EReal) (t : Fin cfg4.N) (p : Fin 2000) (q : Fin 256) :
    (((cfg4.win 3).blk t).view.read (Elt Ideal) G : Vec Ideal S2000x256 .f32) (ix2 p q) = G (ix2 (rowAt4 t p) q) := by
  obtain ⟨-, -, -, -, -, -, e30, e31⟩ := blockIdx4 t
  rw [View.read_apply]
  show G (((cfg4.win 3).blk t).view.emb (ix2 p q)) = _
  refine congrArg _ (funext fun a => Fin.ext ?_)
  match a with
  | ⟨0, _⟩ => show win4_3.index t (0 : Fin 2) * 2000 + 1 * p.val = 2000 * t.val + p.val; omega
  | ⟨1, _⟩ => show win4_3.index t (1 : Fin 2) * 256 + 1 * q.val = q.val; omega

/-- What a point writes back is its block of tanh (r · scale + shift) over the three arrays the launch finds. -/
theorem flushed4_eq (V : Entry4) (c : Dev nD) (t : Fin cfg4.N) :
    (dat4 (F := Ideal) V c).flushed 3 t
      = ((cfg4.win 3).blk t).view.read (Elt Ideal)
          (Gcn.tanhAffine (V c main_v31_0) (V c main_v58) (V c main_v59)) := by
  show (cfg4.win 3).cut (grid4.coords t) ((dat4 (F := Ideal) V c).after 3 t) = _
  rw [after4_3]
  unfold out4_3
  rw [View.canon_unit_zero zeroOff4]
  simp only [View.ld_unit_zero (S := S2000x256) zeroOff4, View.ld_unit_zero (S := S1x256) zeroOff4]
  funext j
  obtain ⟨p, q, rfl⟩ : ∃ (p : Fin 2000) (q : Fin 256), j = ix2 p q := ⟨j 0, j 1, eq_ix2 j⟩
  refine (tanhPay_apply (iblk4 V c 0 t) (iblk4 V c 1 t) (iblk4 V c 2 t) p q).trans ?_
  rw [actBlock_apply V c t p q, scaleBlock_apply V c t q, shiftBlock_apply V c t q]
  exact (outBlock_apply (Gcn.tanhAffine (V c main_v31_0) (V c main_v58) (V c main_v59)) t p q).symm

/-- An index of the result array lies in a point's block iff each coordinate lies in the block's range on its axis. -/
theorem mem_blk4 (t : Fin cfg4.N) (i : S10000x256.Idx) :
    i ∈ ((cfg4.win 3).blk t).view.set ↔ ∀ a : Fin 2, win4_3.index t a * S2000x256.size a ≤ (i a).val
      ∧ (i a).val < win4_3.index t a * S2000x256.size a + S2000x256.size a := by
  show i ∈ ((View.whole main_v60).slice (win4_3.rect t)).set ↔ _
  rw [View.set_slice_whole, Rect.mem_set_unit]
  exact Iff.rfl

/-- Every index of the result array is in some point's block: row `r` is written by point `r / 2000`. -/
theorem covered4 (i : S10000x256.Idx) :
    ∃ t : Fin cfg4.N, (cfg4.win 3).flush t = true ∧ i ∈ ((cfg4.win 3).blk t).view.set := by
  have hi0 : (i 0).val < 10000 := (i 0).isLt
  have hi1 : (i 1).val < 256 := (i 1).isLt
  obtain ⟨t, ht⟩ : ∃ t : Fin cfg4.N, t.val = (i 0).val / 2000 :=
    ⟨⟨(i 0).val / 2000, Nat.lt_of_lt_of_eq (by omega : (i 0).val / 2000 < 5) N_4.symm⟩, rfl⟩
  obtain ⟨-, -, -, -, -, -, e30, e31⟩ := blockIdx4 t
  refine ⟨t, flush4_3 t, ?_⟩
  rw [mem_blk4]
  intro a
  match a with
  | ⟨0, _⟩ =>
    show win4_3.index t (0 : Fin 2) * 2000 ≤ (i 0).val ∧ (i 0).val < win4_3.index t (0 : Fin 2) * 2000 + 2000
    omega
  | ⟨1, _⟩ =>
    show win4_3.index t (1 : Fin 2) * 256 ≤ (i 1).val ∧ (i 1).val < win4_3.index t (1 : Fin 2) * 256 + 256
    omega

end TanhAffine4

/-- The last launch leaves tanh (r · scale + shift) in its result array, whatever contents it is entered from. -/
theorem reg4_out (V : Entry4) (c : Dev nD) :
    (dat4 (F := Ideal) V c).arrAt 3 cfg4.N = Gcn.tanhAffine (V c main_v31_0) (V c main_v58) (V c main_v59) :=
  (dat4 (F := Ideal) V c).arrAt_eq_of_cover 3 (Gcn.tanhAffine (V c main_v31_0) (V c main_v58) (V c main_v59))
    (fun t _ => TanhAffine4.flushed4_eq V c t) TanhAffine4.covered4

end Cert.KernelIdeal.Val

end
-- ==== Proof.KHost2.lean ====
/- The host operations between the second and the third launch: from the groups' column sums and sums of squares, the bias, γ and β to the scale row and the shift row of the first normalisation; every other buffer they leave alone. -/
import proofs.«156090_g77017353552286_cont_9to1c4b_820_2_alg».proof.Proof.Gen.KernelIdeal.Launch
import proofs.«156090_g77017353552286_cont_9to1c4b_820_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

open Idealize.ShloMosaic.StableHlo

namespace Host2

/-! ## The operations as functions of the four arrays

The column sums `s` (plane 0) and `q` (plane 1) added over the 25 groups, then μ = s/n + b,
v = (q + (2·b)·s)/n + b·b − μ·μ, scale = γ · (v + ε)^(−1/2), shift = (b − μ) · scale + β, every array operation
spelled as the program spells it. -/

/-- A scalar word laid out over the 256 features. -/
def hBc (w : BitVec 32) : FVec Ideal S256 .f32 :=
  broadcastInDim S256 ![] bcast_S_S256 (constant (F := Ideal) S_ .f32 w)

/-- Plane 0 added over the groups. -/
def hSum (st : FVec Ideal S25x2x256 .f32) : FVec Ideal S256 .f32 :=
  Host.reduceAdd
    (shapeCast S25x256 (extractStridedSlice S25x1x256 ![0, 0, 0] st slices_S25x2x256_S25x1x256_0_0_0) shapeCasts_S25x1x256_S25x256)
    (constant (F := Ideal) S_ .f32 0x00000000#32) reducesTo_S25x256_S256_d0 h_S_

/-- Plane 1 added over the groups. -/
def hSq (st : FVec Ideal S25x2x256 .f32) : FVec Ideal S256 .f32 :=
  Host.reduceAdd
    (shapeCast S25x256 (extractStridedSlice S25x1x256 ![0, 1, 0] st slices_S25x2x256_S25x1x256_0_1_0) shapeCasts_S25x1x256_S25x256)
    (constant (F := Ideal) S_ .f32 0x00000000#32) reducesTo_S25x256_S256_d0 h_S_

/-- μ = s/n + b. -/
def hMean (st : FVec Ideal S25x2x256 .f32) (b : FVec Ideal S256 .f32) : FVec Ideal S256 .f32 :=
  addf (Host.divf (hSum st) (hBc 0x461C4000#32)) b

/-- v = (q + (2·b)·s)/n + b·b − μ·μ. -/
def hVar (st : FVec Ideal S25x2x256 .f32) (b : FVec Ideal S256 .f32) : FVec Ideal S256 .f32 :=
  subf (addf (Host.divf (addf (hSq st) (mulf (mulf (hBc 0x40000000#32) b) (hSum st))) (hBc 0x461C4000#32)) (mulf b b))
    (mulf (hMean st b) (hMean st b))

/-- scale = γ · (v + ε)^(−1/2). -/
def hScale (st : FVec Ideal S25x2x256 .f32) (b g : FVec Ideal S256 .f32) : FVec Ideal S256 .f32 :=
  mulf g (Host.rsqrt (addf (hVar st b) (hBc 0x3727C5AC#32)))

/-- shift = (b − μ) · scale + β. -/
def hShift (st : FVec Ideal S25x2x256 .f32) (b g be : FVec Ideal S256 .f32) : FVec Ideal S256 .f32 :=
  addf (mulf (subf b (hMean st b)) (hScale st b g)) be

/-! ## Each read at a feature -/

/-- A plane of the group table, cut out, flattened to 25×256 and added over the groups from the start value. -/
theorem plane_apply (st : FVec Ideal S25x2x256 .f32) (pl : Fin 2) (hs : S25x2x256.Slices ![0, pl.val, 0] S25x1x256) (q : Fin 256) :
    Host.reduceAdd
        (shapeCast S25x256 (extractStridedSlice S25x1x256 ![0, pl.val, 0] st hs) shapeCasts_S25x1x256_S25x256)
        (constant (F := Ideal) S_ .f32 0x00000000#32) reducesTo_S25x256_S256_d0 h_S_ (ix1 q)
      = Gcn.cZero + ∑ t : Fin 25, st (ix3 t pl q) := by
  have h : S25x256.Reduces [0] S256 := by decide
  rw [hostReduceAdd_apply, Ideal.hostReduceAdd_single _ h]
  refine congrArg (fun z => Gcn.cZero + z) (Finset.sum_congr rfl fun t _ => ?_)
  refine (shapeCast_apply _ _ _ (ix3 t (0 : Fin 1) q) ?_).trans ?_
  · rw [Shape.rowMajor_val_three, Shape.rowMajor_val_two]
    show (t.val * 1 + 0) * 256 + q.val = t.val * 256 + q.val
    omega
  · refine extractStridedSlice_apply _ _ _ _ (ix3 t pl q) fun a => ?_
    match a with
    | ⟨0, _⟩ => show t.val = 0 + t.val; omega
    | ⟨1, _⟩ => show pl.val = pl.val + 0; omega
    | ⟨2, _⟩ => show q.val = 0 + q.val; omega

theorem hSum_apply (st : FVec Ideal S25x2x256 .f32) (q : Fin 256) : hSum st (ix1 q) = Gcn.colSum st q :=
  plane_apply st 0 slices_S25x2x256_S25x1x256_0_0_0 q

theorem hSq_apply (st : FVec Ideal S25x2x256 .f32) (q : Fin 256) : hSq st (ix1 q) = Gcn.colSq st q :=
  plane_apply st 1 slices_S25x2x256_S25x1x256_0_1_0 q

theorem hMean_apply (st : FVec Ideal S25x2x256 .f32) (b : FVec Ideal S256 .f32) (q : Fin 256) :
    hMean st b (ix1 q) = Gcn.kMean st b q := by
  show Ideal.div (hSum st (ix1 q)) Gcn.cN + b (ix1 q) = _
  rw [hSum_apply]; rfl

theorem hVar_apply (st : FVec Ideal S25x2x256 .f32) (b : FVec Ideal S256 .f32) (q : Fin 256) :
    hVar st b (ix1 q) = Gcn.kVar st b q := by
  show (Ideal.div (hSq st (ix1 q) + Gcn.cTwo * b (ix1 q) * hSum st (ix1 q)) Gcn.cN + b (ix1 q) * b (ix1 q))
      - hMean st b (ix1 q) * hMean st b (ix1 q) = _
  rw [hSq_apply, hSum_apply, hMean_apply]; rfl

theorem hScale_apply (st : FVec Ideal S25x2x256 .f32) (b g : FVec Ideal S256 .f32) (q : Fin 256) :
    hScale st b g (ix1 q) = Gcn.kScaleAt st b g q := by
  show g (ix1 q) * Ideal.rsqrt (hVar st b (ix1 q) + Gcn.cEps) = _
  rw [hVar_apply]; rfl

theorem hShift_apply (st : FVec Ideal S25x2x256 .f32) (b g be : FVec Ideal S256 .f32) (q : Fin 256) :
    hShift st b g be (ix1 q) = Gcn.kShiftAt st b g be q := by
  show (b (ix1 q) - hMean st b (ix1 q)) * hScale st b g (ix1 q) + be (ix1 q) = _
  rw [hMean_apply, hScale_apply]; rfl

/-- A per-feature vector reshaped to one row is `Gcn.asRow` of it. -/
theorem row_eq (v : FVec Ideal S256 .f32) (c : Gcn.Col) (hv : ∀ q : Fin 256, v (ix1 q) = c (ix1 q)) :
    (fun i => shapeCast S1x256 v shapeCasts_S256_S1x256 i) = Gcn.asRow c := by
  funext i
  refine (shapeCast_apply _ _ _ (ix1 (i 1)) ?_).trans (hv (i 1))
  rw [Shape.rowMajor_val_one, Shape.rowMajor_val_two]
  have h0 := idx2_lt0 i
  show (i 1).val = (i 0).val * 256 + (i 1).val
  omega

end Host2

open Host2

/-- The scale row. -/
theorem host2_scale (W : Valuation τ sig (Elt Ideal)) :
    StableHlo.after (hostOps2 (F := Ideal)) W (Proc.devRef .tc main_v28)
      = Gcn.asRow (Gcn.kScale (W (Proc.devRef .tc main_v1_1)) (W (Proc.devRef .tc main_arg3)) (W (Proc.devRef .tc main_arg4))) := by
  have e : StableHlo.after (hostOps2 (F := Ideal)) W (Proc.devRef .tc main_v28)
      = fun i => shapeCast S1x256 (hScale (W (Proc.devRef .tc main_v1_1)) (W (Proc.devRef .tc main_arg3)) (W (Proc.devRef .tc main_arg4))) shapeCasts_S256_S1x256 i := by
    after_results_simp
    rfl
  rw [e]
  exact row_eq _ _ fun q => hScale_apply _ _ _ q

/-- The shift row. -/
theorem host2_shift (W : Valuation τ sig (Elt Ideal)) :
    StableHlo.after (hostOps2 (F := Ideal)) W (Proc.devRef .tc main_v29)
      = Gcn.asRow (Gcn.kShift (W (Proc.devRef .tc main_v1_1)) (W (Proc.devRef .tc main_arg3)) (W (Proc.devRef .tc main_arg4)) (W (Proc.devRef .tc main_arg5))) := by
  have e : StableHlo.after (hostOps2 (F := Ideal)) W (Proc.devRef .tc main_v29)
      = fun i => shapeCast S1x256 (hShift (W (Proc.devRef .tc main_v1_1)) (W (Proc.devRef .tc main_arg3)) (W (Proc.devRef .tc main_arg4)) (W (Proc.devRef .tc main_arg5))) shapeCasts_S256_S1x256 i := by
    after_results_simp
    rfl
  rw [e]
  exact row_eq _ _ fun q => hShift_apply _ _ _ _ q

/-! Buffers these operations do not write. -/

theorem host2_keep_v1_0 (W : Valuation τ sig (Elt Ideal)) :
    StableHlo.after (hostOps2 (F := Ideal)) W (Proc.devRef .tc main_v1_0) = W (Proc.devRef .tc main_v1_0) :=
  StableHlo.after_of_forall_not_mem (b := Proc.devRef .tc main_v1_0) _ _ (List.forall_iff_forall_mem.mp (by
    simp only [hostOps2, List.Forall, StableHlo.nullary_writes, StableHlo.unary_writes, StableHlo.binary_writes,
      StableHlo.reshape_writes, Finset.mem_singleton]
    repeat' apply And.intro
    all_goals exact StableHlo.devRef_ne_of_ne (by decide)))

theorem host2_keep_arg1 (W : Valuation τ sig (Elt Ideal)) :
    StableHlo.after (hostOps2 (F := Ideal)) W (Proc.devRef .tc main_arg1) = W (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes,
      StableHlo.reshape_writes, Finset.mem_singleton]
    repeat' apply And.intro
    all_goals exact StableHlo.devRef_ne_of_ne (by decide)))

theorem host2_keep_arg6 (W : Valuation τ sig (Elt Ideal)) :
    StableHlo.after (hostOps2 (F := Ideal)) W (Proc.devRef .tc main_arg6) = W (Proc.devRef .tc main_arg6) :=
  StableHlo.after_of_forall_not_mem (b := Proc.devRef .tc main_arg6) _ _ (List.forall_iff_forall_mem.mp (by
    simp only [hostOps2, List.Forall, StableHlo.nullary_writes, StableHlo.unary_writes, StableHlo.binary_writes,
      StableHlo.reshape_writes, Finset.mem_singleton]
    repeat' apply And.intro
    all_goals exact StableHlo.devRef_ne_of_ne (by decide)))

theorem host2_keep_arg7 (W : Valuation τ sig (Elt Ideal)) :
    StableHlo.after (hostOps2 (F := Ideal)) W (Proc.devRef .tc main_arg7) = W (Proc.devRef .tc main_arg7) :=
  StableHlo.after_of_forall_not_mem (b := Proc.devRef .tc main_arg7) _ _ (List.forall_iff_forall_mem.mp (by
    simp only [hostOps2, List.Forall, StableHlo.nullary_writes, StableHlo.unary_writes, StableHlo.binary_writes,
      StableHlo.reshape_writes, Finset.mem_singleton]
    repeat' apply And.intro
    all_goals exact StableHlo.devRef_ne_of_ne (by decide)))

theorem host2_keep_arg8 (W : Valuation τ sig (Elt Ideal)) :
    StableHlo.after (hostOps2 (F := Ideal)) W (Proc.devRef .tc main_arg8) = W (Proc.devRef .tc main_arg8) :=
  StableHlo.after_of_forall_not_mem (b := Proc.devRef .tc main_arg8) _ _ (List.forall_iff_forall_mem.mp (by
    simp only [hostOps2, List.Forall, StableHlo.nullary_writes, StableHlo.unary_writes, StableHlo.binary_writes,
      StableHlo.reshape_writes, Finset.mem_singleton]
    repeat' apply And.intro
    all_goals exact StableHlo.devRef_ne_of_ne (by decide)))

theorem host2_keep_arg9 (W : Valuation τ sig (Elt Ideal)) :
    StableHlo.after (hostOps2 (F := Ideal)) W (Proc.devRef .tc main_arg9) = W (Proc.devRef .tc main_arg9) :=
  StableHlo.after_of_forall_not_mem (b := Proc.devRef .tc main_arg9) _ _ (List.forall_iff_forall_mem.mp (by
    simp only [hostOps2, List.Forall, StableHlo.nullary_writes, StableHlo.unary_writes, StableHlo.binary_writes,
      StableHlo.reshape_writes, Finset.mem_singleton]
    repeat' apply And.intro
    all_goals exact StableHlo.devRef_ne_of_ne (by decide)))

end Cert.KernelIdeal.Val

end
-- ==== Proof.KHost4.lean ====
/- The host operations between the fourth and the last launch: the second normalisation's scale row and shift row. -/
import proofs.«156090_g77017353552286_cont_9to1c4b_820_2_alg».proof.Proof.Gen.KernelIdeal.Launch
import proofs.«156090_g77017353552286_cont_9to1c4b_820_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

open Idealize.ShloMosaic.StableHlo

namespace Host4

/-- The per-group statistics: 25 groups, plane 0 the column sums, plane 1 the column sums of squares. -/
abbrev St : Type := FVec Ideal S25x2x256 .f32
/-- One number per feature. -/
abbrev Cl : Type := FVec Ideal S256 .f32

/-- A constant repeated over the 256 features. -/
def splat (w : BitVec 32) : Cl := broadcastInDim S256 ![] bcast_S_S256 (constant (F := Ideal) S_ .f32 w)

/-- Plane 0 added over the 25 groups, from zero. -/
def sum0 (st : St) : Cl :=
  Host.reduceAdd (fun i => shapeCast S25x256 (extractStridedSlice S25x1x256 ![0, 0, 0] st slices_S25x2x256_S25x1x256_0_0_0)
      shapeCasts_S25x1x256_S25x256 i) (constant (F := Ideal) S_ .f32 0x00000000#32) reducesTo_S25x256_S256_d0 h_S_
/-- Plane 1 added over the 25 groups, from zero. -/
def sum1 (st : St) : Cl :=
  Host.reduceAdd (fun i => shapeCast S25x256 (extractStridedSlice S25x1x256 ![0, 1, 0] st slices_S25x2x256_S25x1x256_0_1_0)
      shapeCasts_S25x1x256_S25x256 i) (constant (F := Ideal) S_ .f32 0x00000000#32) reducesTo_S25x256_S256_d0 h_S_
/-- μ = s/n + b. -/
def mean (st : St) (b : Cl) : Cl := addf (Host.divf (sum0 st) (splat 0x461C4000#32)) b
/-- v = (q + (2·b)·s)/n + b·b − μ·μ. -/
def var (st : St) (b : Cl) : Cl :=
  subf (addf (Host.divf (addf (sum1 st) (mulf (mulf (splat 0x40000000#32) b) (sum0 st))) (splat 0x461C4000#32)) (mulf b b))
    (mulf (mean st b) (mean st b))
/-- scale = γ · (v + ε)^(−1/2). -/
def scale (st : St) (b g : Cl) : Cl := mulf g (Host.rsqrt (addf (var st b) (splat 0x3727C5AC#32)))
/-- shift = (b − μ) · scale + β. -/
def shift (st : St) (b g be : Cl) : Cl := addf (mulf (subf b (mean st b)) (scale st b g)) be

theorem splat_apply (w : BitVec 32) (q : Fin 256) : splat w (ix1 q) = Ideal.ofBits .f32 w := rfl

/-- Plane `z` of the statistics, with its unit axis dropped, read at group `k` and column `q` (the sum's inserted index). -/
theorem plane0_apply (st : St) (hR : S25x256.Reduces [0] S256) (k : Fin 25) (q : Fin 256) :
    shapeCast S25x256 (extractStridedSlice S25x1x256 ![0, 0, 0] st slices_S25x2x256_S25x1x256_0_0_0)
        shapeCasts_S25x1x256_S25x256 (hR.lift (ix1 q) k) = st (ix3 k (0 : Fin 2) q) := by
  refine (shapeCast_apply _ shapeCasts_S25x1x256_S25x256 (hR.lift (ix1 q) k) (ix3 k (0 : Fin 1) q) ?_).trans ?_
  · rw [Shape.rowMajor_val_three, Shape.rowMajor_val_two]
    show (k.val * 1 + 0) * 256 + q.val = k.val * 256 + q.val
    omega
  · exact extractStridedSlice_apply ![0, 0, 0] st slices_S25x2x256_S25x1x256_0_0_0 (ix3 k (0 : Fin 1) q)
      (ix3 k (0 : Fin 2) q) fun a => by
        match a with
        | ⟨0, _⟩ => show k.val = 0 + k.val; omega
        | ⟨1, _⟩ => rfl
        | ⟨2, _⟩ => show q.val = 0 + q.val; omega

theorem plane1_apply (st : St) (hR : S25x256.Reduces [0] S256) (k : Fin 25) (q : Fin 256) :
    shapeCast S25x256 (extractStridedSlice S25x1x256 ![0, 1, 0] st slices_S25x2x256_S25x1x256_0_1_0)
        shapeCasts_S25x1x256_S25x256 (hR.lift (ix1 q) k) = st (ix3 k (1 : Fin 2) q) := by
  refine (shapeCast_apply _ shapeCasts_S25x1x256_S25x256 (hR.lift (ix1 q) k) (ix3 k (0 : Fin 1) q) ?_).trans ?_
  · rw [Shape.rowMajor_val_three, Shape.rowMajor_val_two]
    show (k.val * 1 + 0) * 256 + q.val = k.val * 256 + q.val
    omega
  · exact extractStridedSlice_apply ![0, 1, 0] st slices_S25x2x256_S25x1x256_0_1_0 (ix3 k (0 : Fin 1) q)
      (ix3 k (1 : Fin 2) q) fun a => by
        match a with
        | ⟨0, _⟩ => show k.val = 0 + k.val; omega
        | ⟨1, _⟩ => rfl
        | ⟨2, _⟩ => show q.val = 0 + q.val; omega

/-- The column sum: plane 0 added over the groups. -/
theorem sum0_apply (st : St) (q : Fin 256) : sum0 st (ix1 q) = Gcn.colSum st q := by
  have hR : S25x256.Reduces [0] S256 := by decide
  unfold sum0 Gcn.colSum
  rw [hostReduceAdd_apply, Ideal.hostReduceAdd_single reducesTo_S25x256_S256_d0 hR]
  exact congrArg (Gcn.cZero + ·) (Finset.sum_congr rfl fun k _ => plane0_apply st hR k q)

/-- The column sum of squares: plane 1 added over the groups. -/
theorem sum1_apply (st : St) (q : Fin 256) : sum1 st (ix1 q) = Gcn.colSq st q := by
  have hR : S25x256.Reduces [0] S256 := by decide
  unfold sum1 Gcn.colSq
  rw [hostReduceAdd_apply, Ideal.hostReduceAdd_single reducesTo_S25x256_S256_d0 hR]
  exact congrArg (Gcn.cZero + ·) (Finset.sum_congr rfl fun k _ => plane1_apply st hR k q)

theorem mean_apply (st : St) (b : Cl) (q : Fin 256) : mean st b (ix1 q) = Gcn.kMean st b q := by
  unfold mean Gcn.kMean
  rw [addf_apply, hostDivf_apply, sum0_apply, splat_apply]

theorem var_apply (st : St) (b : Cl) (q : Fin 256) : var st b (ix1 q) = Gcn.kVar st b q := by
  unfold var Gcn.kVar
  rw [subf_apply, addf_apply, hostDivf_apply, addf_apply, mulf_apply, mulf_apply, mulf_apply, mulf_apply, sum1_apply, sum0_apply,
    mean_apply, splat_apply, splat_apply]

theorem scale_apply (st : St) (b g : Cl) (q : Fin 256) : scale st b g (ix1 q) = Gcn.kScaleAt st b g q := by
  unfold scale Gcn.kScaleAt
  rw [mulf_apply]
  show g (ix1 q) * Ideal.rsqrt (addf (var st b) (splat 0x3727C5AC#32) (ix1 q)) = _
  rw [addf_apply, var_apply, splat_apply]

theorem shift_apply (st : St) (b g be : Cl) (q : Fin 256) : shift st b g be (ix1 q) = Gcn.kShiftAt st b g be q := by
  unfold shift Gcn.kShiftAt
  rw [addf_apply, mulf_apply, subf_apply, mean_apply, scale_apply]

/-- A per-feature vector laid out as one row, read at column `q`. -/
theorem asRow_eq (v : Cl) (w : Gcn.Col) (hv : ∀ q : Fin 256, v (ix1 q) = w (ix1 q)) :
    (fun i => shapeCast S1x256 v shapeCasts_S256_S1x256 i) = Gcn.asRow w := by
  funext i
  obtain ⟨z, q, rfl⟩ : ∃ (z : Fin 1) (q : Fin 256), i = ix2 z q := ⟨i 0, i 1, eq_ix2 i⟩
  refine (shapeCast_apply v shapeCasts_S256_S1x256 (ix2 z q) (ix1 q) ?_).trans (hv q)
  rw [Shape.rowMajor_val_one, Shape.rowMajor_val_two]
  show q.val = z.val * 256 + q.val
  omega

end Host4

set_option maxHeartbeats 800000 in
/-- The scale row. -/
theorem host4_scale (W : Valuation τ sig (Elt Ideal)) :
    StableHlo.after (hostOps4 (F := Ideal)) W (Proc.devRef .tc main_v58)
      = Gcn.asRow (Gcn.kScale (W (Proc.devRef .tc main_v31_1)) (W (Proc.devRef .tc main_arg7)) (W (Proc.devRef .tc main_arg8))) := by
  after_results_simp
  exact Host4.asRow_eq
    (Host4.scale (W (Proc.devRef .tc main_v31_1)) (W (Proc.devRef .tc main_arg7)) (W (Proc.devRef .tc main_arg8)))
    (Gcn.kScale (W (Proc.devRef .tc main_v31_1)) (W (Proc.devRef .tc main_arg7)) (W (Proc.devRef .tc main_arg8)))
    (fun q => Host4.scale_apply (W (Proc.devRef .tc main_v31_1)) (W (Proc.devRef .tc main_arg7)) (W (Proc.devRef .tc main_arg8)) q)

set_option maxHeartbeats 800000 in
/-- The shift row. -/
theorem host4_shift (W : Valuation τ sig (Elt Ideal)) :
    StableHlo.after (hostOps4 (F := Ideal)) W (Proc.devRef .tc main_v59)
      = Gcn.asRow (Gcn.kShift (W (Proc.devRef .tc main_v31_1)) (W (Proc.devRef .tc main_arg7)) (W (Proc.devRef .tc main_arg8)) (W (Proc.devRef .tc main_arg9))) := by
  after_results_simp
  exact Host4.asRow_eq
    (Host4.shift (W (Proc.devRef .tc main_v31_1)) (W (Proc.devRef .tc main_arg7)) (W (Proc.devRef .tc main_arg8)) (W (Proc.devRef .tc main_arg9)))
    (Gcn.kShift (W (Proc.devRef .tc main_v31_1)) (W (Proc.devRef .tc main_arg7)) (W (Proc.devRef .tc main_arg8)) (W (Proc.devRef .tc main_arg9)))
    (fun q => Host4.shift_apply (W (Proc.devRef .tc main_v31_1)) (W (Proc.devRef .tc main_arg7)) (W (Proc.devRef .tc main_arg8)) (W (Proc.devRef .tc main_arg9)) q)

/-- None of these operations writes the fourth launch's activations. -/
theorem host4_keep_v31_0 (W : Valuation τ sig (Elt Ideal)) :
    StableHlo.after (hostOps4 (F := Ideal)) W (Proc.devRef .tc main_v31_0) = W (Proc.devRef .tc main_v31_0) :=
  StableHlo.after_of_forall_not_mem (b := Proc.devRef .tc main_v31_0) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.Val

end
-- ==== Proof.KValue.lean ====
/-
  The kernel's result array as ONE function of its ten argument arrays.
  The run passes seven boundaries: after each launch the launch's result arrays hold what the launch computes of
  the arrays it reads, and every other buffer is untouched; after each stretch of host operations the scale and
  shift rows hold the normalisation's coefficients. Reading the result buffer back boundary by boundary:
    s1 = x · w1,  r1 = a · s1,  (scale1, shift1) from the column sums of r1 and r1²,
    s2 = (r1 · scale1 + shift1) · w2,  r2 = a · s2,  (scale2, shift2) likewise,
    result = tanh (r2 · scale2 + shift2),
  which is `Gcn.kernelOut` by definition.
-/
import proofs.«156090_g77017353552286_cont_9to1c4b_820_2_alg».proof.Proof.Gen.KernelIdeal.Frame
import proofs.«156090_g77017353552286_cont_9to1c4b_820_2_alg».proof.Proof.Spec
import proofs.«156090_g77017353552286_cont_9to1c4b_820_2_alg».proof.Proof.KReg0
import proofs.«156090_g77017353552286_cont_9to1c4b_820_2_alg».proof.Proof.KReg1
import proofs.«156090_g77017353552286_cont_9to1c4b_820_2_alg».proof.Proof.KReg2
import proofs.«156090_g77017353552286_cont_9to1c4b_820_2_alg».proof.Proof.KReg3
import proofs.«156090_g77017353552286_cont_9to1c4b_820_2_alg».proof.Proof.KReg4
import proofs.«156090_g77017353552286_cont_9to1c4b_820_2_alg».proof.Proof.KHost2
import proofs.«156090_g77017353552286_cont_9to1c4b_820_2_alg».proof.Proof.KHost4

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The intermediate arrays, as functions of the arguments -/

/-- x · w1. -/
def s1 (c : Dev nD) : Gcn.Act := Gcn.xw (m ((c : Thread nD τ).loc main_arg0)) (m ((c : Thread nD τ).loc main_arg2))
/-- a · (x · w1), the first layer's raw aggregate. -/
def r1 (c : Dev nD) : Gcn.Act := Gcn.agg (m ((c : Thread nD τ).loc main_arg1)) (s1 m c)
/-- The first normalisation's scale row … -/
def sc1 (c : Dev nD) : Gcn.Row := Gcn.asRow (Gcn.kScale (Gcn.stats (r1 m c)) (m ((c : Thread nD τ).loc main_arg3)) (m ((c : Thread nD τ).loc main_arg4)))
/-- … and shift row. -/
def sh1 (c : Dev nD) : Gcn.Row := Gcn.asRow (Gcn.kShift (Gcn.stats (r1 m c)) (m ((c : Thread nD τ).loc main_arg3)) (m ((c : Thread nD τ).loc main_arg4)) (m ((c : Thread nD τ).loc main_arg5)))
/-- (r1 · scale1 + shift1) · w2. -/
def s2 (c : Dev nD) : Gcn.Act := Gcn.xw (Gcn.affine (r1 m c) (sc1 m c) (sh1 m c)) (m ((c : Thread nD τ).loc main_arg6))
/-- The second layer's raw aggregate. -/
def r2 (c : Dev nD) : Gcn.Act := Gcn.agg (m ((c : Thread nD τ).loc main_arg1)) (s2 m c)
def sc2 (c : Dev nD) : Gcn.Row := Gcn.asRow (Gcn.kScale (Gcn.stats (r2 m c)) (m ((c : Thread nD τ).loc main_arg7)) (m ((c : Thread nD τ).loc main_arg8)))
def sh2 (c : Dev nD) : Gcn.Row := Gcn.asRow (Gcn.kShift (Gcn.stats (r2 m c)) (m ((c : Thread nD τ).loc main_arg7)) (m ((c : Thread nD τ).loc main_arg8)) (m ((c : Thread nD τ).loc main_arg9)))

/-! ## After the first launch -/

theorem W1_v0 (c : Dev nD) : W1 m ρ c (Proc.devRef .tc main_v0) = s1 m c :=
  (W1_arr m ρ c 2).trans (reg0_out (V0 m ρ) c)

theorem W1_arg1 (c : Dev nD) : W1 m ρ c (Proc.devRef .tc main_arg1) = (m ((c : Thread nD τ).loc main_arg1)) :=
  W1_of_ne m ρ c main_arg1 (by decide)

/-! ## After the second launch -/

theorem W2_v1_0 (c : Dev nD) : W2 m ρ c (Proc.devRef .tc main_v1_0) = r1 m c :=
  (W2_arr m ρ c 2).trans ((reg1_out (V1 m ρ) c).trans (congrArg₂ Gcn.agg (W1_arg1 m ρ c) (W1_v0 m ρ c)))

theorem W2_v1_1 (c : Dev nD) : W2 m ρ c (Proc.devRef .tc main_v1_1) = Gcn.stats (r1 m c) :=
  (W2_arr m ρ c 3).trans ((reg1_stats (V1 m ρ) c).trans
    (congrArg Gcn.stats (congrArg₂ Gcn.agg (W1_arg1 m ρ c) (W1_v0 m ρ c))))

/-- The adjacency is an input of the second launch: it is left as the launch found it. -/
theorem W2_arg1 (c : Dev nD) : W2 m ρ c (Proc.devRef .tc main_arg1) = (m ((c : Thread nD τ).loc main_arg1)) :=
  (W2_arr m ρ c 0).trans ((((dat1 (V1 m ρ) c).arrAt_in 0 rfl _).trans (A_eq1 (V1 m ρ) c 0)).trans (W1_arg1 m ρ c))

/-- Neither of the first two launches touches an argument it does not read. -/
theorem W2_arg (c : Dev nD) (b : Ref sig .tc) (h0 : ∀ w, Pipeline.arrRef spec0 w ≠ b) (h1 : ∀ w, Pipeline.arrRef spec1 w ≠ b) :
    W2 m ρ c (Proc.devRef .tc b) = W0 m ρ c (Proc.devRef .tc b) :=
  (W2_of_ne m ρ c b h1).trans (W1_of_ne m ρ c b h0)

/-! ## After the first stretch of host operations -/

theorem W3_v28 (c : Dev nD) : W3 m ρ c (Proc.devRef .tc main_v28) = sc1 m c := by
  refine (host2_scale (W2 m ρ c)).trans ?_
  rw [W2_v1_1 m ρ c, W2_arg m ρ c main_arg3 (by decide) (by decide), W2_arg m ρ c main_arg4 (by decide) (by decide)]
  rfl

theorem W3_v29 (c : Dev nD) : W3 m ρ c (Proc.devRef .tc main_v29) = sh1 m c := by
  refine (host2_shift (W2 m ρ c)).trans ?_
  rw [W2_v1_1 m ρ c, W2_arg m ρ c main_arg3 (by decide) (by decide), W2_arg m ρ c main_arg4 (by decide) (by decide),
    W2_arg m ρ c main_arg5 (by decide) (by decide)]
  rfl

theorem W3_v1_0 (c : Dev nD) : W3 m ρ c (Proc.devRef .tc main_v1_0) = r1 m c :=
  (host2_keep_v1_0 (W2 m ρ c)).trans (W2_v1_0 m ρ c)

theorem W3_arg6 (c : Dev nD) : W3 m ρ c (Proc.devRef .tc main_arg6) = (m ((c : Thread nD τ).loc main_arg6)) :=
  (host2_keep_arg6 (W2 m ρ c)).trans (W2_arg m ρ c main_arg6 (by decide) (by decide))

theorem W3_arg1 (c : Dev nD) : W3 m ρ c (Proc.devRef .tc main_arg1) = (m ((c : Thread nD τ).loc main_arg1)) :=
  (host2_keep_arg1 (W2 m ρ c)).trans (W2_arg1 m ρ c)

theorem W3_arg7 (c : Dev nD) : W3 m ρ c (Proc.devRef .tc main_arg7) = (m ((c : Thread nD τ).loc main_arg7)) :=
  (host2_keep_arg7 (W2 m ρ c)).trans (W2_arg m ρ c main_arg7 (by decide) (by decide))
theorem W3_arg8 (c : Dev nD) : W3 m ρ c (Proc.devRef .tc main_arg8) = (m ((c : Thread nD τ).loc main_arg8)) :=
  (host2_keep_arg8 (W2 m ρ c)).trans (W2_arg m ρ c main_arg8 (by decide) (by decide))
theorem W3_arg9 (c : Dev nD) : W3 m ρ c (Proc.devRef .tc main_arg9) = (m ((c : Thread nD τ).loc main_arg9)) :=
  (host2_keep_arg9 (W2 m ρ c)).trans (W2_arg m ρ c main_arg9 (by decide) (by decide))

/-! ## After the third launch -/

theorem W4_v30 (c : Dev nD) : W4 m ρ c (Proc.devRef .tc main_v30) = s2 m c :=
  (W4_arr m ρ c 4).trans ((reg2_out (V3 m ρ) c).trans
    (congrArg₂ Gcn.xw (congr (congrArg₂ Gcn.affine (W3_v1_0 m ρ c) (W3_v28 m ρ c)) (W3_v29 m ρ c)) (W3_arg6 m ρ c)))

theorem W4_arg1 (c : Dev nD) : W4 m ρ c (Proc.devRef .tc main_arg1) = (m ((c : Thread nD τ).loc main_arg1)) :=
  (W4_of_ne m ρ c main_arg1 (by decide)).trans (W3_arg1 m ρ c)

/-! ## After the fourth launch -/

theorem W5_v31_0 (c : Dev nD) : W5 m ρ c (Proc.devRef .tc main_v31_0) = r2 m c :=
  (W5_arr m ρ c 2).trans ((reg3_out (V4 m ρ) c).trans (congrArg₂ Gcn.agg (W4_arg1 m ρ c) (W4_v30 m ρ c)))

theorem W5_v31_1 (c : Dev nD) : W5 m ρ c (Proc.devRef .tc main_v31_1) = Gcn.stats (r2 m c) :=
  (W5_arr m ρ c 3).trans ((reg3_stats (V4 m ρ) c).trans
    (congrArg Gcn.stats (congrArg₂ Gcn.agg (W4_arg1 m ρ c) (W4_v30 m ρ c))))

theorem W5_arg7 (c : Dev nD) : W5 m ρ c (Proc.devRef .tc main_arg7) = (m ((c : Thread nD τ).loc main_arg7)) :=
  (W5_of_ne m ρ c main_arg7 (by decide)).trans ((W4_of_ne m ρ c main_arg7 (by decide)).trans (W3_arg7 m ρ c))
theorem W5_arg8 (c : Dev nD) : W5 m ρ c (Proc.devRef .tc main_arg8) = (m ((c : Thread nD τ).loc main_arg8)) :=
  (W5_of_ne m ρ c main_arg8 (by decide)).trans ((W4_of_ne m ρ c main_arg8 (by decide)).trans (W3_arg8 m ρ c))
theorem W5_arg9 (c : Dev nD) : W5 m ρ c (Proc.devRef .tc main_arg9) = (m ((c : Thread nD τ).loc main_arg9)) :=
  (W5_of_ne m ρ c main_arg9 (by decide)).trans ((W4_of_ne m ρ c main_arg9 (by decide)).trans (W3_arg9 m ρ c))

/-! ## After the second stretch of host operations -/

theorem W6_v58 (c : Dev nD) : W6 m ρ c (Proc.devRef .tc main_v58) = sc2 m c := by
  refine (host4_scale (W5 m ρ c)).trans ?_
  rw [W5_v31_1 m ρ c, W5_arg7 m ρ c, W5_arg8 m ρ c]
  rfl

theorem W6_v59 (c : Dev nD) : W6 m ρ c (Proc.devRef .tc main_v59) = sh2 m c := by
  refine (host4_shift (W5 m ρ c)).trans ?_
  rw [W5_v31_1 m ρ c, W5_arg7 m ρ c, W5_arg8 m ρ c, W5_arg9 m ρ c]
  rfl

theorem W6_v31_0 (c : Dev nD) : W6 m ρ c (Proc.devRef .tc main_v31_0) = r2 m c :=
  (host4_keep_v31_0 (W5 m ρ c)).trans (W5_v31_0 m ρ c)

/-! ## After the last launch -/

/-- The result buffer at the last boundary is the one-pass network of the arguments. -/
theorem kernel_value (c : Dev nD) :
    W7 m ρ c (Proc.devRef .tc main_v60)
      = Gcn.kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W7_arr m ρ c 3).trans ((reg4_out (V6 m ρ) c).trans
    (congr (congrArg₂ Gcn.tanhAffine (W6_v31_0 m ρ c) (W6_v58 m ρ c)) (W6_v59 m ρ c)))

end Cert.KernelIdeal.Val

end
-- ==== Proof.RefTerm.lean ====
/-
  The reference network's result as ONE term of its ten argument arrays: the host operations of its program
  composed, stage by stage, each stage spelt with the operation the program applies.

  `pre x a w b`   : a · (x · w) + b (the bias broadcast over the rows);
  `meanT h`       : the column sums over the 10000 rows divided by 10000;
  `varT h`        : the column means again (as a row), the centred squares summed over the rows and divided by
                    `10000 − 0` (the "delta degrees of freedom" 0, converted from an integer), guarded by
                    "`10000 − 0 > 0`, else not-a-number";
  `norm h g be`   : (h − mean) / √(var + ε) · g + be;
  `refTerm`       : tanh (norm (pre (norm (pre x a w1 b1) g1 be1) a w2 b2) g2 be2).
-/
import proofs.«156090_g77017353552286_cont_9to1c4b_820_2_alg».proof.ReferenceIdeal

noncomputable section

namespace Cert.ReferenceIdeal.Term

open Idealize.ShloMosaic Cert.ReferenceIdeal
open Cert.ReferenceIdeal.Facts₀ Cert.ReferenceIdeal.Facts

variable {F : FTy → Type} [FloatOps F] [Facts]

/-- A per-feature vector repeated on every row. -/
def rows (v : FVec F S256 .f32) : FVec F S10000x256 .f32 :=
  broadcastInDim S10000x256 ![0, 1] bcast_S1x256_S10000x256_0_1 (broadcastInDim S1x256 ![1] bcast_S256_S1x256_1 v)

/-- a · (x · w) + b. -/
def pre (x : FVec F S10000x256 .f32) (a : FVec F S10000x10000 .f32) (w : FVec F S256x256 .f32) (b : FVec F S256 .f32) :
    FVec F S10000x256 .f32 :=
  addf (Host.dotGeneral dot_S10000x10000_S10000x256_S10000x256_1_0_0_1_n_n none a
      (Host.dotGeneral dot_S10000x256_S256x256_S10000x256_1_0_0_1_n_n none x w)) (rows b)

/-- The column sums over the rows. -/
def colSums (h : FVec F S10000x256 .f32) : FVec F S256 .f32 :=
  Host.reduceAdd h (constant S_ .f32 0x00000000#32) reducesTo_S10000x256_S256_d0 h_S_

/-- The column means. -/
def meanT (h : FVec F S10000x256 .f32) : FVec F S256 .f32 :=
  Host.divf (colSums h) (broadcastInDim S256 ![] bcast_S_S256 (constant S_ .f32 0x461C4000#32))

/-- The divisor of the variance: 10000 minus the integer 0 converted. -/
def dof : FVec F S_ .f32 := subf (constant S_ .f32 0x461C4000#32) (sitofp .f32 (constantI S_ 32 0#32))

/-- The centred values: h minus its column means (taken as a row first). -/
def centred (h : FVec F S10000x256 .f32) : FVec F S10000x256 .f32 :=
  subf h (broadcastInDim S10000x256 ![0, 1] bcast_S1x256_S10000x256_0_1
    (Host.divf (broadcastInDim S1x256 ![1] bcast_S256_S1x256_1 (colSums h))
      (broadcastInDim S1x256 ![] bcast_S_S1x256 (constant S_ .f32 0x461C4000#32))))

/-- The column variances, guarded. -/
def varT (h : FVec F S10000x256 .f32) : FVec F S256 .f32 :=
  select (broadcastInDim S256 ![] bcast_S_S256 (cmpf (F := F) .ogt dof (constant S_ .f32 0x00000000#32)))
    (Host.divf (colSums (mulf (centred h) (centred h))) (broadcastInDim S256 ![] bcast_S_S256 dof))
    (broadcastInDim S256 ![] bcast_S_S256 (id (constant S_ .f32 0x7FC00000#32)))

/-- (h − mean) / √(var + ε) · g + be. -/
def norm (h : FVec F S10000x256 .f32) (g be : FVec F S256 .f32) : FVec F S10000x256 .f32 :=
  addf (mulf (Host.divf (subf h (rows (meanT h)))
      (rows (Host.sqrt (addf (varT h) (broadcastInDim S256 ![] bcast_S_S256 (constant S_ .f32 0x3727C5AC#32))))))
    (rows g)) (rows be)

/-- The reference's result. -/
def refTerm (x : FVec F S10000x256 .f32) (a : FVec F S10000x10000 .f32) (w1 : FVec F S256x256 .f32)
    (b1 g1 be1 : FVec F S256 .f32) (w2 : FVec F S256x256 .f32) (b2 g2 be2 : FVec F S256 .f32) : FVec F S10000x256 .f32 :=
  Host.tanh (norm (pre (norm (pre x a w1 b1) g1 be1) a w2 b2) g2 be2)

end Cert.ReferenceIdeal.Term

end
-- ==== Proof.RefRun.lean ====
/-
  The reference program's run, read back: every weakly fair execution of its @main terminates, the result
  buffer holds `Term.refTerm` of the ten argument arrays as launched, and the arguments are unchanged.
  @main is a straight line of host operations with two calls of the variance function (which itself calls the
  guard `where`); each call is the callee's operations on that call's own buffers. The line is written out as
  five stretches — the first layer up to its column means, the variance's twenty-two operations, the first
  normalisation with the second layer up to its column means, the variance again, the second normalisation with
  the hyperbolic tangent — whose concatenation @main is by unfolding; the fold of the operations' results over
  the launch contents, read at the result buffer, is the composed term, and at an argument buffer what was there.
-/
import proofs.«156090_g77017353552286_cont_9to1c4b_820_2_alg».proof.ReferenceIdeal
import proofs.«156090_g77017353552286_cont_9to1c4b_820_2_alg».proof.Proof.Gen.ReferenceIdeal
import proofs.«156090_g77017353552286_cont_9to1c4b_820_2_alg».proof.Proof.RefTerm
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first layer's pre-activation, its column sums and means, and the integer zero the variance takes. -/
abbrev opsA : List (HloOp τ sig (Elt F)) :=
  [ StableHlo.binary main_arg0 main_arg2 main_v0 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.binary main_arg1 main_v0 main_v1 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    StableHlo.unary main_arg3 main_v2 (broadcastInDim S1x256 ![1] bcast_S256_S1x256_1 : (⟨S256, .f32⟩ : BufTy).Contents (Elt F) → (⟨S1x256, .f32⟩ : BufTy).Contents (Elt F)),
    StableHlo.unary main_v2 main_v3 (broadcastInDim S10000x256 ![0, 1] bcast_S1x256_S10000x256_0_1 : (⟨S1x256, .f32⟩ : BufTy).Contents (Elt F) → (⟨S10000x256, .f32⟩ : BufTy).Contents (Elt F)),
    StableHlo.binary main_v1 main_v3 main_v4 (addf : (⟨S10000x256, .f32⟩ : BufTy).Contents (Elt F) → (⟨S10000x256, .f32⟩ : BufTy).Contents (Elt F) → (⟨S10000x256, .f32⟩ : BufTy).Contents (Elt F)),
    StableHlo.nullary main_cst (constant S_ .f32 0x00000000#32),
    StableHlo.binary main_v4 main_cst main_v5 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.nullary main_cst_0 (constant S_ .f32 0x461C4000#32),
    StableHlo.unary main_cst_0 main_v6 (broadcastInDim S256 ![] bcast_S_S256 : (⟨S_, .f32⟩ : BufTy).Contents (Elt F) → (⟨S256, .f32⟩ : BufTy).Contents (Elt F)),
    StableHlo.binary main_v5 main_v6 main_v7 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32) ]

/-- The variance function's operations on one call's buffers, the guard's three last. -/
abbrev varOps (arg0 : StableHlo.TRef sig ⟨S10000x256, .f32⟩) (arg1 : StableHlo.TRef sig ⟨S_, .i32⟩) (φ : fn_var.Bufs) :
    List (HloOp τ sig (Elt F)) :=
  [ StableHlo.TRef.nullary φ.cst (constant S_ .f32 0x00000000#32),
    StableHlo.TRef.binary arg0 φ.cst φ.v0 (fun x v => Host.reduceAdd x v reducesTo_S10000x256_S256_d0 h_S_),
    StableHlo.TRef.unary φ.v0 φ.v1 (broadcastInDim S1x256 ![1] bcast_S256_S1x256_1),
    StableHlo.TRef.nullary φ.cst_0 (constant S_ .f32 0x461C4000#32),
    StableHlo.TRef.unary φ.cst_0 φ.v2 (broadcastInDim S1x256 ![] bcast_S_S1x256),
    StableHlo.TRef.binary φ.v1 φ.v2 φ.v3 Host.divf,
    StableHlo.TRef.unary φ.v3 φ.v4 (broadcastInDim S10000x256 ![0, 1] bcast_S1x256_S10000x256_0_1),
    StableHlo.TRef.binary arg0 φ.v4 φ.v5 subf,
    StableHlo.TRef.binary φ.v5 φ.v5 φ.v6 mulf,
    StableHlo.TRef.unary arg1 φ.v7 (sitofp (F := F) .f32),
    StableHlo.TRef.nullary φ.cst_1 (constant S_ .f32 0x461C4000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S10000x256_S256_d0 h_S_),
    StableHlo.TRef.unary φ.v8 φ.v10 (broadcastInDim S256 ![] bcast_S_S256),
    StableHlo.TRef.binary φ.v9 φ.v10 φ.v11 Host.divf,
    StableHlo.TRef.nullary φ.cst_3 (constant S_ .f32 0x00000000#32),
    StableHlo.TRef.binary φ.v8 φ.cst_3 φ.v12 (cmpf (F := F) .ogt),
    StableHlo.TRef.nullary φ.cst_4 (constant S_ .f32 0x7FC00000#32),
    StableHlo.TRef.unary φ.cst_4 φ.call0.v0 id,
    StableHlo.TRef.unary φ.call0.v0 φ.call0.v1 (broadcastInDim S256 ![] bcast_S_S256),
    StableHlo.TRef.ternary φ.v12 φ.v11 φ.call0.v1 φ.call0.v2 (fun p a b => select (broadcastInDim S256 ![] bcast_S_S256 p) a b) ]

/-- The first layer normalised, the second layer's pre-activation, its column sums and means. -/
abbrev opsB : List (HloOp τ sig (Elt F)) :=
  [ StableHlo.unary main_v7 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S10000x256 ![0, 1] bcast_S1x256_S10000x256_0_1 : (⟨S1x256, .f32⟩ : BufTy).Contents (Elt F) → (⟨S10000x256, .f32⟩ : BufTy).Contents (Elt F)),
    StableHlo.binary main_v4 main_v10 main_v11 (subf : (⟨S10000x256, .f32⟩ : BufTy).Contents (Elt F) → (⟨S10000x256, .f32⟩ : BufTy).Contents (Elt F) → (⟨S10000x256, .f32⟩ : BufTy).Contents (Elt F)),
    StableHlo.nullary main_cst_1 (constant S_ .f32 0x3727C5AC#32),
    StableHlo.unary main_cst_1 main_v12 (broadcastInDim S256 ![] bcast_S_S256 : (⟨S_, .f32⟩ : BufTy).Contents (Elt F) → (⟨S256, .f32⟩ : BufTy).Contents (Elt F)),
    StableHlo.binary main_v8 main_v12 main_v13 (addf : (⟨S256, .f32⟩ : BufTy).Contents (Elt F) → (⟨S256, .f32⟩ : BufTy).Contents (Elt F) → (⟨S256, .f32⟩ : BufTy).Contents (Elt F)),
    StableHlo.unary main_v13 main_v14 (Host.sqrt : (⟨S256, .f32⟩ : BufTy).Contents (Elt F) → (⟨S256, .f32⟩ : BufTy).Contents (Elt F)),
    StableHlo.unary main_v14 main_v15 (broadcastInDim S1x256 ![1] bcast_S256_S1x256_1 : (⟨S256, .f32⟩ : BufTy).Contents (Elt F) → (⟨S1x256, .f32⟩ : BufTy).Contents (Elt F)),
    StableHlo.unary main_v15 main_v16 (broadcastInDim S10000x256 ![0, 1] bcast_S1x256_S10000x256_0_1 : (⟨S1x256, .f32⟩ : BufTy).Contents (Elt F) → (⟨S10000x256, .f32⟩ : BufTy).Contents (Elt F)),
    StableHlo.binary main_v11 main_v16 main_v17 (Host.divf : (⟨S10000x256, .f32⟩ : BufTy).Contents (Elt F) → (⟨S10000x256, .f32⟩ : BufTy).Contents (Elt F) → (⟨S10000x256, .f32⟩ : BufTy).Contents (Elt F)),
    StableHlo.unary main_arg4 main_v18 (broadcastInDim S1x256 ![1] bcast_S256_S1x256_1 : (⟨S256, .f32⟩ : BufTy).Contents (Elt F) → (⟨S1x256, .f32⟩ : BufTy).Contents (Elt F)),
    StableHlo.unary main_v18 main_v19 (broadcastInDim S10000x256 ![0, 1] bcast_S1x256_S10000x256_0_1 : (⟨S1x256, .f32⟩ : BufTy).Contents (Elt F) → (⟨S10000x256, .f32⟩ : BufTy).Contents (Elt F)),
    StableHlo.binary main_v17 main_v19 main_v20 (mulf : (⟨S10000x256, .f32⟩ : BufTy).Contents (Elt F) → (⟨S10000x256, .f32⟩ : BufTy).Contents (Elt F) → (⟨S10000x256, .f32⟩ : BufTy).Contents (Elt F)),
    StableHlo.unary main_arg5 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S10000x256 ![0, 1] bcast_S1x256_S10000x256_0_1 : (⟨S1x256, .f32⟩ : BufTy).Contents (Elt F) → (⟨S10000x256, .f32⟩ : BufTy).Contents (Elt F)),
    StableHlo.binary main_v20 main_v22 main_v23 (addf : (⟨S10000x256, .f32⟩ : BufTy).Contents (Elt F) → (⟨S10000x256, .f32⟩ : BufTy).Contents (Elt F) → (⟨S10000x256, .f32⟩ : BufTy).Contents (Elt F)),
    StableHlo.binary main_v23 main_arg6 main_v24 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.binary main_arg1 main_v24 main_v25 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    StableHlo.unary main_arg7 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S10000x256 ![0, 1] bcast_S1x256_S10000x256_0_1 : (⟨S1x256, .f32⟩ : BufTy).Contents (Elt F) → (⟨S10000x256, .f32⟩ : BufTy).Contents (Elt F)),
    StableHlo.binary main_v25 main_v27 main_v28 (addf : (⟨S10000x256, .f32⟩ : BufTy).Contents (Elt F) → (⟨S10000x256, .f32⟩ : BufTy).Contents (Elt F) → (⟨S10000x256, .f32⟩ : BufTy).Contents (Elt F)),
    StableHlo.nullary main_cst_2 (constant S_ .f32 0x00000000#32),
    StableHlo.binary main_v28 main_cst_2 main_v29 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.nullary main_cst_3 (constant S_ .f32 0x461C4000#32),
    StableHlo.unary main_cst_3 main_v30 (broadcastInDim S256 ![] bcast_S_S256 : (⟨S_, .f32⟩ : BufTy).Contents (Elt F) → (⟨S256, .f32⟩ : BufTy).Contents (Elt F)),
    StableHlo.binary main_v29 main_v30 main_v31 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32) ]

/-- The second layer normalised and the hyperbolic tangent. -/
abbrev opsC : List (HloOp τ sig (Elt F)) :=
  [ StableHlo.unary main_v31 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S10000x256 ![0, 1] bcast_S1x256_S10000x256_0_1 : (⟨S1x256, .f32⟩ : BufTy).Contents (Elt F) → (⟨S10000x256, .f32⟩ : BufTy).Contents (Elt F)),
    StableHlo.binary main_v28 main_v34 main_v35 (subf : (⟨S10000x256, .f32⟩ : BufTy).Contents (Elt F) → (⟨S10000x256, .f32⟩ : BufTy).Contents (Elt F) → (⟨S10000x256, .f32⟩ : BufTy).Contents (Elt F)),
    StableHlo.nullary main_cst_5 (constant S_ .f32 0x3727C5AC#32),
    StableHlo.unary main_cst_5 main_v36 (broadcastInDim S256 ![] bcast_S_S256 : (⟨S_, .f32⟩ : BufTy).Contents (Elt F) → (⟨S256, .f32⟩ : BufTy).Contents (Elt F)),
    StableHlo.binary main_v32 main_v36 main_v37 (addf : (⟨S256, .f32⟩ : BufTy).Contents (Elt F) → (⟨S256, .f32⟩ : BufTy).Contents (Elt F) → (⟨S256, .f32⟩ : BufTy).Contents (Elt F)),
    StableHlo.unary main_v37 main_v38 (Host.sqrt : (⟨S256, .f32⟩ : BufTy).Contents (Elt F) → (⟨S256, .f32⟩ : BufTy).Contents (Elt F)),
    StableHlo.unary main_v38 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S10000x256 ![0, 1] bcast_S1x256_S10000x256_0_1 : (⟨S1x256, .f32⟩ : BufTy).Contents (Elt F) → (⟨S10000x256, .f32⟩ : BufTy).Contents (Elt F)),
    StableHlo.binary main_v35 main_v40 main_v41 (Host.divf : (⟨S10000x256, .f32⟩ : BufTy).Contents (Elt F) → (⟨S10000x256, .f32⟩ : BufTy).Contents (Elt F) → (⟨S10000x256, .f32⟩ : BufTy).Contents (Elt F)),
    StableHlo.unary main_arg8 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S10000x256 ![0, 1] bcast_S1x256_S10000x256_0_1 : (⟨S1x256, .f32⟩ : BufTy).Contents (Elt F) → (⟨S10000x256, .f32⟩ : BufTy).Contents (Elt F)),
    StableHlo.binary main_v41 main_v43 main_v44 (mulf : (⟨S10000x256, .f32⟩ : BufTy).Contents (Elt F) → (⟨S10000x256, .f32⟩ : BufTy).Contents (Elt F) → (⟨S10000x256, .f32⟩ : BufTy).Contents (Elt F)),
    StableHlo.unary main_arg9 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S10000x256 ![0, 1] bcast_S1x256_S10000x256_0_1 : (⟨S1x256, .f32⟩ : BufTy).Contents (Elt F) → (⟨S10000x256, .f32⟩ : BufTy).Contents (Elt F)),
    StableHlo.binary main_v44 main_v46 main_v47 (addf : (⟨S10000x256, .f32⟩ : BufTy).Contents (Elt F) → (⟨S10000x256, .f32⟩ : BufTy).Contents (Elt F) → (⟨S10000x256, .f32⟩ : BufTy).Contents (Elt F)),
    StableHlo.unary main_v47 main_v48 (Host.tanh : (⟨S10000x256, .f32⟩ : BufTy).Contents (Elt F) → (⟨S10000x256, .f32⟩ : BufTy).Contents (Elt F)) ]

/-- The whole line: the five stretches in order. -/
abbrev ops : List (HloOp τ sig (Elt F)) :=
  opsA ++ (varOps (.of main_v4) (.of main_c) main_call0 ++ (opsB ++ (varOps (.of main_v28) (.of main_c_4) main_call1 ++ opsC)))

/-- The variance function's body is its operations run in order (the guard's body in its place). -/
theorem var_body_eq (arg0 : StableHlo.TRef sig ⟨S10000x256, .f32⟩) (arg1 : StableHlo.TRef sig ⟨S_, .i32⟩) (φ : fn_var.Bufs) :
    fn_var.body (F := F) arg0 arg1 φ = seq (varOps arg0 arg1 φ) := by
  chain_rfl

/-- @main is the whole line run in order, each call its callee's operations on that call's buffers. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
theorem varOps_sub (arg0 : StableHlo.TRef sig ⟨S10000x256, .f32⟩) (arg1 : StableHlo.TRef sig ⟨S_, .i32⟩) (φ : fn_var.Bufs) :
    (varOps (F := F) arg0 arg1 φ).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsB_sub : (opsB : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩
theorem ops_sub : (ops : List (HloOp τ sig (Elt F))).Forall fun op => op.bufs ⊆ tcRefs τ sig :=
  List.forall_append.2 ⟨opsA_sub, List.forall_append.2 ⟨varOps_sub _ _ _, List.forall_append.2 ⟨opsB_sub,
    List.forall_append.2 ⟨varOps_sub _ _ _, opsC_sub⟩⟩⟩⟩

/-- Every operation of the line determines its result. -/
theorem opsA_fresh : (opsA : List (HloOp τ sig (Elt F))).Forall fun op => op.fresh = ∅ :=
  ⟨rfl, rfl, rfl, rfl, rfl, rfl, rfl, rfl, rfl, rfl, rfl⟩
theorem varOps_fresh (arg0 : StableHlo.TRef sig ⟨S10000x256, .f32⟩) (arg1 : StableHlo.TRef sig ⟨S_, .i32⟩) (φ : fn_var.Bufs) :
    (varOps (F := F) arg0 arg1 φ).Forall fun op => op.fresh = ∅ :=
  ⟨rfl, rfl, rfl, rfl, rfl, rfl, rfl, rfl, rfl, rfl, rfl, rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl⟩
theorem ops_fresh : ∀ op ∈ (ops : List (HloOp τ sig (Elt F))), op.fresh = ∅ :=
  List.forall_iff_forall_mem.1 (List.forall_append.2 ⟨opsA_fresh, List.forall_append.2 ⟨varOps_fresh _ _ _,
    List.forall_append.2 ⟨opsB_fresh, List.forall_append.2 ⟨varOps_fresh _ _ _, opsC_fresh⟩⟩⟩⟩)

/-- Every weakly fair execution of @main terminates with each buffer at the line's fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The fold read at the result and at the arguments -/

set_option maxRecDepth 8192 in
set_option maxHeartbeats 1000000 in
/-- At the result buffer the line's fold is the stages of `Term.refTerm` composed: each operation's result at its
    own buffer is its function of its operands' contents, every other buffer keeps what it held; the typed
    references of the two calls are literal, so their transports are the identity. -/
theorem val_eq (V : Valuation τ sig (Elt F)) :
    after ops V (main_v48 : DevRef τ sig) = Term.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  simp only [ops, after_append]
  after_results_simp
  simp only [TRef.ofBuf, TRef.toBuf, cast_eq]
  rfl

/-! No operation of the line writes an argument. -/

theorem arg0_eq (V : Valuation τ sig (Elt F)) :
    after ops V (main_arg0 : DevRef τ sig) = V (main_arg0 : DevRef τ sig) := by
  simp only [ops, after_append]
  after_results_simp
theorem arg1_eq (V : Valuation τ sig (Elt F)) :
    after ops V (main_arg1 : DevRef τ sig) = V (main_arg1 : DevRef τ sig) := by
  simp only [ops, after_append]
  after_results_simp
theorem arg2_eq (V : Valuation τ sig (Elt F)) :
    after ops V (main_arg2 : DevRef τ sig) = V (main_arg2 : DevRef τ sig) := by
  simp only [ops, after_append]
  after_results_simp
theorem arg3_eq (V : Valuation τ sig (Elt F)) :
    after ops V (main_arg3 : DevRef τ sig) = V (main_arg3 : DevRef τ sig) := by
  simp only [ops, after_append]
  after_results_simp
theorem arg4_eq (V : Valuation τ sig (Elt F)) :
    after ops V (main_arg4 : DevRef τ sig) = V (main_arg4 : DevRef τ sig) := by
  simp only [ops, after_append]
  after_results_simp
theorem arg5_eq (V : Valuation τ sig (Elt F)) :
    after ops V (main_arg5 : DevRef τ sig) = V (main_arg5 : DevRef τ sig) := by
  simp only [ops, after_append]
  after_results_simp
theorem arg6_eq (V : Valuation τ sig (Elt F)) :
    after ops V (main_arg6 : DevRef τ sig) = V (main_arg6 : DevRef τ sig) := by
  simp only [ops, after_append]
  after_results_simp
theorem arg7_eq (V : Valuation τ sig (Elt F)) :
    after ops V (main_arg7 : DevRef τ sig) = V (main_arg7 : DevRef τ sig) := by
  simp only [ops, after_append]
  after_results_simp
theorem arg8_eq (V : Valuation τ sig (Elt F)) :
    after ops V (main_arg8 : DevRef τ sig) = V (main_arg8 : DevRef τ sig) := by
  simp only [ops, after_append]
  after_results_simp
theorem arg9_eq (V : Valuation τ sig (Elt F)) :
    after ops V (main_arg9 : DevRef τ sig) = V (main_arg9 : DevRef τ sig) := by
  simp only [ops, after_append]
  after_results_simp

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = Term.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v48).trans (val_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_fold m ρ)

end Cert.ReferenceIdeal.RefRun

end
-- ==== Proof.RefValue.lean ====
/-
  The reference's term read index by index: at the extended reals each host operation is the textbook one, so
  the composed term is `Gcn.refOut`, the direct spelling of the two normalised layers.

  The stages, in order: a per-feature vector repeated on every row reads back its entry; the two matrix products are
  sums over the one contracted coordinate; the column sum over the rows is the start value plus the sum over the row
  coordinate; the variance's divisor 10000 − 0 is the node count, its guard "10000 − 0 > 0" holds, so the guarded
  variance is the plain quotient; the pointwise operations read pointwise.
-/
import proofs.«156090_g77017353552286_cont_9to1c4b_820_2_alg».proof.Proof.RefTerm
import proofs.«156090_g77017353552286_cont_9to1c4b_820_2_alg».proof.Proof.Gen.ReferenceIdeal
import proofs.«156090_g77017353552286_cont_9to1c4b_820_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

/-! ## Broadcasts -/

/-- A scalar broadcast to any shape reads the scalar. -/
theorem bcast0_apply {t : Shape} {α : Type} (h : S_.BroadcastsInDim t (![] : Fin 0 → Fin t.rank)) (v : S_.Idx → α)
    (j : t.Idx) : broadcastInDim t ![] h v j = v ix0 :=
  broadcastInDim_apply _ h v j ix0 (fun a => a.elim0)

/-- A per-feature vector repeated on every row reads, at row `p` and column `q`, its entry `q`. -/
theorem rows_apply (v : FVec Ideal S256 .f32) (p : Fin 10000) (q : Fin 256) :
    Term.rows v (ix2 p q) = v (ix1 q) := by
  unfold Term.rows
  refine (broadcastInDim_apply _ _ _ (ix2 p q) (ix2 (0 : Fin 1) q) ?_).trans ?_
  · intro a
    match a with
    | ⟨0, _⟩ => rfl
    | ⟨1, _⟩ => rfl
  · refine broadcastInDim_apply _ _ _ _ (ix1 q) ?_
    intro a
    match a with
    | ⟨0, _⟩ => rfl

/-- The same for the one-row layout: a vector laid out as a single row reads its entry. -/
theorem row1_apply (v : FVec Ideal S256 .f32) (z : Fin 1) (q : Fin 256) :
    broadcastInDim S1x256 ![1] Facts₀.bcast_S256_S1x256_1 v (ix2 z q) = v (ix1 q) := by
  refine broadcastInDim_apply _ _ _ _ (ix1 q) ?_
  intro a
  match a with
  | ⟨0, _⟩ => rfl

/-- A single row repeated on every row. -/
theorem rowsOf1_apply (v : FVec Ideal S1x256 .f32) (p : Fin 10000) (q : Fin 256) :
    broadcastInDim S10000x256 ![0, 1] Facts₀.bcast_S1x256_S10000x256_0_1 v (ix2 p q) = v (ix2 (0 : Fin 1) q) := by
  refine broadcastInDim_apply _ _ _ (ix2 p q) (ix2 (0 : Fin 1) q) ?_
  intro a
  match a with
  | ⟨0, _⟩ => rfl
  | ⟨1, _⟩ => rfl

/-! ## The two matrix products -/

section Dots
open Facts₀

/-- Left operand of x · w: the row coordinate is the result's. -/
theorem lhs_xw_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide),
    dif_pos (show (0 : Fin S10000x256.rank) ∈ dot_S10000x256_S256x256_S10000x256_1_0_0_1_n_n.lhsNonContracting by decide)]
  rfl
/-- … and its column coordinate is the contracted one. -/
theorem lhs_xw_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
/-- Right operand of x · w: the row coordinate is the contracted one … -/
theorem rhs_xw_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
/-- … and its column coordinate is the result's. -/
theorem rhs_xw_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide),
    dif_pos (show (1 : Fin S256x256.rank) ∈ dot_S10000x256_S256x256_S10000x256_1_0_0_1_n_n.rhsNonContracting by decide)]
  rfl

/-- (x · w) p q = Σ_l x p l · w l q. -/
theorem xw_apply (x : FVec Ideal S10000x256 .f32) (w : FVec Ideal S256x256 .f32) (p : Fin 10000) (q : Fin 256) :
    Host.dotGeneral (F := Ideal) dot_S10000x256_S256x256_S10000x256_1_0_0_1_n_n none x w (ix2 p q)
      = ∑ l : Fin 256, x (ix2 p l) * w (ix2 l q) := by
  simp only [Host.dotGeneral]
  rw [Ideal.dotGeneral_apply,
    ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx (ix2 p q)
      ((ValueIdx.contrEquiv1 dot_S10000x256_S256x256_S10000x256_1_0_0_1_n_n 256 rfl rfl).symm k) = ix2 p k :=
    funext fun a => Fin.ext (by
      match a with
      | ⟨0, _⟩ => exact lhs_xw_0 _ _
      | ⟨1, _⟩ => exact (lhs_xw_1 _ _).trans hk)
  have er : dot_S10000x256_S256x256_S10000x256_1_0_0_1_n_n.rhsIdx (ix2 p q)
      ((ValueIdx.contrEquiv1 dot_S10000x256_S256x256_S10000x256_1_0_0_1_n_n 256 rfl rfl).symm k) = ix2 k q :=
    funext fun a => Fin.ext (by
      match a with
      | ⟨0, _⟩ => exact (rhs_xw_0 _ _).trans hk
      | ⟨1, _⟩ => exact rhs_xw_1 _ _)
  rw [el, er]

/-- Left operand of a · s: the row coordinate is the result's. -/
theorem lhs_agg_0 (i : S10000x256.Idx) (q : dot_S10000x10000_S10000x256_S10000x256_1_0_0_1_n_n.contr.Idx) :
    (dot_S10000x10000_S10000x256_S10000x256_1_0_0_1_n_n.lhsIdx i q 0).val = (i 0).val := by
  unfold DotDims.lhsIdx
  rw [dif_neg (show ¬(0 : Fin S10000x10000.rank) ∈ dot_S10000x10000_S10000x256_S10000x256_1_0_0_1_n_n.lhsBatch by decide),
    dif_pos (show (0 : Fin S10000x10000.rank) ∈ dot_S10000x10000_S10000x256_S10000x256_1_0_0_1_n_n.lhsNonContracting by decide)]
  rfl
/-- … and its column coordinate is the contracted one. -/
theorem lhs_agg_1 (i : S10000x256.Idx) (q : dot_S10000x10000_S10000x256_S10000x256_1_0_0_1_n_n.contr.Idx) :
    (dot_S10000x10000_S10000x256_S10000x256_1_0_0_1_n_n.lhsIdx i q 1).val = (q ⟨0, by decide⟩).val :=
  dot_S10000x10000_S10000x256_S10000x256_1_0_0_1_n_n.lhsIdx_val_of_single rfl i q
/-- Right operand of a · s: the row coordinate is the contracted one … -/
theorem rhs_agg_0 (i : S10000x256.Idx) (q : dot_S10000x10000_S10000x256_S10000x256_1_0_0_1_n_n.contr.Idx) :
    (dot_S10000x10000_S10000x256_S10000x256_1_0_0_1_n_n.rhsIdx i q 0).val = (q ⟨0, by decide⟩).val :=
  dot_S10000x10000_S10000x256_S10000x256_1_0_0_1_n_n.rhsIdx_val_of_single rfl i q
/-- … and its column coordinate is the result's. -/
theorem rhs_agg_1 (i : S10000x256.Idx) (q : dot_S10000x10000_S10000x256_S10000x256_1_0_0_1_n_n.contr.Idx) :
    (dot_S10000x10000_S10000x256_S10000x256_1_0_0_1_n_n.rhsIdx i q 1).val = (i 1).val := by
  unfold DotDims.rhsIdx
  rw [dif_neg (show ¬(1 : Fin S10000x256.rank) ∈ dot_S10000x10000_S10000x256_S10000x256_1_0_0_1_n_n.rhsBatch by decide),
    dif_pos (show (1 : Fin S10000x256.rank) ∈ dot_S10000x10000_S10000x256_S10000x256_1_0_0_1_n_n.rhsNonContracting by decide)]
  rfl

/-- (a · s) p q = Σ_k a p k · s k q. -/
theorem agg_apply (a : FVec Ideal S10000x10000 .f32) (s : FVec Ideal S10000x256 .f32) (p : Fin 10000) (q : Fin 256) :
    Host.dotGeneral (F := Ideal) dot_S10000x10000_S10000x256_S10000x256_1_0_0_1_n_n none a s (ix2 p q)
      = ∑ k : Fin 10000, a (ix2 p k) * s (ix2 k q) := by
  simp only [Host.dotGeneral]
  rw [Ideal.dotGeneral_apply,
    ← Equiv.sum_comp (ValueIdx.contrEquiv1 dot_S10000x10000_S10000x256_S10000x256_1_0_0_1_n_n 10000 rfl rfl).symm]
  refine Finset.sum_congr rfl fun k _ => ?_
  have hk := ValueIdx.contrEquiv1_symm_val dot_S10000x10000_S10000x256_S10000x256_1_0_0_1_n_n 10000 rfl rfl k
  have el : dot_S10000x10000_S10000x256_S10000x256_1_0_0_1_n_n.lhsIdx (ix2 p q)
      ((ValueIdx.contrEquiv1 dot_S10000x10000_S10000x256_S10000x256_1_0_0_1_n_n 10000 rfl rfl).symm k) = ix2 p k :=
    funext fun b => Fin.ext (by
      match b with
      | ⟨0, _⟩ => exact lhs_agg_0 _ _
      | ⟨1, _⟩ => exact (lhs_agg_1 _ _).trans hk)
  have er : dot_S10000x10000_S10000x256_S10000x256_1_0_0_1_n_n.rhsIdx (ix2 p q)
      ((ValueIdx.contrEquiv1 dot_S10000x10000_S10000x256_S10000x256_1_0_0_1_n_n 10000 rfl rfl).symm k) = ix2 k q :=
    funext fun b => Fin.ext (by
      match b with
      | ⟨0, _⟩ => exact (rhs_agg_0 _ _).trans hk
      | ⟨1, _⟩ => exact rhs_agg_1 _ _)
  rw [el, er]

end Dots

/-! ## The column sums -/

/-- The column sum over the rows: the start value plus the sum over the row coordinate. -/
theorem colSums_apply (h : FVec Ideal S10000x256 .f32) (q : Fin 256) :
    Term.colSums h (ix1 q) = Gcn.cZero + ∑ k : Fin 10000, h (ix2 k q) := by
  unfold Term.colSums
  simp only [Host.reduceAdd, Ideal.hostReduceAdd_def]
  rw [Ideal.hostReduceAdd_single Facts₀.reducesTo_S10000x256_S256_d0 (by decide)]
  refine congrArg (_ + ·) (Finset.sum_congr rfl fun k _ => ?_)
  exact congrArg h (funext fun a => Fin.ext (by match a with | ⟨0, _⟩ => rfl | ⟨1, _⟩ => rfl))

/-! ## The mean -/

/-- The column mean is the column sum over the node count. -/
theorem meanT_apply (h : FVec Ideal S10000x256 .f32) (q : Fin 256) :
    Term.meanT h (ix1 q) = Gcn.rMean h q := by
  unfold Term.meanT Host.divf Gcn.rMean
  rw [colSums_apply, bcast0_apply]
  rfl

/-- The centred value: the entry minus its column's mean. -/
theorem centred_apply (h : FVec Ideal S10000x256 .f32) (p : Fin 10000) (q : Fin 256) :
    Term.centred h (ix2 p q) = h (ix2 p q) - Gcn.rMean h q := by
  unfold Term.centred Host.divf Gcn.rMean
  rw [subf_apply, rowsOf1_apply, row1_apply, colSums_apply, bcast0_apply]
  rfl

/-! ## The variance's divisor and guard -/

/-- The divisor 10000 − 0 (the 0 converted from an integer) is the node count. -/
theorem dof_apply (i : S_.Idx) : Term.dof (F := Ideal) i = Gcn.cN := by
  unfold Term.dof
  rw [subf_apply, constant_apply, sitofp_apply]
  show Gcn.cN - (((0#32 : BitVec 32).toInt : ℝ) : EReal) = Gcn.cN
  have h0 : (0#32 : BitVec 32).toInt = 0 := by decide
  rw [h0, Int.cast_zero, EReal.coe_zero, sub_zero]

/-- The guard "10000 − 0 > 0" holds. -/
theorem guard_apply (hN : Gcn.cN = ((10000 : ℝ) : EReal)) (i : S_.Idx) :
    cmpf (F := Ideal) .ogt Term.dof (constant S_ .f32 0x00000000#32) i = 1#1 := by
  rw [cmpf_apply, dof_apply, constant_apply, Ideal.cmpf_def, Ideal.ofBits_zero_f32, hN]
  have hpos : (0 : EReal) < ((10000 : ℝ) : EReal) := by exact_mod_cast (by norm_num : (0 : ℝ) < 10000)
  simp only [Ideal.cmp, hpos, decide_true]
  rfl

/-- So the guarded variance is the plain one: the centred squares summed over the rows, over the node count. -/
theorem varT_apply (hN : Gcn.cN = ((10000 : ℝ) : EReal)) (h : FVec Ideal S10000x256 .f32) (q : Fin 256) :
    Term.varT h (ix1 q) = Gcn.rVar h q := by
  unfold Term.varT
  rw [select_apply, bcast0_apply, guard_apply hN, select_one]
  unfold Host.divf Gcn.rVar
  rw [colSums_apply, bcast0_apply, dof_apply]
  show Ideal.div _ _ = Ideal.div _ _
  refine congrArg (fun t => Ideal.div (Gcn.cZero + t) Gcn.cN) (Finset.sum_congr rfl fun k _ => ?_)
  rw [mulf_apply, centred_apply]

/-! ## One layer -/

/-- The host's quotient, read at an index. -/
theorem hostDivf_apply {s : Shape} (u v : FVec Ideal s .f32) (i : s.Idx) : Host.divf u v i = Ideal.div (u i) (v i) := rfl
/-- The host's square root, read at an index. -/
theorem hostSqrt_apply {s : Shape} (u : FVec Ideal s .f32) (i : s.Idx) : Host.sqrt u i = Ideal.sqrt (u i) := rfl

/-- a · (x · w) + b, index by index. -/
theorem pre_eq (x : FVec Ideal S10000x256 .f32) (a : FVec Ideal S10000x10000 .f32) (w : FVec Ideal S256x256 .f32)
    (b : FVec Ideal S256 .f32) : Term.pre x a w b = Gcn.addBias (Gcn.agg a (Gcn.xw x w)) b := by
  funext i
  obtain ⟨p, q, rfl⟩ : ∃ (p : Fin 10000) (q : Fin 256), i = ix2 p q := ⟨i 0, i 1, eq_ix2 i⟩
  unfold Term.pre
  rw [addf_apply, rows_apply, agg_apply]
  show _ = Gcn.aggAt a (Gcn.xw x w) p q + b (ix1 q)
  unfold Gcn.aggAt
  refine congrArg (· + b (ix1 q)) (Finset.sum_congr rfl fun k _ => ?_)
  rw [xw_apply]
  rfl

/-- (h − mean) / √(var + ε) · g + be, index by index. -/
theorem norm_eq (hN : Gcn.cN = ((10000 : ℝ) : EReal)) (h : FVec Ideal S10000x256 .f32) (g be : FVec Ideal S256 .f32) :
    Term.norm h g be = Gcn.rLayer h g be := by
  funext i
  obtain ⟨p, q, rfl⟩ : ∃ (p : Fin 10000) (q : Fin 256), i = ix2 p q := ⟨i 0, i 1, eq_ix2 i⟩
  unfold Term.norm
  rw [addf_apply, mulf_apply, hostDivf_apply, subf_apply, rows_apply, rows_apply, rows_apply, rows_apply,
    hostSqrt_apply, addf_apply, meanT_apply, varT_apply hN, bcast0_apply]
  rfl

/-! ## The whole network -/

/-- The reference's term is the direct spelling (`hN`: the word for the node count denotes 10000, which decides the
    variance's guard and identifies its divisor). -/
theorem refTerm_eq (hN : Gcn.cN = ((10000 : ℝ) : EReal)) (x : Gcn.Act) (a : Gcn.Adj) (w1 : Gcn.Wgt) (b1 g1 be1 : Gcn.Col) (w2 : Gcn.Wgt) (b2 g2 be2 : Gcn.Col) :
    Term.refTerm (F := Ideal) x a w1 b1 g1 be1 w2 b2 g2 be2 = Gcn.refOut x a w1 b1 g1 be1 w2 b2 g2 be2 := by
  unfold Term.refTerm Gcn.refOut Host.tanh
  rw [pre_eq, norm_eq hN, pre_eq, norm_eq hN]
  rfl

end Cert.ReferenceIdeal.RefValue

end
-- ==== Proof.lean ====
/-
  A two-layer graph convolution with batch normalisation over the nodes, computed by five launches that fold each
  normalisation into an affine map from one-pass column statistics, against the direct formula
  tanh (BN (a · (BN (a · (x · w1) + b1) · w2) + b2)).

  * The kernel's three-part run (frames of both readings of the kernel) is the launch theorem over its seven
    segments; for the value the same run also names the result buffer, which is read back boundary by boundary
    to `Gcn.kernelOut` of the ten argument arrays.
  * The reference's run leaves its result at the composed term of its host operations, which index by index is
    `Gcn.refOut`.
  * On finite inputs the two are one function: per feature column both variances are q/n − s²/n² for the column
    sum s and the column sum of squares q, and (h − μ)/√(v + ε)·γ + β = r·scale + shift.
  The idealisation rewrote nothing, so the kernel's idealised reading is the kernel's own text.
-/
import proofs.«156090_g77017353552286_cont_9to1c4b_820_2_alg».proof.Defs
import proofs.«156090_g77017353552286_cont_9to1c4b_820_2_alg».proof.Proof.Gen.Kernel
import proofs.«156090_g77017353552286_cont_9to1c4b_820_2_alg».proof.Proof.Gen.Kernel.Skeleton
import proofs.«156090_g77017353552286_cont_9to1c4b_820_2_alg».proof.Proof.Gen.Kernel.Launch
import proofs.«156090_g77017353552286_cont_9to1c4b_820_2_alg».proof.Proof.Gen.Kernel.Points
import proofs.«156090_g77017353552286_cont_9to1c4b_820_2_alg».proof.Proof.Gen.Kernel.Frame
import proofs.«156090_g77017353552286_cont_9to1c4b_820_2_alg».proof.Proof.Gen.KernelIdeal
import proofs.«156090_g77017353552286_cont_9to1c4b_820_2_alg».proof.Proof.Gen.KernelIdeal.Skeleton
import proofs.«156090_g77017353552286_cont_9to1c4b_820_2_alg».proof.Proof.Gen.KernelIdeal.Launch
import proofs.«156090_g77017353552286_cont_9to1c4b_820_2_alg».proof.Proof.Gen.KernelIdeal.Points
import proofs.«156090_g77017353552286_cont_9to1c4b_820_2_alg».proof.Proof.Gen.KernelIdeal.Frame
import proofs.«156090_g77017353552286_cont_9to1c4b_820_2_alg».proof.Proof.Gen.ReferenceIdeal
import proofs.«156090_g77017353552286_cont_9to1c4b_820_2_alg».proof.Proof.Gen.Pre_finite_inputs
import proofs.«156090_g77017353552286_cont_9to1c4b_820_2_alg».proof.Proof.Spec
import proofs.«156090_g77017353552286_cont_9to1c4b_820_2_alg».proof.Proof.Consts
import proofs.«156090_g77017353552286_cont_9to1c4b_820_2_alg».proof.Proof.Bridge
import proofs.«156090_g77017353552286_cont_9to1c4b_820_2_alg».proof.Proof.Finite
import proofs.«156090_g77017353552286_cont_9to1c4b_820_2_alg».proof.Proof.KRun
import proofs.«156090_g77017353552286_cont_9to1c4b_820_2_alg».proof.Proof.KValue
import proofs.«156090_g77017353552286_cont_9to1c4b_820_2_alg».proof.Proof.RefRun
import proofs.«156090_g77017353552286_cont_9to1c4b_820_2_alg».proof.Proof.RefValue
import Idealize.ShloMosaic.Adequacy
import Idealize.ShloMosaic.Init

noncomputable section

namespace Cert.Proof

open Idealize.ShloMosaic Idealize.SL.Sem

/-- The kernel as printed runs, its arguments unchanged. -/
theorem frame_k : Cert.frame_Kernel := fun m ρ _ => Cert.Kernel.Gen.frame m ρ

/-- So does its idealised reading. -/
theorem frame_ki : Cert.frame_KernelIdeal := fun m ρ _ => Cert.KernelIdeal.Gen.frame m ρ

/-- The reference runs: its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end at `Gcn.kernelOut` of the arguments: the kernel by
    its run read back, the reference because its term is `Gcn.refOut`, which on finite inputs is the same function. -/
theorem algebraic : Cert.algebraic_KernelIdeal_ReferenceIdeal := by
  intro m ρ m' ρ' hpre hagree
  refine ⟨fun c => Gcn.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Val.kernel_value m ρ c), (h c).2⟩)
      (Cert.KernelIdeal.GenV.run_value (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9⟩ := hagree c
    obtain ⟨f0, f1, f2, f3, f4, f5, f6, f7, f8, f9⟩ := Cert.Proof.Finite.isReal_of_pre m hpre c
    rw [e0, e1, e2, e3, e4, e5, e6, e7, e8, e9, Cert.ReferenceIdeal.RefValue.refTerm_eq Gcn.cN_eq]
    exact (Gcn.kernelOut_eq_refOut Gcn.cN_eq Gcn.cTwo_eq Gcn.cEps_pos Gcn.cZero_eq _ _ _ _ _ _ _ _ _ _
      f0 f1 f2 f3 f4 f5 f6 f7 f8 f9).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
